-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S640000 : Shape := ⟨1, ![640000]⟩
abbrev S50000 : Shape := ⟨1, ![50000]⟩
abbrev S128 : Shape := ⟨1, ![128]⟩
abbrev S_ : Shape := ⟨0, ![]⟩
abbrev S1x640000 : Shape := ⟨2, ![1, 640000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S640000 : S_.BroadcastsInDim S640000 (![] : Fin 0 → Fin S640000.rank)
  reducesTo_S640000_S_d0 : S640000.ReducesTo [0] S_
  bcast_S_S128 : S_.BroadcastsInDim S128 (![] : Fin 0 → Fin S128.rank)
  reducesTo_S128_S_d0 : S128.ReducesTo [0] S_
  slices_S2x640000_S1x640000_1_0 : S2x640000.Slices ![1, 0] S1x640000
  shapeCasts_S1x640000_S640000 : S1x640000.ShapeCasts S640000
  bcast_S_S50000 : S_.BroadcastsInDim S50000 (![] : Fin 0 → Fin S50000.rank)
  reducesTo_S50000_S_d0 : S50000.ReducesTo [0] S_

variable [Facts]

def fn_part2 {F : FTy → Type} [FloatOps F] (main_v29 : IVec S_ 1) (main_v31 : IVec S50000 1) (main_v33 : IVec S50000 1) : IVec S_ 1 :=
  let main_v34 : IVec S50000 1 := andi main_v31 main_v33
  let main_c_12 : IVec S_ 1 := constantI S_ 1 1#1
  let main_v35 : IVec S_ 1 := (fun x v => Host.reduce IntOp.andi x v reducesTo_S50000_S_d0 h_S_) main_v34 main_c_12
  let main_v36 : IVec S_ 1 := andi main_v29 main_v35
  main_v36

def fn_part1 {F : FTy → Type} [FloatOps F] (main_arg1 : IVec S2x640000 32) (main_arg3 : IVec S50000 32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : IVec S1x640000 32 := (extractStridedSlice S1x640000 ![1, 0] · slices_S2x640000_S1x640000_1_0) main_arg1
  let main_v25 : IVec S640000 32 := shapeCast S640000 main_v24 shapeCasts_S1x640000_S640000
  let main_c_8 : IVec S_ 32 := constantI S_ 32 0#32
  let main_v26 : IVec S640000 32 := broadcastInDim S640000 ![] bcast_S_S640000 main_c_8
  let main_v27 : IVec S640000 1 := cmpi .sge main_v25 main_v26
  let main_c_9 : IVec S_ 1 := constantI S_ 1 1#1
  let main_v28 : IVec S_ 1 := (fun x v => Host.reduce IntOp.andi x v reducesTo_S640000_S_d0 h_S_) main_v27 main_c_9
  let main_v29 : IVec S_ 1 := andi main_v23 main_v28
  let main_c_10 : IVec S_ 32 := constantI S_ 32 0#32
  let main_v30 : IVec S50000 32 := broadcastInDim S50000 ![] bcast_S_S50000 main_c_10
  let main_v31 : IVec S50000 1 := cmpi .sge main_arg3 main_v30
  let main_c_11 : IVec S_ 32 := constantI S_ 32 50#32
  let main_v32 : IVec S50000 32 := broadcastInDim S50000 ![] bcast_S_S50000 main_c_11
  let main_v33 : IVec S50000 1 := cmpi .slt main_arg3 main_v32
  fn_part2 (F := F) main_v29 main_v31 main_v33

def fn {F : FTy → Type} [FloatOps F] (main_arg0 : FVec F S50000x128 .f32) (main_arg1 : IVec S2x640000 32) (main_arg2 : FVec F S640000 .f32) (main_arg3 : IVec S50000 32) (main_arg4 : FVec F S128 .f32) (main_arg5 : FVec F S128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S640000 .f32 := Host.absf main_arg2
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg3 main_arg6 main_v13 main_v16
-- ==== Kernel.lean ====
abbrev S50000x128 : Shape := ⟨2, ![50000, 128]⟩
abbrev S2x640000 : Shape := ⟨2, ![2, 640000]⟩
abbrev S640000 : Shape := ⟨1, ![640000]⟩
abbrev S50000 : Shape := ⟨1, ![50000]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50000x1 : Shape := ⟨2, ![50000, 1]⟩
abbrev S50x1 : Shape := ⟨2, ![50, 1]⟩
abbrev S50x128 : Shape := ⟨2, ![50, 128]⟩
abbrev S5000x128 : Shape := ⟨2, ![5000, 128]⟩
abbrev S5000x1 : Shape := ⟨2, ![5000, 1]⟩
abbrev S5000x50 : Shape := ⟨2, ![5000, 50]⟩
abbrev S1x128 : Shape := ⟨2, ![1, 128]⟩

abbrev nBuf : Space → Nat
  | .hbm => 79
  | .vmem => 27
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S640000, .f32⟩
  | .hbm, ⟨3, _⟩ => ⟨S50000, .i32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S1x640000, .i32⟩
  | .hbm, ⟨8, _⟩ => ⟨S640000, .i32⟩
  | .hbm, ⟨9, _⟩ => ⟨S1x640000, .i32⟩
  | .hbm, ⟨10, _⟩ => ⟨S640000, .i32⟩
  | .hbm, ⟨11, _⟩ => ⟨S_, .f32⟩
  | .hbm, ⟨12, _⟩ => ⟨S50000, .f32⟩
  | .hbm, ⟨13, _⟩ => ⟨S640000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000, .f32⟩
  | .hbm, ⟨34, _⟩ => ⟨S640000, .f32⟩
  | .hbm, ⟨35, _⟩ => ⟨S_, .i32⟩
  | .hbm, ⟨36, _⟩ => ⟨S640000, .i32⟩
  | .hbm, ⟨37, _⟩ => ⟨S640000, .i1⟩
  | .hbm, ⟨38, _⟩ => ⟨S_, .i32⟩
  | .hbm, ⟨39, _⟩ => ⟨S640000, .i32⟩
  | .hbm, ⟨40, _⟩ => ⟨S640000, .i32⟩
  | .hbm, ⟨41, _⟩ => ⟨S640000, .i32⟩
  | .hbm, ⟨42, _⟩ => ⟨S640000x1, .i32⟩
  | .hbm, ⟨43, _⟩ => ⟨S640000, .f32⟩
  | .hbm, ⟨44, _⟩ => ⟨S640000, .f32⟩
  | .hbm, ⟨45, _⟩ => ⟨S_, .i32⟩
  | .hbm, ⟨46, _⟩ => ⟨S640000, .i32⟩
  | .hbm, ⟨47, _⟩ => ⟨S640000, .i1⟩
  | .hbm, ⟨48, _⟩ => ⟨S_, .i32⟩
  | .hbm, ⟨49, _⟩ => ⟨S640000, .i32⟩
  | .hbm, ⟨50, _⟩ => ⟨S640000, .i32⟩
  | .hbm, ⟨51, _⟩ => ⟨S640000, .i32⟩
  | .hbm, ⟨52, _⟩ => ⟨S640000x1, .i32⟩
  | .hbm, ⟨53, _⟩ => ⟨S640000x128, .f32⟩
  | .hbm, ⟨54, _⟩ => ⟨S640000x1, .f32⟩
  | .hbm, ⟨55, _⟩ => ⟨S640000x128, .f32⟩
  | .hbm, ⟨56, _⟩ => ⟨S640000x128, .f32⟩
  | .hbm, ⟨57, _⟩ => ⟨S_, .f32⟩
  | .hbm, ⟨58, _⟩ => ⟨S50000x128, .f32⟩
  | .hbm, ⟨59, _⟩ => ⟨S640000x1, .i32⟩
  | .hbm, ⟨60, _⟩ => ⟨S50000x128, .f32⟩
  | .hbm, ⟨61, _⟩ => ⟨S_, .f32⟩
  | .hbm, ⟨62, _⟩ => ⟨S50000x1, .f32⟩
  | .hbm, ⟨63, _⟩ => ⟨S_, .f32⟩
  | .hbm, ⟨64, _⟩ => ⟨S50x1, .f32⟩
  | .hbm, ⟨65, _⟩ => ⟨S50000x1, .i32⟩
  | .hbm, ⟨66, _⟩ => ⟨S50x1, .f32⟩
  | .hbm, ⟨67, _⟩ => ⟨S_, .f32⟩
  | .hbm, ⟨68, _⟩ => ⟨S50x1, .f32⟩
  | .hbm, ⟨69, _⟩ => ⟨S50x1, .f32⟩
  | .hbm, ⟨70, _⟩ => ⟨S50000x1, .i32⟩
  | .hbm, ⟨71, _⟩ => ⟨S50000x128, .f32⟩
  | .hbm, ⟨72, _⟩ => ⟨S50x128, .f32⟩
  | .hbm, ⟨73, _⟩ => ⟨S50x128, .f32⟩
  | .hbm, ⟨74, _⟩ => ⟨S50x128, .f32⟩
  | .hbm, ⟨75, _⟩ => ⟨S50x128, .f32⟩
  | .hbm, ⟨76, _⟩ => ⟨S50x128, .f32⟩
  | .hbm, ⟨77, _⟩ => ⟨S50x128, .f32⟩
  | .hbm, ⟨78, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .i32⟩
  | .local _ .vmem, ⟨5, _⟩ => ⟨S5000x1, .i32⟩
  | .local _ .vmem, ⟨6, _⟩ => ⟨S5000x128, .f32⟩
  | .local _ .vmem, ⟨7, _⟩ => ⟨S5000x128, .f32⟩
  | .local _ .vmem, ⟨8, _⟩ => ⟨S50x128, .f32⟩
  | .local _ .vmem, ⟨9, _⟩ => ⟨S5000x128, .f32⟩
  | .local _ .vmem, ⟨10, _⟩ => ⟨S5000x128, .f32⟩
  | .local _ .vmem, ⟨11, _⟩ => ⟨S5000x1, .i32⟩
  | .local _ .vmem, ⟨12, _⟩ => ⟨S5000x1, .i32⟩
  | .local _ .vmem, ⟨13, _⟩ => ⟨S50x128, .f32⟩
  | .local _ .vmem, ⟨14, _⟩ => ⟨S128, .f32⟩
  | .local _ .vmem, ⟨15, _⟩ => ⟨S50x128, .f32⟩
  | .local _ .vmem, ⟨16, _⟩ => ⟨S5000x128, .f32⟩
  | .local _ .vmem, ⟨17, _⟩ => ⟨S5000x128, .f32⟩
  | .local _ .vmem, ⟨18, _⟩ => ⟨S5000x1, .i32⟩
  | .local _ .vmem, ⟨19, _⟩ => ⟨S5000x1, .i32⟩
  | .local _ .vmem, ⟨20, _⟩ => ⟨S50x128, .f32⟩
  | .local _ .vmem, ⟨21, _⟩ => ⟨S50x128, .f32⟩
  | .local _ .vmem, ⟨22, _⟩ => ⟨S128, .f32⟩
  | .local _ .vmem, ⟨23, _⟩ => ⟨S128, .f32⟩
  | .local _ .vmem, ⟨24, _⟩ => ⟨S128, .f32⟩
  | .local _ .vmem, ⟨25, _⟩ => ⟨S5000x128, .f32⟩
  | .local _ .vmem, ⟨26, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_11 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48_0 : Ref sig .tc := ⟨.hbm, 71, rfl⟩
abbrev main_v48_1 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg7_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem7_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S50x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S50x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S50x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S50x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S50x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S50000 : S_.BroadcastsInDim S50000 (![] : Fin 0 → Fin S50000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S_S50x1 : S_.BroadcastsInDim S50x1 (![] : Fin 0 → Fin S50x1.rank)
  bcast_S50000_S50000x1_0 : S50000.BroadcastsInDim S50000x1 (![0] : Fin 1 → Fin S50000x1.rank)
  shapeCasts_S50000_S50000x1 : S50000.ShapeCasts S50000x1
  inb_S50x128_S50x128_0_0 : ∀ a, (![0, 0] : Fin 2 → Nat) a + S50x128.size a ≤ S50x128.size a
  h_S50x128 : 0 < S50x128.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x50_d1_w32 : S5000x50.Iotas .tc 32 [1]
  broadcasts_S5000x1_S5000x50 : S5000x1.Broadcasts S5000x50
  natLt_1_32 : 1 < 32
  bitsLt_bf16_f32 : FTy.bits .bf16 < FTy.bits .f32
  shapeCasts_S50x128_S50x128 : S50x128.ShapeCasts S50x128
  bcast_S50x1_S50x128_0_1 : S50x1.BroadcastsInDim S50x128 (![0, 1] : Fin 2 → Fin S50x128.rank)
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50x1_S50000x1_S50000x1_1_0_0_1_wf : ScatterDims.WF S50x1 S50000x1 S50000x1 [1] [0] [0] 1
  dot_S5000x50_S5000x128_S50x128_0_0_1_1_n_n_wf : DotDims.WF S5000x50 S5000x128 S50x128 [0] [0] [1] [1] [] []
  dot_S5000x50_S50x128_S5000x128_1_0_0_1_n_n_wf : DotDims.WF S5000x50 S50x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .i32 = 32 ∨ (Rect.block (s := S50000x1) S5000x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x128.size a ≤ S50x128.size a
  hwx0_4 : ∀ i : grid0.Coords, EltTy.bits .f32 = 32 ∨ (Rect.block (s := S50x128) S50x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .i32 = 32 ∨ (Rect.block (s := S50000x1) S5000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S50x128.size a ≤ S50x128.size a
  hwx1_2 : ∀ i : grid1.Coords, EltTy.bits .f32 = 32 ∨ (Rect.block (s := S50x128) S50x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S50x128.size a ≤ S50x128.size a
  hwx1_4 : ∀ i : grid1.Coords, EltTy.bits .f32 = 32 ∨ (Rect.block (s := S50x128) S50x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .i32 = 32 ∨ (Rect.block (s := S50000x1) S5000x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S50x128.size a ≤ S50x128.size a
  hwx2_2 : ∀ i : grid2.Coords, EltTy.bits .f32 = 32 ∨ (Rect.block (s := S50x128) S50x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S50x128.size a ≤ S50x128.size a
  hwx2_3 : ∀ i : grid2.Coords, EltTy.bits .f32 = 32 ∨ (Rect.block (s := S50x128) S50x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50x1_S50000x1_S50000x1_1_0_0_1 : ScatterDims S50x1 S50000x1 S50000x1 where
  updateWindowDims := [1]
  insertedWindowDims := [0]
  scatterDimsToOperandDims := [0]
  indexVectorDim := 1
  wf := scatter_S50x1_S50000x1_S50000x1_1_0_0_1_wf
def dot_S5000x50_S5000x128_S50x128_0_0_1_1_n_n : DotDims S5000x50 S5000x128 S50x128 where
  lhsContracting := [0]
  rhsContracting := [0]
  lhsNonContracting := [1]
  rhsNonContracting := [1]
  lhsBatch := []
  rhsBatch := []
  wf := dot_S5000x50_S5000x128_S50x128_0_0_1_1_n_n_wf
def dot_S5000x50_S50x128_S5000x128_1_0_0_1_n_n : DotDims S5000x50 S50x128 S5000x128 where
  lhsContracting := [1]
  rhsContracting := [0]
  lhsNonContracting := [0]
  rhsNonContracting := [1]
  lhsBatch := []
  rhsBatch := []
  wf := dot_S5000x50_S50x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v40) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v48_0) S5000x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v48_1) S50x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v48_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v50) S50x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S50x128.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v50) S50x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S50x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg4) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v54) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S640000 : Shape := ⟨1, ![640000]⟩
abbrev S50000 : Shape := ⟨1, ![50000]⟩
abbrev S128 : Shape := ⟨1, ![128]⟩
abbrev S1x640000 : Shape := ⟨2, ![1, 640000]⟩
abbrev S_ : Shape := ⟨0, ![]⟩
abbrev S640000x1 : Shape := ⟨2, ![640000, 1]⟩
abbrev S640000x128 : Shape := ⟨2, ![640000, 128]⟩
abbrev S50x128 : Shape := ⟨2, ![50, 128]⟩
abbrev S50000x1 : Shape := ⟨2, ![50000, 1]⟩
abbrev S50x1 : Shape := ⟨2, ![50, 1]⟩
abbrev S1x128 : Shape := ⟨2, ![1, 128]⟩

abbrev nBuf : Space → Nat
  | .hbm => 136
  | .vmem => 0
  | .smem => 0
  | _ => 0

abbrev hbmTy0_0 (i : Nat) : BufTy := match i % 128 with
  | 0 => ⟨S50000x128, .f32⟩
  | 1 => ⟨S2x640000, .i32⟩
  | 2 => ⟨S640000, .f32⟩
  | 3 => ⟨S50000, .i32⟩
  | 4 => ⟨S128, .f32⟩
  | 5 => ⟨S128, .f32⟩
  | 6 => ⟨S128, .f32⟩
  | 7 => ⟨S1x640000, .i32⟩
  | 8 => ⟨S640000, .i32⟩
  | 9 => ⟨S1x640000, .i32⟩
  | 10 => ⟨S640000, .i32⟩
  | 11 => ⟨S_, .f32⟩
  | 12 => ⟨S50000, .f32⟩
  | 13 => ⟨S640000x1, .i32⟩
  | 14 => ⟨S50000, .f32⟩
  | 15 => ⟨S_, .f32⟩
  | 16 => ⟨S50000, .f32⟩
  | 17 => ⟨S50000, .i1⟩
  | 18 => ⟨S_, .f32⟩
  | 19 => ⟨S50000, .f32⟩
  | 20 => ⟨S50000, .f32⟩
  | 21 => ⟨S_, .f32⟩
  | 22 => ⟨S_, .f32⟩
  | 23 => ⟨S50000, .f32⟩
  | 24 => ⟨S50000, .f32⟩
  | 25 => ⟨S_, .i32⟩
  | 26 => ⟨S640000, .i32⟩
  | 27 => ⟨S640000, .i1⟩
  | 28 => ⟨S_, .i32⟩
  | 29 => ⟨S640000, .i32⟩
  | 30 => ⟨S640000, .i32⟩
  | 31 => ⟨S640000, .i32⟩
  | 32 => ⟨S640000x1, .i32⟩
  | 33 => ⟨S640000, .f32⟩
  | 34 => ⟨S640000, .f32⟩
  | 35 => ⟨S_, .i32⟩
  | 36 => ⟨S640000, .i32⟩
  | 37 => ⟨S640000, .i1⟩
  | 38 => ⟨S_, .i32⟩
  | 39 => ⟨S640000, .i32⟩
  | 40 => ⟨S640000, .i32⟩
  | 41 => ⟨S640000, .i32⟩
  | 42 => ⟨S640000x1, .i32⟩
  | 43 => ⟨S640000, .f32⟩
  | 44 => ⟨S640000, .f32⟩
  | 45 => ⟨S_, .i32⟩
  | 46 => ⟨S640000, .i32⟩
  | 47 => ⟨S640000, .i1⟩
  | 48 => ⟨S_, .i32⟩
  | 49 => ⟨S640000, .i32⟩
  | 50 => ⟨S640000, .i32⟩
  | 51 => ⟨S640000, .i32⟩
  | 52 => ⟨S640000x1, .i32⟩
  | 53 => ⟨S640000x128, .f32⟩
  | 54 => ⟨S640000x1, .f32⟩
  | 55 => ⟨S640000x128, .f32⟩
  | 56 => ⟨S640000x128, .f32⟩
  | 57 => ⟨S_, .f32⟩
  | 58 => ⟨S50000x128, .f32⟩
  | 59 => ⟨S_, .i32⟩
  | 60 => ⟨S640000, .i32⟩
  | 61 => ⟨S640000, .i1⟩
  | 62 => ⟨S_, .i32⟩
  | 63 => ⟨S640000, .i32⟩
  | 64 => ⟨S640000, .i32⟩
  | 65 => ⟨S640000, .i32⟩
  | 66 => ⟨S640000x1, .i32⟩
  | 67 => ⟨S50000x128, .f32⟩
  | 68 => ⟨S50000x128, .f32⟩
  | 69 => ⟨S_, .f32⟩
  | 70 => ⟨S50x128, .f32⟩
  | 71 => ⟨S50000x1, .i32⟩
  | 72 => ⟨S50x128, .f32⟩
  | 73 => ⟨S_, .f32⟩
  | 74 => ⟨S50000x1, .f32⟩
  | 75 => ⟨S_, .f32⟩
  | 76 => ⟨S50x1, .f32⟩
  | 77 => ⟨S50000x1, .i32⟩
  | 78 => ⟨S50x1, .f32⟩
  | 79 => ⟨S_, .f32⟩
  | 80 => ⟨S50x1, .f32⟩
  | 81 => ⟨S50x1, .f32⟩
  | 82 => ⟨S50x128, .f32⟩
  | 83 => ⟨S50x128, .f32⟩
  | 84 => ⟨S_, .i32⟩
  | 85 => ⟨S50000, .i32⟩
  | 86 => ⟨S50000, .i1⟩
  | 87 => ⟨S_, .i32⟩
  | 88 => ⟨S50000, .i32⟩
  | 89 => ⟨S50000, .i32⟩
  | 90 => ⟨S50000, .i32⟩
  | 91 => ⟨S50000x1, .i32⟩
  | 92 => ⟨S50000x128, .f32⟩
  | 93 => ⟨S1x128, .f32⟩
  | 94 => ⟨S50000x128, .f32⟩
  | 95 => ⟨S50000x128, .f32⟩
  | 96 => ⟨S50000x128, .f32⟩
  | 97 => ⟨S50000x128, .f32⟩
  | 98 => ⟨S_, .f32⟩
  | 99 => ⟨S50x128, .f32⟩
  | 100 => ⟨S50000x1, .i32⟩
  | 101 => ⟨S50x128, .f32⟩
  | 102 => ⟨S_, .f32⟩
  | 103 => ⟨S50000x1, .f32⟩
  | 104 => ⟨S_, .f32⟩
  | 105 => ⟨S50x1, .f32⟩
  | 106 => ⟨S50000x1, .i32⟩
  | 107 => ⟨S50x1, .f32⟩
  | 108 => ⟨S_, .f32⟩
  | 109 => ⟨S50x1, .f32⟩
  | 110 => ⟨S50x1, .f32⟩
  | 111 => ⟨S50x128, .f32⟩
  | 112 => ⟨S50x128, .f32⟩
  | 113 => ⟨S_, .i32⟩
  | 114 => ⟨S50000, .i32⟩
  | 115 => ⟨S50000, .i1⟩
  | 116 => ⟨S_, .i32⟩
  | 117 => ⟨S50000, .i32⟩
  | 118 => ⟨S50000, .i32⟩
  | 119 => ⟨S50000, .i32⟩
  | 120 => ⟨S50000x1, .i32⟩
  | 121 => ⟨S50000x128, .f32⟩
  | 122 => ⟨S_, .f32⟩
  | 123 => ⟨S50000x128, .f32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128, .f32⟩
  | 3 => ⟨S50000x128, .f32⟩
  | 4 => ⟨S50000x128, .f32⟩
  | 5 => ⟨S_, .f32⟩
  | 6 => ⟨S50000x128, .f32⟩
  | 7 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v11 : Ref sig .tc := ⟨.hbm, 24, rfl⟩
abbrev main_c : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_c_9 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_cst_13 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_14 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_15 : Ref sig .tc := ⟨.hbm, 84, rfl⟩
abbrev main_v58 : Ref sig .tc := ⟨.hbm, 85, rfl⟩
abbrev main_v59 : Ref sig .tc := ⟨.hbm, 86, rfl⟩
abbrev main_c_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_17 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_18 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_c_21 : Ref sig .tc := ⟨.hbm, 113, rfl⟩
abbrev main_v81 : Ref sig .tc := ⟨.hbm, 114, rfl⟩
abbrev main_v82 : Ref sig .tc := ⟨.hbm, 115, rfl⟩
abbrev main_c_22 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_23 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_call1_cst : Ref sig .tc := ⟨.hbm, 133, rfl⟩
abbrev main_call1_v0 : Ref sig .tc := ⟨.hbm, 134, rfl⟩
abbrev main_v98 : Ref sig .tc := ⟨.hbm, 135, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S50000 : S_.BroadcastsInDim S50000 (![] : Fin 0 → Fin S50000.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S50000x128 : S_.BroadcastsInDim S50000x128 (![] : Fin 0 → Fin S50000x128.rank)
  bcast_S_S50x128 : S_.BroadcastsInDim S50x128 (![] : Fin 0 → Fin S50x128.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S_S50x1 : S_.BroadcastsInDim S50x1 (![] : Fin 0 → Fin S50x1.rank)
  bcast_S50x1_S50x128_0_1 : S50x1.BroadcastsInDim S50x128 (![0, 1] : Fin 2 → Fin S50x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S640000x1_S640000_n_0_0_1_wf : ScatterDims.WF S50000 S640000x1 S640000 [] [0] [0] 1
  gather_S50000_S640000x1_S640000_n_0_n_n_0_1_1_wf : GatherDims.WF S50000 S640000x1 S640000 [] [0] [] [0] [] 1 ![1]
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S50x128_S50000x1_S50000x128_1_0_0_1_wf : ScatterDims.WF S50x128 S50000x1 S50000x128 [1] [0] [0] 1
  scatter_S50x1_S50000x1_S50000x1_1_0_0_1_wf : ScatterDims.WF S50x1 S50000x1 S50000x1 [1] [0] [0] 1
  gather_S50x128_S50000x1_S50000x128_1_0_n_n_0_1_1128_wf : GatherDims.WF S50x128 S50000x1 S50000x128 [1] [0] [] [0] [] 1 ![1, 128]

variable [Facts₀]

def scatter_S50000_S640000x1_S640000_n_0_0_1 : ScatterDims S50000 S640000x1 S640000 where
  updateWindowDims := []
  insertedWindowDims := [0]
  scatterDimsToOperandDims := [0]
  indexVectorDim := 1
  wf := scatter_S50000_S640000x1_S640000_n_0_0_1_wf
def gather_S50000_S640000x1_S640000_n_0_n_n_0_1_1 : GatherDims S50000 S640000x1 S640000 where
  offsetDims := []
  collapsedSliceDims := [0]
  operandBatchingDims := []
  startIndicesBatchingDims := []
  startIndexMap := [0]
  indexVectorDim := 1
  sliceSizes := ![1]
  wf := gather_S50000_S640000x1_S640000_n_0_n_n_0_1_1_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S50x128_S50000x1_S50000x128_1_0_0_1 : ScatterDims S50x128 S50000x1 S50000x128 where
  updateWindowDims := [1]
  insertedWindowDims := [0]
  scatterDimsToOperandDims := [0]
  indexVectorDim := 1
  wf := scatter_S50x128_S50000x1_S50000x128_1_0_0_1_wf
def scatter_S50x1_S50000x1_S50000x1_1_0_0_1 : ScatterDims S50x1 S50000x1 S50000x1 where
  updateWindowDims := [1]
  insertedWindowDims := [0]
  scatterDimsToOperandDims := [0]
  indexVectorDim := 1
  wf := scatter_S50x1_S50000x1_S50000x1_1_0_0_1_wf
def gather_S50x128_S50000x1_S50000x128_1_0_n_n_0_1_1128 : GatherDims S50x128 S50000x1 S50000x128 where
  offsetDims := [1]
  collapsedSliceDims := [0]
  operandBatchingDims := []
  startIndicesBatchingDims := []
  startIndexMap := [0]
  indexVectorDim := 1
  sliceSizes := ![1, 128]
  wf := gather_S50x128_S50000x1_S50000x128_1_0_n_n_0_1_1128_wf

class Facts : Prop extends Facts₀ where

variable [Facts]
-- ==== Proof.Spec.lean ====
/-
  What both programs compute, said once, element by element on the extended reals.

  A graph layer's output row `i`, feature `j`:  h = node + agg  (agg: the normalised neighbour sum, the same host
  operations in both programs once no target id is negative);  per graph `g`, SUM g j = the sum of h over the rows
  of graph g, MEAN = SUM / count;  c = h - MEAN(graph of i) · mean_scale;  SQ g j = the sum of c² over the rows of
  graph g, VAR = SQ / count;  out = max (c · (VAR(graph of i) + ε)^(-1/2) · weight + bias, 0).

  "The rows of graph g" is written with the 0/1 weight `oh` (is this row's graph id the word g?): a sum of
  weight · value over ALL rows. That is literally what the kernel's one-hot matrix products compute, and it is what a
  segment sum and a table look-up are when the ids are in range (0 · x = 0 and 1 · x = x hold at the infinities too,
  and sums of extended reals may be regrouped freely: they form a commutative monoid).
-/
import proofs.«404709_j72688026518112_2_alg».proof.KernelIdeal
import Idealize.ShloMosaic.Lib.ValueIdx
import Idealize.ShloMosaic.PureOps.Ideal

noncomputable section

namespace Cert.Spec

open Idealize.ShloMosaic Idealize.ShloMosaic.ValueIdx Cert.KernelIdeal

/-- The weight of a row whose graph id is the word `x` in graph `g`: one if `x` is `g`, else zero. -/
def oh (x : BitVec 32) (g : Fin 50) : EReal := if x = BitVec.ofNat 32 g.val then 1 else 0

/-- The variance's ε, the f32 nearest 1e-5, as both programs carry it. -/
def eps : EReal := Ideal.ofBits .f32 0x3727C5AC#32

/-- A per-graph table read at the row's graph: the weighted sum over the 50 graphs (one weight is one at most). -/
def rowOf (bx : BitVec 32) (tbl : FVec Ideal S50x128 .f32) (j : Fin 128) : EReal :=
  ∑ g : Fin 50, oh bx g * tbl (ix2 g j)

/-- A centred entry: the entry less its graph's mean scaled by the feature's `mean_scale`. -/
def cenElt (hx : EReal) (bx : BitVec 32) (mean : FVec Ideal S50x128 .f32) (j : Fin 128) (msj : EReal) : EReal :=
  hx - rowOf bx mean j * msj

/-- An output entry: the centred entry times the reciprocal root of its graph's variance plus ε, scaled, shifted,
    clipped at zero. -/
def outElt (hx : EReal) (bx : BitVec 32) (mean var : FVec Ideal S50x128 .f32) (j : Fin 128) (msj wj bj : EReal) : EReal :=
  max (cenElt hx bx mean j msj * Ideal.rsqrt (rowOf bx var j + eps) * wj + bj) 0

/-! ## The arrays, over the 50000 rows -/

/-- h = node + agg. -/
def hArr (node agg : FVec Ideal S50000x128 .f32) : FVec Ideal S50000x128 .f32 := fun i => node i + agg i

/-- The per-graph sum of an array's rows: over all rows, weight · entry. -/
def segSum (b : IVec S50000x1 32) (x : FVec Ideal S50000x128 .f32) : FVec Ideal S50x128 .f32 :=
  fun gj => ∑ i : Fin 50000, oh (b (ix2 i 0)) (gj 0) * x (ix2 i (gj 1))

/-- A per-graph table over the graph's count (a [50, 1] column, broadcast along the features). -/
def perCount (tbl : FVec Ideal S50x128 .f32) (cnt : FVec Ideal S50x1 .f32) : FVec Ideal S50x128 .f32 :=
  fun gj => Ideal.div (tbl gj) (cnt (ix2 (gj 0) 0))

/-- The centred array. -/
def cenArr (h : FVec Ideal S50000x128 .f32) (b : IVec S50000x1 32) (mean : FVec Ideal S50x128 .f32)
    (ms : FVec Ideal S128 .f32) : FVec Ideal S50000x128 .f32 :=
  fun i => cenElt (h i) (b (ix2 (i 0) 0)) mean (i 1) (ms (ix1 (i 1)))

/-- The per-graph sum of the centred array's squares. -/
def sqArr (h : FVec Ideal S50000x128 .f32) (b : IVec S50000x1 32) (mean : FVec Ideal S50x128 .f32)
    (ms : FVec Ideal S128 .f32) : FVec Ideal S50x128 .f32 :=
  segSum b (fun i => cenArr h b mean ms i * cenArr h b mean ms i)

/-- The output array, from h, the graph ids, the two per-graph tables and the three per-feature vectors. -/
def outArr (h : FVec Ideal S50000x128 .f32) (b : IVec S50000x1 32) (mean var : FVec Ideal S50x128 .f32)
    (ms w bias : FVec Ideal S128 .f32) : FVec Ideal S50000x128 .f32 :=
  fun i => outElt (h i) (b (ix2 (i 0) 0)) mean var (i 1) (ms (ix1 (i 1))) (w (ix1 (i 1))) (bias (ix1 (i 1)))

/-- Everything after the neighbour sum, as one function of node, agg, the graph-id column, the count column and the
    three per-feature vectors. -/
def layer (node agg : FVec Ideal S50000x128 .f32) (b : IVec S50000x1 32) (cnt : FVec Ideal S50x1 .f32)
    (ms w bias : FVec Ideal S128 .f32) : FVec Ideal S50000x128 .f32 :=
  let h := hArr node agg
  let mean := perCount (segSum b h) cnt
  let var := perCount (sqArr h b mean ms) cnt
  outArr h b mean var ms w bias

end Cert.Spec

end
-- ==== Proof.HostTerms.lean ====
/-
  The host side of the kernel program before its first region, as functions of the arguments: the degree of a node
  (the sum of the weights of the edges into it), its reciprocal root where positive, an edge's normalised weight, the
  message an edge carries, the neighbour sum `agg`, the per-graph count column (at least one), and the graph-id
  column. Each definition is the printed operations' term, operation for operation, so that the program's buffers read
  back to them by unfolding.
-/
import proofs.«404709_j72688026518112_2_alg».proof.Proof.Gen.KernelIdeal

noncomputable section

namespace Cert.KernelIdeal.HostTerms

open Idealize.ShloMosaic Cert.KernelIdeal Cert.KernelIdeal.Gen

variable {F : FTy → Type} [FloatOps F]

/-- Row 0 of `edge_index`: an edge's source node. -/
def rowIdx (x1 : IVec S2x640000 32) : IVec S640000 32 :=
  shapeCast S640000 (extractStridedSlice S1x640000 ![0, 0] x1 slices_S2x640000_S1x640000_0_0) shapeCasts_S1x640000_S640000

/-- Row 1 of `edge_index`: an edge's target node. -/
def colIdx (x1 : IVec S2x640000 32) : IVec S640000 32 :=
  shapeCast S640000 (extractStridedSlice S1x640000 ![1, 0] x1 slices_S2x640000_S1x640000_1_0) shapeCasts_S1x640000_S640000

/-- A node id as an index vector reads: a negative id counts from the end (`id + 50000`). -/
def wrap (v : IVec S640000 32) : IVec S640000 32 :=
  select (cmpi .slt v (broadcastInDim S640000 ![] bcast_S_S640000 (constantI S_ 32 0#32)))
    (addi v (broadcastInDim S640000 ![] bcast_S_S640000 (constantI S_ 32 50000#32))) v

/-- The zero vector over the nodes. -/
def zerosN : FVec F S50000 .f32 := broadcastInDim S50000 ![] bcast_S_S50000 (constant S_ .f32 0x00000000#32)

/-- A node's degree: the sum of the weights of the edges whose target it is. -/
def deg (x1 : IVec S2x640000 32) (x2 : FVec F S640000 .f32) : FVec F S50000 .f32 :=
  Host.scatterAdd scatter_S50000_S640000x1_S640000_n_0_0_1 zerosN
    (broadcastInDim S640000x1 ![0] bcast_S640000_S640000x1_0 (colIdx x1)) x2

/-- `deg ^ (-1/2)` where the degree is positive, zero elsewhere. -/
def dinv (x1 : IVec S2x640000 32) (x2 : FVec F S640000 .f32) : FVec F S50000 .f32 :=
  select (cmpf .ogt (deg x1 x2) zerosN)
    (Host.powf (deg x1 x2) (broadcastInDim S50000 ![] bcast_S_S50000 (constant S_ .f32 0xBF000000#32)))
    (broadcastInDim S50000 ![] bcast_S_S50000 (id (constant S_ .f32 0x00000000#32)))

/-- An edge's normalised weight: `dinv[source] · weight · dinv[target]`. -/
def normW (x1 : IVec S2x640000 32) (x2 : FVec F S640000 .f32) : FVec F S640000 .f32 :=
  mulf (mulf (Host.gather gather_S50000_S640000x1_S640000_n_0_n_n_0_1_1 (dinv x1 x2)
        (broadcastInDim S640000x1 ![0] bcast_S640000_S640000x1_0 (wrap (rowIdx x1)))) x2)
    (Host.gather gather_S50000_S640000x1_S640000_n_0_n_n_0_1_1 (dinv x1 x2)
      (broadcastInDim S640000x1 ![0] bcast_S640000_S640000x1_0 (wrap (colIdx x1))))

/-- The message of an edge: its source's row of `node`, times the edge's normalised weight. -/
def msg (x0 : FVec F S50000x128 .f32) (x1 : IVec S2x640000 32) (x2 : FVec F S640000 .f32) : FVec F S640000x128 .f32 :=
  mulf (Host.gather gather_S50000x128_S640000x1_S640000x128_1_0_n_n_0_1_1128 x0
      (broadcastInDim S640000x1 ![0] bcast_S640000_S640000x1_0 (wrap (rowIdx x1))))
    (broadcastInDim S640000x128 ![0, 1] bcast_S640000x1_S640000x128_0_1
      (broadcastInDim S640000x1 ![0] bcast_S640000_S640000x1_0 (normW x1 x2)))

/-- The neighbour sum: each node's row is the sum of the messages of the edges whose target id IS that node (an id out
    of range, a negative one included, names no node). -/
def agg (x0 : FVec F S50000x128 .f32) (x1 : IVec S2x640000 32) (x2 : FVec F S640000 .f32) : FVec F S50000x128 .f32 :=
  Host.scatterAdd scatter_S50000x128_S640000x1_S640000x128_1_0_0_1
    (broadcastInDim S50000x128 ![] bcast_S_S50000x128 (constant S_ .f32 0x00000000#32))
    (broadcastInDim S640000x1 ![0] bcast_S640000_S640000x1_0 (colIdx x1)) (msg x0 x1 x2)

/-- The per-graph count column: the number of rows whose graph id is the graph, and at least one. -/
def cnt (x3 : IVec S50000 32) : FVec F S50x1 .f32 :=
  maximumf (Host.scatterAdd scatter_S50x1_S50000x1_S50000x1_1_0_0_1
      (broadcastInDim S50x1 ![] bcast_S_S50x1 (constant S_ .f32 0x00000000#32))
      (broadcastInDim S50000x1 ![0] bcast_S50000_S50000x1_0 x3)
      (broadcastInDim S50000x1 ![] bcast_S_S50000x1 (constant S_ .f32 0x3F800000#32)))
    (broadcastInDim S50x1 ![] bcast_S_S50x1 (constant S_ .f32 0x3F800000#32))

/-- The graph ids as a column. -/
def ids (x3 : IVec S50000 32) : IVec S50000x1 32 := shapeCast S50000x1 x3 shapeCasts_S50000_S50000x1

end Cert.KernelIdeal.HostTerms

end
-- ==== Proof.KHost3.lean ====
/-
  The kernel program's buffers when its first region is entered, after the host operations before it: the neighbour
  sum, the count column and the graph-id column are the host terms of the arguments, operation for operation, and the
  argument arrays are as launched (no host operation writes one).
-/
import proofs.«404709_j72688026518112_2_alg».proof.Proof.Gen.KernelIdeal.Frame
import proofs.«404709_j72688026518112_2_alg».proof.Proof.HostTerms
import Idealize.ShloMosaic.PureOps.Ideal
import Idealize.ShloMosaic.Lib.StableHlo.Run
import Idealize.ShloMosaic.Lib.Tactic

noncomputable section
set_option maxRecDepth 16384

namespace Cert.KernelIdeal.KHost3

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## A buffer no operation of a stretch writes -/

/-- The reference is the result of no operation of the stretch, so the stretch leaves its buffer as it was. -/
local macro "untouched" : tactic =>
  `(tactic| (refine StableHlo.after_of_forall_not_mem _ _ (List.forall_iff_forall_mem.mp ?_)
             simp only [hostOps0, hostOps0_1, hostOps0_2, List.Forall, StableHlo.nullary_writes, StableHlo.unary_writes,
               StableHlo.binary_writes, StableHlo.ternary_writes, StableHlo.reshape_writes, Finset.mem_singleton]
             repeat' apply And.intro
             all_goals exact StableHlo.devRef_ne_of_ne (by decide)))

/-! ## After the first stretch: the edge endpoints, the degree's test and power, the zero the call passes on -/

theorem W1_arg0 (c : Dev nD) : W1 (F := Ideal) m ρ c (Proc.devRef .tc main_arg0) = m ((c.tc : Thread nD τ).loc main_arg0) :=
  (by untouched : W1 (F := Ideal) m ρ c (Proc.devRef .tc main_arg0) = W0 (F := Ideal) m ρ c (Proc.devRef .tc main_arg0)).trans rfl

theorem W1_arg2 (c : Dev nD) : W1 (F := Ideal) m ρ c (Proc.devRef .tc main_arg2) = m ((c.tc : Thread nD τ).loc main_arg2) :=
  (by untouched : W1 (F := Ideal) m ρ c (Proc.devRef .tc main_arg2) = W0 (F := Ideal) m ρ c (Proc.devRef .tc main_arg2)).trans rfl

theorem W1_arg3 (c : Dev nD) : W1 (F := Ideal) m ρ c (Proc.devRef .tc main_arg3) = m ((c.tc : Thread nD τ).loc main_arg3) :=
  (by untouched : W1 (F := Ideal) m ρ c (Proc.devRef .tc main_arg3) = W0 (F := Ideal) m ρ c (Proc.devRef .tc main_arg3)).trans rfl

theorem W1_v1 (c : Dev nD) :
    W1 (F := Ideal) m ρ c (Proc.devRef .tc main_v1) = HostTerms.rowIdx (m ((c.tc : Thread nD τ).loc main_arg1)) := by
  show StableHlo.after hostOps0 (W0 (F := Ideal) m ρ c) (Proc.devRef .tc main_v1) = _
  simp only [hostOps0]
  after_results
  rfl

theorem W1_v3 (c : Dev nD) :
    W1 (F := Ideal) m ρ c (Proc.devRef .tc main_v3) = HostTerms.colIdx (m ((c.tc : Thread nD τ).loc main_arg1)) := by
  show StableHlo.after hostOps0 (W0 (F := Ideal) m ρ c) (Proc.devRef .tc main_v3) = _
  simp only [hostOps0]
  after_results
  rfl

theorem W1_v8 (c : Dev nD) :
    W1 (F := Ideal) m ρ c (Proc.devRef .tc main_v8)
      = cmpf .ogt (HostTerms.deg (F := Ideal) (m ((c.tc : Thread nD τ).loc main_arg1)) (m ((c.tc : Thread nD τ).loc main_arg2)))
          (HostTerms.zerosN (F := Ideal)) := by
  show StableHlo.after hostOps0 (W0 (F := Ideal) m ρ c) (Proc.devRef .tc main_v8) = _
  simp only [hostOps0]
  after_results
  rfl

theorem W1_v10 (c : Dev nD) :
    W1 (F := Ideal) m ρ c (Proc.devRef .tc main_v10)
      = Host.powf (HostTerms.deg (F := Ideal) (m ((c.tc : Thread nD τ).loc main_arg1)) (m ((c.tc : Thread nD τ).loc main_arg2)))
          (broadcastInDim S50000 ![] bcast_S_S50000 (constant (F := Ideal) S_ .f32 0xBF000000#32)) := by
  show StableHlo.after hostOps0 (W0 (F := Ideal) m ρ c) (Proc.devRef .tc main_v10) = _
  simp only [hostOps0]
  after_results
  rfl

theorem W1_cst2 (c : Dev nD) :
    W1 (F := Ideal) m ρ c (Proc.devRef .tc main_cst_2) = constant (F := Ideal) S_ .f32 0x00000000#32 := by
  show StableHlo.after hostOps0 (W0 (F := Ideal) m ρ c) (Proc.devRef .tc main_cst_2) = _
  simp only [hostOps0]
  after_results

/-! ## After the call: the reciprocal root of the degree where it is positive -/

theorem W2_arg0 (c : Dev nD) : W2 (F := Ideal) m ρ c (Proc.devRef .tc main_arg0) = m ((c.tc : Thread nD τ).loc main_arg0) :=
  (by untouched : W2 (F := Ideal) m ρ c (Proc.devRef .tc main_arg0) = W1 (F := Ideal) m ρ c (Proc.devRef .tc main_arg0)).trans (W1_arg0 m ρ c)

theorem W2_arg2 (c : Dev nD) : W2 (F := Ideal) m ρ c (Proc.devRef .tc main_arg2) = m ((c.tc : Thread nD τ).loc main_arg2) :=
  (by untouched : W2 (F := Ideal) m ρ c (Proc.devRef .tc main_arg2) = W1 (F := Ideal) m ρ c (Proc.devRef .tc main_arg2)).trans (W1_arg2 m ρ c)

theorem W2_arg3 (c : Dev nD) : W2 (F := Ideal) m ρ c (Proc.devRef .tc main_arg3) = m ((c.tc : Thread nD τ).loc main_arg3) :=
  (by untouched : W2 (F := Ideal) m ρ c (Proc.devRef .tc main_arg3) = W1 (F := Ideal) m ρ c (Proc.devRef .tc main_arg3)).trans (W1_arg3 m ρ c)

theorem W2_v1 (c : Dev nD) :
    W2 (F := Ideal) m ρ c (Proc.devRef .tc main_v1) = HostTerms.rowIdx (m ((c.tc : Thread nD τ).loc main_arg1)) :=
  (by untouched : W2 (F := Ideal) m ρ c (Proc.devRef .tc main_v1) = W1 (F := Ideal) m ρ c (Proc.devRef .tc main_v1)).trans (W1_v1 m ρ c)

theorem W2_v3 (c : Dev nD) :
    W2 (F := Ideal) m ρ c (Proc.devRef .tc main_v3) = HostTerms.colIdx (m ((c.tc : Thread nD τ).loc main_arg1)) :=
  (by untouched : W2 (F := Ideal) m ρ c (Proc.devRef .tc main_v3) = W1 (F := Ideal) m ρ c (Proc.devRef .tc main_v3)).trans (W1_v3 m ρ c)

theorem W2_v11 (c : Dev nD) :
    W2 (F := Ideal) m ρ c (Proc.devRef .tc main_v11)
      = HostTerms.dinv (F := Ideal) (m ((c.tc : Thread nD τ).loc main_arg1)) (m ((c.tc : Thread nD τ).loc main_arg2)) := by
  have h8 := W1_v8 m ρ c
  have h10 := W1_v10 m ρ c
  have hz := W1_cst2 m ρ c
  show StableHlo.after hostOps0_1 (W1 (F := Ideal) m ρ c) (Proc.devRef .tc main_v11) = _
  generalize W1 (F := Ideal) m ρ c = V at h8 h10 hz ⊢
  simp only [hostOps0_1]
  after_results
  rw [h8, h10, hz]
  simp only [StableHlo.TRef.ofBuf, StableHlo.TRef.toBuf, cast_eq]
  rfl

/-! ## At the first region's entry -/

theorem W3_agg (c : Dev nD) :
    W3 (F := Ideal) m ρ c (Proc.devRef .tc main_v40) = HostTerms.agg (F := Ideal) (m ((c.tc : Thread nD τ).loc main_arg0)) (m ((c.tc : Thread nD τ).loc main_arg1)) (m ((c.tc : Thread nD τ).loc main_arg2)) := by
  have h0 := W2_arg0 m ρ c
  have h2 := W2_arg2 m ρ c
  have h1 := W2_v1 m ρ c
  have h3 := W2_v3 m ρ c
  have h11 := W2_v11 m ρ c
  show StableHlo.after hostOps0_2 (W2 (F := Ideal) m ρ c) (Proc.devRef .tc main_v40) = _
  generalize W2 (F := Ideal) m ρ c = V at h0 h2 h1 h3 h11 ⊢
  simp only [hostOps0_2]
  after_results_simp
  rw [h0, h2, h1, h3, h11]
  rfl

theorem W3_cnt (c : Dev nD) :
    W3 (F := Ideal) m ρ c (Proc.devRef .tc main_v46) = HostTerms.cnt (F := Ideal) (m ((c.tc : Thread nD τ).loc main_arg3)) := by
  have h3 := W2_arg3 m ρ c
  show StableHlo.after hostOps0_2 (W2 (F := Ideal) m ρ c) (Proc.devRef .tc main_v46) = _
  generalize W2 (F := Ideal) m ρ c = V at h3 ⊢
  simp only [hostOps0_2]
  after_results_simp
  rw [h3]
  rfl

theorem W3_ids (c : Dev nD) :
    W3 (F := Ideal) m ρ c (Proc.devRef .tc main_v47) = HostTerms.ids (m ((c.tc : Thread nD τ).loc main_arg3)) := by
  have h3 := W2_arg3 m ρ c
  show StableHlo.after hostOps0_2 (W2 (F := Ideal) m ρ c) (Proc.devRef .tc main_v47) = _
  generalize W2 (F := Ideal) m ρ c = V at h3 ⊢
  simp only [hostOps0_2]
  after_results
  rw [h3]
  rfl

theorem W3_arg0 (c : Dev nD) : W3 (F := Ideal) m ρ c (Proc.devRef .tc main_arg0) = m ((c.tc : Thread nD τ).loc main_arg0) := by
  exact (by untouched : W3 (F := Ideal) m ρ c (Proc.devRef .tc main_arg0) = W2 (F := Ideal) m ρ c (Proc.devRef .tc main_arg0)).trans (W2_arg0 m ρ c)

theorem W3_arg4 (c : Dev nD) : W3 (F := Ideal) m ρ c (Proc.devRef .tc main_arg4) = m ((c.tc : Thread nD τ).loc main_arg4) := by
  refine (by untouched : W3 (F := Ideal) m ρ c (Proc.devRef .tc main_arg4) = W2 (F := Ideal) m ρ c (Proc.devRef .tc main_arg4)).trans ?_
  refine (by untouched : W2 (F := Ideal) m ρ c (Proc.devRef .tc main_arg4) = W1 (F := Ideal) m ρ c (Proc.devRef .tc main_arg4)).trans ?_
  exact (by untouched : W1 (F := Ideal) m ρ c (Proc.devRef .tc main_arg4) = W0 (F := Ideal) m ρ c (Proc.devRef .tc main_arg4)).trans rfl

theorem W3_arg5 (c : Dev nD) : W3 (F := Ideal) m ρ c (Proc.devRef .tc main_arg5) = m ((c.tc : Thread nD τ).loc main_arg5) := by
  refine (by untouched : W3 (F := Ideal) m ρ c (Proc.devRef .tc main_arg5) = W2 (F := Ideal) m ρ c (Proc.devRef .tc main_arg5)).trans ?_
  refine (by untouched : W2 (F := Ideal) m ρ c (Proc.devRef .tc main_arg5) = W1 (F := Ideal) m ρ c (Proc.devRef .tc main_arg5)).trans ?_
  exact (by untouched : W1 (F := Ideal) m ρ c (Proc.devRef .tc main_arg5) = W0 (F := Ideal) m ρ c (Proc.devRef .tc main_arg5)).trans rfl

theorem W3_arg6 (c : Dev nD) : W3 (F := Ideal) m ρ c (Proc.devRef .tc main_arg6) = m ((c.tc : Thread nD τ).loc main_arg6) := by
  refine (by untouched : W3 (F := Ideal) m ρ c (Proc.devRef .tc main_arg6) = W2 (F := Ideal) m ρ c (Proc.devRef .tc main_arg6)).trans ?_
  refine (by untouched : W2 (F := Ideal) m ρ c (Proc.devRef .tc main_arg6) = W1 (F := Ideal) m ρ c (Proc.devRef .tc main_arg6)).trans ?_
  exact (by untouched : W1 (F := Ideal) m ρ c (Proc.devRef .tc main_arg6) = W0 (F := Ideal) m ρ c (Proc.devRef .tc main_arg6)).trans rfl

end Cert.KernelIdeal.KHost3

end
-- ==== Proof.OneHot.lean ====
/-
  The kernel's one-hot matrix and its two matrix products, read at an index on the extended reals.
  The one-hot entry (row r, graph g) is the weight `oh`: is row r's graph id the word g. A product contracting the
  5000 rows of a block sums weight · entry over the block's rows; a product contracting the 50 graphs sums
  weight · table entry over the graphs.
-/
import proofs.«404709_j72688026518112_2_alg».proof.Proof.Gen.KernelIdeal
import proofs.«404709_j72688026518112_2_alg».proof.Proof.Spec
import Idealize.ShloMosaic.Lib.ValueIdx
import Idealize.ShloMosaic.Lib.Pipeline.Value
import Idealize.ShloMosaic.PureOps.Ideal.Laws

noncomputable section

namespace Cert.KernelIdeal.OneHot

open Idealize.ShloMosaic Idealize.ShloMosaic.ValueIdx Cert.KernelIdeal Cert.KernelIdeal.Gen

/-- The one-hot matrix of a block's graph-id column, as the three kernels build it: the column broadcast along 50
    lanes, compared with the lane number, widened, converted to a float and narrowed (the identity here). -/
def onehot (v : Vec Ideal S5000x1 .i32) : FVec Ideal S5000x50 .bf16 :=
  truncf .bf16 (sitofp .f32 (extui 32 (cmpi .eq
    (broadcastTo S5000x50 (shapeCast S5000x1 v shapeCasts_S5000x1_S5000x1) broadcasts_S5000x1_S5000x50)
    (iota .tc S5000x50 32 [1] iota_S5000x50_d1_w32)) natLt_1_32)) bitsLt_bf16_f32

/-- The column broadcast along the lanes, at (row r, lane g), is the column's entry at row r. -/
theorem bcast_col_apply (v : Vec Ideal S5000x1 .i32) (r : Fin 5000) (g : Fin 50) :
    broadcastTo S5000x50 v broadcasts_S5000x1_S5000x50 (ix2 r g) = v (ix2 r 0) := by
  refine broadcastTo_apply v _ (ix2 r g) (ix2 r 0) (fun a => ?_)
  match a with
  | ⟨0, _⟩ => rfl
  | ⟨1, _⟩ => rfl

/-- The lane number at (row r, lane g) is the word g. -/
theorem lane_apply (r : Fin 5000) (g : Fin 50) :
    iota .tc S5000x50 32 [1] iota_S5000x50_d1_w32 (ix2 r g) = BitVec.ofNat 32 g.val := by
  rw [iota_single_apply]

/-- An equality test of two words, widened from one bit to 32 and read as a signed integer, is one when the words
    are equal and zero when they are not. -/
theorem eq_word_toInt (x y : BitVec 32) :
    (((IntOp.cmpi .eq x y).setWidth 32).toInt : ℝ) = if x = y then 1 else 0 := by
  by_cases h : x = y
  · subst h
    simp [IntOp.cmpi]
  · have hb : (x == y) = false := by simpa using h
    simp [IntOp.cmpi, hb, h]

/-- Its entry at (row r, graph g) is the weight of row r in graph g. -/
theorem onehot_apply (v : Vec Ideal S5000x1 .i32) (r : Fin 5000) (g : Fin 50) :
    onehot v (ix2 r g) = Cert.Spec.oh (v (ix2 r 0)) g := by
  unfold onehot
  rw [shapeCast_self]
  -- the narrowing is the identity and the conversion reads the widened test as a signed integer
  show (((((IntOp.cmpi .eq (broadcastTo S5000x50 v broadcasts_S5000x1_S5000x50 (ix2 r g))
      (iota .tc S5000x50 32 [1] iota_S5000x50_d1_w32 (ix2 r g))).setWidth 32).toInt : ℝ)) : EReal) = _
  rw [bcast_col_apply, lane_apply, eq_word_toInt]
  unfold Cert.Spec.oh
  split_ifs <;> simp

/-! ## The product contracting the rows: which entry of each operand a term reads, axis by axis

The left operand [5000, 50] and the right operand [5000, 128] are both contracted on axis 0; the result [50, 128]
takes the left operand's axis 1 and then the right operand's axis 1. -/

theorem lhsT_0 (j : S50x128.Idx) (k : dot_S5000x50_S5000x128_S50x128_0_0_1_1_n_n.contr.Idx) :
    (dot_S5000x50_S5000x128_S50x128_0_0_1_1_n_n.lhsIdx j k 0 : ℕ) = k ⟨0, by decide⟩ := by
  simp [DotDims.lhsIdx, dot_S5000x50_S5000x128_S50x128_0_0_1_1_n_n]; rfl
theorem lhsT_1 (j : S50x128.Idx) (k : dot_S5000x50_S5000x128_S50x128_0_0_1_1_n_n.contr.Idx) :
    (dot_S5000x50_S5000x128_S50x128_0_0_1_1_n_n.lhsIdx j k 1 : ℕ) = j 0 := by
  simp [DotDims.lhsIdx, dot_S5000x50_S5000x128_S50x128_0_0_1_1_n_n]; rfl
theorem rhsT_0 (j : S50x128.Idx) (k : dot_S5000x50_S5000x128_S50x128_0_0_1_1_n_n.contr.Idx) :
    (dot_S5000x50_S5000x128_S50x128_0_0_1_1_n_n.rhsIdx j k 0 : ℕ) = k ⟨0, by decide⟩ := by
  simp [DotDims.rhsIdx, dot_S5000x50_S5000x128_S50x128_0_0_1_1_n_n]; rfl
theorem rhsT_1 (j : S50x128.Idx) (k : dot_S5000x50_S5000x128_S50x128_0_0_1_1_n_n.contr.Idx) :
    (dot_S5000x50_S5000x128_S50x128_0_0_1_1_n_n.rhsIdx j k 1 : ℕ) = j 1 := by
  simp [DotDims.rhsIdx, dot_S5000x50_S5000x128_S50x128_0_0_1_1_n_n]; rfl

/-- The product that contracts the rows (one-hotᵀ · X into a zero accumulator), at (graph g, feature j). -/
theorem matmulT_apply (L : FVec Ideal S5000x50 .bf16) (R : FVec Ideal S5000x128 .bf16) (g : Fin 50) (j : Fin 128) :
    matmul dot_S5000x50_S5000x128_S50x128_0_0_1_1_n_n none L R (constant S50x128 .f32 0x00000000#32) (ix2 g j)
      = ∑ r : Fin 5000, L (ix2 r g) * R (ix2 r j) := by
  show FloatOps.matmul dot_S5000x50_S5000x128_S50x128_0_0_1_1_n_n none L R (constant S50x128 .f32 0x00000000#32) (ix2 g j) = _
  -- zero accumulator: the bare sum over the contraction index, which is one row number
  rw [Ideal.matmul_constant_zero_apply,
    ← Equiv.sum_comp (contrEquiv1 dot_S5000x50_S5000x128_S50x128_0_0_1_1_n_n 5000 rfl rfl).symm]
  refine Finset.sum_congr rfl fun r _ => ?_
  congr 2
  · apply Shape.idx_ext₂
    · rw [lhsT_0]; exact contrEquiv1_symm_val _ 5000 rfl rfl r
    · rw [lhsT_1]
  · apply Shape.idx_ext₂
    · rw [rhsT_0]; exact contrEquiv1_symm_val _ 5000 rfl rfl r
    · rw [rhsT_1]

/-! ## The product contracting the graphs: which entry of each operand a term reads, axis by axis

The left operand [5000, 50] is contracted on axis 1 and the right operand [50, 128] on axis 0; the result [5000, 128]
takes the left operand's axis 0 and then the right operand's axis 1. -/

theorem lhsN_0 (j : S5000x128.Idx) (k : dot_S5000x50_S50x128_S5000x128_1_0_0_1_n_n.contr.Idx) :
    (dot_S5000x50_S50x128_S5000x128_1_0_0_1_n_n.lhsIdx j k 0 : ℕ) = j 0 := by
  simp [DotDims.lhsIdx, dot_S5000x50_S50x128_S5000x128_1_0_0_1_n_n]; rfl
theorem lhsN_1 (j : S5000x128.Idx) (k : dot_S5000x50_S50x128_S5000x128_1_0_0_1_n_n.contr.Idx) :
    (dot_S5000x50_S50x128_S5000x128_1_0_0_1_n_n.lhsIdx j k 1 : ℕ) = k ⟨0, by decide⟩ := by
  simp [DotDims.lhsIdx, dot_S5000x50_S50x128_S5000x128_1_0_0_1_n_n]; rfl
theorem rhsN_0 (j : S5000x128.Idx) (k : dot_S5000x50_S50x128_S5000x128_1_0_0_1_n_n.contr.Idx) :
    (dot_S5000x50_S50x128_S5000x128_1_0_0_1_n_n.rhsIdx j k 0 : ℕ) = k ⟨0, by decide⟩ := by
  simp [DotDims.rhsIdx, dot_S5000x50_S50x128_S5000x128_1_0_0_1_n_n]; rfl
theorem rhsN_1 (j : S5000x128.Idx) (k : dot_S5000x50_S50x128_S5000x128_1_0_0_1_n_n.contr.Idx) :
    (dot_S5000x50_S50x128_S5000x128_1_0_0_1_n_n.rhsIdx j k 1 : ℕ) = j 1 := by
  simp [DotDims.rhsIdx, dot_S5000x50_S50x128_S5000x128_1_0_0_1_n_n]; rfl

/-- The product that contracts the graphs (one-hot · table into a zero accumulator), at (row r, feature j). -/
theorem matmulN_apply (L : FVec Ideal S5000x50 .bf16) (T : FVec Ideal S50x128 .bf16) (r : Fin 5000) (j : Fin 128) :
    matmul dot_S5000x50_S50x128_S5000x128_1_0_0_1_n_n none L T (constant S5000x128 .f32 0x00000000#32) (ix2 r j)
      = ∑ g : Fin 50, L (ix2 r g) * T (ix2 g j) := by
  show FloatOps.matmul dot_S5000x50_S50x128_S5000x128_1_0_0_1_n_n none L T (constant S5000x128 .f32 0x00000000#32) (ix2 r j) = _
  -- zero accumulator: the bare sum over the contraction index, which is one graph number
  rw [Ideal.matmul_constant_zero_apply,
    ← Equiv.sum_comp (contrEquiv1 dot_S5000x50_S50x128_S5000x128_1_0_0_1_n_n 50 rfl rfl).symm]
  refine Finset.sum_congr rfl fun g _ => ?_
  congr 2
  · apply Shape.idx_ext₂
    · rw [lhsN_0]
    · rw [lhsN_1]; exact contrEquiv1_symm_val _ 50 rfl rfl g
  · apply Shape.idx_ext₂
    · rw [rhsN_0]; exact contrEquiv1_symm_val _ 50 rfl rfl g
    · rw [rhsN_1]

end Cert.KernelIdeal.OneHot

end
-- ==== Proof.Payload.lean ====
/-
  What each kernel body stores, read at an index on the extended reals, in the specification's words.
  Kernel 1: the zero block; h = node + agg; the running per-graph sum plus this block's rows of h, weighted.
  Kernel 2: the zero block; the running per-graph sum plus this block's squared centred entries, weighted.
  Kernel 3: the output entry.
-/
import proofs.«404709_j72688026518112_2_alg».proof.Proof.Gen.KernelIdeal.Skeleton
import proofs.«404709_j72688026518112_2_alg».proof.Proof.Spec
import proofs.«404709_j72688026518112_2_alg».proof.Proof.OneHot
import Idealize.ShloMosaic.Lib.ValueLayout

noncomputable section

namespace Cert.KernelIdeal.Payload

open Idealize.ShloMosaic Idealize.ShloMosaic.ValueIdx Cert.KernelIdeal Cert.KernelIdeal.Gen

/-! ## The three pieces the bodies share -/

/-- A per-feature vector, viewed as one row and repeated down the block's rows, reads its feature's entry. -/
theorem rowvec_apply (w : Vec Ideal S128 .f32) (r : Fin 5000) (j : Fin 128) :
    broadcastTo S5000x128 (shapeCast S1x128 w shapeCasts_S128_S1x128) broadcasts_S1x128_S5000x128 (ix2 r j)
      = w (ix1 j) :=
  (broadcastTo_1b_ab_apply _ broadcasts_S1x128_S5000x128 r j).trans
    (shapeCast_a_1a_apply w shapeCasts_S128_S1x128 0 j)

/-- A per-graph table looked up at each row's graph (one-hot · table): the weighted sum over the graphs. -/
theorem lookup_apply (b : Vec Ideal S5000x1 .i32) (T : Vec Ideal S50x128 .f32) (r : Fin 5000) (j : Fin 128) :
    matmul dot_S5000x50_S50x128_S5000x128_1_0_0_1_n_n none (OneHot.onehot b)
        (truncf .bf16 (shapeCast S50x128 T shapeCasts_S50x128_S50x128) bitsLt_bf16_f32)
        (constant S5000x128 .f32 0x00000000#32) (ix2 r j)
      = Cert.Spec.rowOf (b (ix2 r 0)) T j := by
  refine (OneHot.matmulN_apply _ _ r j).trans ?_
  unfold Cert.Spec.rowOf
  refine Finset.sum_congr rfl fun g _ => ?_
  rw [OneHot.onehot_apply, shapeCast_self]
  rfl

/-- A centred entry of the block: the entry less its graph's mean times the feature's scale. -/
theorem cen_apply (x : Vec Ideal S5000x128 .f32) (b : Vec Ideal S5000x1 .i32) (mean : Vec Ideal S50x128 .f32)
    (ms : Vec Ideal S128 .f32) (r : Fin 5000) (j : Fin 128) :
    subf (shapeCast S5000x128 x shapeCasts_S5000x128_S5000x128)
        (mulf (matmul dot_S5000x50_S50x128_S5000x128_1_0_0_1_n_n none (OneHot.onehot b)
            (truncf .bf16 (shapeCast S50x128 mean shapeCasts_S50x128_S50x128) bitsLt_bf16_f32)
            (constant S5000x128 .f32 0x00000000#32))
          (broadcastTo S5000x128 (shapeCast S1x128 ms shapeCasts_S128_S1x128) broadcasts_S1x128_S5000x128)) (ix2 r j)
      = Cert.Spec.cenElt (x (ix2 r j)) (b (ix2 r 0)) mean j (ms (ix1 j)) := by
  rw [subf_apply, mulf_apply, lookup_apply, rowvec_apply, shapeCast_self]
  rfl

/-! ## The payloads -/

theorem pay0_zero (i : S50x128.Idx) : k0_pay1 (F := Ideal) i = 0 := by
  unfold k0_pay1
  exact Ideal.ofBits_zero_f32

theorem pay0_h (v3 v4 : Vec Ideal S5000x128 .f32) (i : S5000x128.Idx) : k0_pay2 v3 v4 i = v3 i + v4 i := by
  unfold k0_pay2
  show v3 i + shapeCast S5000x128 v4 shapeCasts_S5000x128_S5000x128 i = v3 i + v4 i
  rw [shapeCast_self]

theorem pay0_sum (v3 v4 : Vec Ideal S5000x128 .f32) (v8 : Vec Ideal S5000x1 .i32) (v18 : Vec Ideal S50x128 .f32)
    (g : Fin 50) (j : Fin 128) :
    k0_pay3 v3 v4 v8 v18 (ix2 g j)
      = v18 (ix2 g j) + ∑ r : Fin 5000, Cert.Spec.oh (v8 (ix2 r 0)) g * (v3 (ix2 r j) + v4 (ix2 r j)) := by
  unfold k0_pay3
  show shapeCast S50x128 v18 shapeCasts_S50x128_S50x128 (ix2 g j)
      + matmul dot_S5000x50_S5000x128_S50x128_0_0_1_1_n_n none (OneHot.onehot v8)
          (truncf .bf16 (k0_pay2 v3 v4) bitsLt_bf16_f32) (constant S50x128 .f32 0x00000000#32) (ix2 g j) = _
  rw [shapeCast_self, OneHot.matmulT_apply]
  refine congrArg (v18 (ix2 g j) + ·) (Finset.sum_congr rfl fun r _ => ?_)
  rw [OneHot.onehot_apply, truncf_apply, pay0_h]

theorem pay1_zero (i : S50x128.Idx) : k1_pay1 (F := Ideal) i = 0 := by
  unfold k1_pay1
  exact Ideal.ofBits_zero_f32

theorem pay1_sq (v3 : Vec Ideal S5000x128 .f32) (v5 : Vec Ideal S5000x1 .i32) (v13 : Vec Ideal S50x128 .f32)
    (v17 : Vec Ideal S128 .f32) (v25 : Vec Ideal S50x128 .f32) (g : Fin 50) (j : Fin 128) :
    k1_pay2 v3 v5 v13 v17 v25 (ix2 g j)
      = v25 (ix2 g j) + ∑ r : Fin 5000, Cert.Spec.oh (v5 (ix2 r 0)) g *
          (Cert.Spec.cenElt (v3 (ix2 r j)) (v5 (ix2 r 0)) v13 j (v17 (ix1 j))
            * Cert.Spec.cenElt (v3 (ix2 r j)) (v5 (ix2 r 0)) v13 j (v17 (ix1 j))) := by
  unfold k1_pay2
  show shapeCast S50x128 v25 shapeCasts_S50x128_S50x128 (ix2 g j)
      + matmul dot_S5000x50_S5000x128_S50x128_0_0_1_1_n_n none (OneHot.onehot v5)
          (truncf .bf16
            (mulf
              (subf (shapeCast S5000x128 v3 shapeCasts_S5000x128_S5000x128)
                (mulf (matmul dot_S5000x50_S50x128_S5000x128_1_0_0_1_n_n none (OneHot.onehot v5)
                    (truncf .bf16 (shapeCast S50x128 v13 shapeCasts_S50x128_S50x128) bitsLt_bf16_f32)
                    (constant S5000x128 .f32 0x00000000#32))
                  (broadcastTo S5000x128 (shapeCast S1x128 v17 shapeCasts_S128_S1x128) broadcasts_S1x128_S5000x128)))
              (subf (shapeCast S5000x128 v3 shapeCasts_S5000x128_S5000x128)
                (mulf (matmul dot_S5000x50_S50x128_S5000x128_1_0_0_1_n_n none (OneHot.onehot v5)
                    (truncf .bf16 (shapeCast S50x128 v13 shapeCasts_S50x128_S50x128) bitsLt_bf16_f32)
                    (constant S5000x128 .f32 0x00000000#32))
                  (broadcastTo S5000x128 (shapeCast S1x128 v17 shapeCasts_S128_S1x128) broadcasts_S1x128_S5000x128))))
            bitsLt_bf16_f32)
          (constant S50x128 .f32 0x00000000#32) (ix2 g j) = _
  rw [shapeCast_self, OneHot.matmulT_apply]
  refine congrArg (v25 (ix2 g j) + ·) (Finset.sum_congr rfl fun r _ => ?_)
  rw [OneHot.onehot_apply, truncf_apply, mulf_apply, cen_apply]

theorem pay2_out (v0 : Vec Ideal S5000x128 .f32) (v2 : Vec Ideal S5000x1 .i32) (v10 v13 : Vec Ideal S50x128 .f32)
    (v18 v19 v20 : Vec Ideal S128 .f32) (r : Fin 5000) (j : Fin 128) :
    k2_pay1 v0 v2 v10 v13 v18 v19 v20 (ix2 r j)
      = Cert.Spec.outElt (v0 (ix2 r j)) (v2 (ix2 r 0)) v10 v13 j (v18 (ix1 j)) (v19 (ix1 j)) (v20 (ix1 j)) := by
  unfold k2_pay1
  show max
      (subf (shapeCast S5000x128 v0 shapeCasts_S5000x128_S5000x128)
          (mulf (matmul dot_S5000x50_S50x128_S5000x128_1_0_0_1_n_n none (OneHot.onehot v2)
              (truncf .bf16 (shapeCast S50x128 v10 shapeCasts_S50x128_S50x128) bitsLt_bf16_f32)
              (constant S5000x128 .f32 0x00000000#32))
            (broadcastTo S5000x128 (shapeCast S1x128 v18 shapeCasts_S128_S1x128) broadcasts_S1x128_S5000x128)) (ix2 r j)
        * Ideal.rsqrt
            (matmul dot_S5000x50_S50x128_S5000x128_1_0_0_1_n_n none (OneHot.onehot v2)
                (truncf .bf16 (shapeCast S50x128 v13 shapeCasts_S50x128_S50x128) bitsLt_bf16_f32)
                (constant S5000x128 .f32 0x00000000#32) (ix2 r j)
              + Cert.Spec.eps)
        * broadcastTo S5000x128 (shapeCast S1x128 v19 shapeCasts_S128_S1x128) broadcasts_S1x128_S5000x128 (ix2 r j)
        + broadcastTo S5000x128 (shapeCast S1x128 v20 shapeCasts_S128_S1x128) broadcasts_S1x128_S5000x128 (ix2 r j))
      (Ideal.ofBits .f32 0x00000000#32) = _
  rw [cen_apply, lookup_apply, rowvec_apply, rowvec_apply, Ideal.ofBits_zero_f32]
  rfl

end Cert.KernelIdeal.Payload

end
-- ==== Proof.Region0.lean ====
/-
  The first kernel region read as values, from ANY contents `V` of the buffers at its entry: after its ten points
  the h array holds node + agg (point t wrote rows 5000 t … 5000 t + 4999, each block the sum of the two input
  blocks), and the per-graph sum array holds, for graph g and feature j, the sum over all 50000 rows of
  weight(row, g) · h(row, j): the accumulator is zeroed at point 0, every point adds its block's weighted rows, and
  the one write-back after the last point carries the total (extended-real sums regroup freely).
-/
import proofs.«404709_j72688026518112_2_alg».proof.Proof.Gen.KernelIdeal.Frame
import proofs.«404709_j72688026518112_2_alg».proof.Proof.Spec
import proofs.«404709_j72688026518112_2_alg».proof.Proof.Payload
import Idealize.ShloMosaic.Lib.Pipeline.Value
import Idealize.ShloMosaic.Lib.Tactic

noncomputable section
set_option maxRecDepth 16384

namespace Cert.KernelIdeal.Region0

open Cert.KernelIdeal Cert.KernelIdeal.Gen
open Idealize.ShloMosaic Idealize.ShloMosaic.ValueIdx Idealize.ShloMosaic.TcCoe Idealize.SL.Sem
open Idealize.ShloMosaic.Pipeline (Dat)

/-! ## What each case of the body leaves, as payloads of the blocks -/

section Pieces

variable {F : FTy → Type} [FloatOps F]

theorem hz : (![0, 0] : Fin 2 → Nat) = fun _ => 0 := funext fun a => by fin_cases a <;> rfl

/-- The first point's h block: the payload of the one covering store, node block plus agg block. -/
theorem outA3 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S5000x128 .f32) (h4 : a4.IsWhole) (a5 : Memref sig .tc .vmem S50x128 .f32) (h5 : a5.IsWhole)
    (hc : cond0_0 i) (x0 x1 : Vec F S5000x128 .f32) (x2 : Vec F S5000x1 .i32) :
    out0_A_3 c i a1 h1 a2 h2 a3 h3 a4 h4 a5 h5 hc x0 x1 x2 = k0_pay2 x0 x1 := by
  unfold out0_A_3
  rw [View.read_writes_eq_canon _ _ _ (cover0_A_3 c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, View.ld_unit_zero (S := S5000x128) hz]

/-- The first point's accumulator: the zero block stored, read back, and the block's weighted rows added. -/
theorem outA4 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S5000x128 .f32) (h4 : a4.IsWhole) (a5 : Memref sig .tc .vmem S50x128 .f32) (h5 : a5.IsWhole)
    (hc : cond0_0 i) (x0 x1 : Vec F S5000x128 .f32) (x2 : Vec F S5000x1 .i32) :
    out0_A_4 c i a1 h1 a2 h2 a3 h3 a4 h4 a5 h5 hc x0 x1 x2 = k0_pay3 x0 x1 x2 (k0_pay1 (F := F)) := by
  unfold out0_A_4
  rw [View.read_writes_eq_canon _ _ _ (cover0_A_4 c i a1 h1 a2 h2 a3 h3 a4 h4 a5 h5 hc x0 x1 x2)]
  unfold kernelRun0_A
  dsimp only
  sl_unfold_words
  rw [View.canon_cons_unit_zero (S := S50x128) hz]
  simp only [View.readAt_eq_ld, h1.read_unread, h2.read_unread, h3.read_unread, View.ld_unit_zero (S := S5000x128) hz,
    View.ld_unit_zero (S := S5000x1) hz, View.ld_unit_zero (S := S50x128) hz, View.readCov_unit_zero (S := S50x128) _ hz]

/-- A later point's h block. -/
theorem outB3 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S5000x128 .f32) (h4 : a4.IsWhole) (a5 : Memref sig .tc .vmem S50x128 .f32) (h5 : a5.IsWhole)
    (hc : ¬cond0_0 i) (x0 x1 : Vec F S5000x128 .f32) (x2 : Vec F S5000x1 .i32) (xo : Vec F S50x128 .f32) :
    out0_B_3 c i a1 h1 a2 h2 a3 h3 a4 h4 a5 h5 hc x0 x1 x2 xo = k0_pay2 x0 x1 := by
  unfold out0_B_3
  rw [View.read_writes_eq_canon _ _ _ (cover0_B_3 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, View.ld_unit_zero (S := S5000x128) hz]

/-- A later point's accumulator: the running contents plus the block's weighted rows. -/
theorem outB4 (c : Dev nD) (i : grid0.Coords) (a1 : Memref sig .tc .vmem S5000x128 .f32) (h1 : a1.IsWhole)
    (a2 : Memref sig .tc .vmem S5000x128 .f32) (h2 : a2.IsWhole) (a3 : Memref sig .tc .vmem S5000x1 .i32) (h3 : a3.IsWhole)
    (a4 : Memref sig .tc .vmem S5000x128 .f32) (h4 : a4.IsWhole) (a5 : Memref sig .tc .vmem S50x128 .f32) (h5 : a5.IsWhole)
    (hc : ¬cond0_0 i) (x0 x1 : Vec F S5000x128 .f32) (x2 : Vec F S5000x1 .i32) (xo : Vec F S50x128 .f32) :
    out0_B_4 c i a1 h1 a2 h2 a3 h3 a4 h4 a5 h5 hc x0 x1 x2 xo = k0_pay3 x0 x1 x2 xo := by
  unfold out0_B_4
  rw [View.read_writes_eq_canon _ _ _ (cover0_B_4 c i a1 h1 a2 h2 a3 h3 a4 h4 a5 h5 hc x0 x1 x2 xo)]
  unfold kernelRun0_B
  dsimp only
  sl_unfold_words
  rw [View.canon_unit_zero hz]
  simp only [View.readAt_eq_ld, h1.read_unread, h2.read_unread, h3.read_unread, h5.read_unread, View.ld_unit_zero (S := S5000x128) hz,
    View.ld_unit_zero (S := S5000x1) hz, View.ld_unit_zero (S := S50x128) hz]

end Pieces

/-- The 50000 rows are ten blocks of 5000: a sum over the rows is the sum over the blocks of the sums over a block's rows. -/
theorem sum_blocks {M : Type*} [AddCommMonoid M] (f : Fin 50000 → M) :
    ∑ i : Fin 50000, f i = ∑ s : Fin 10, ∑ r : Fin 5000, f ⟨r.val + 5000 * s.val, by have := r.isLt; have := s.isLt; omega⟩ := by
  rw [← Equiv.sum_comp (finProdFinEquiv (m := 10) (n := 5000)) f, Fintype.sum_prod_type]
  exact Finset.sum_congr rfl fun s _ => Finset.sum_congr rfl fun r _ => rfl

/-! ## The block index of each window at a point, decided over the ten points -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_3 : ∀ t : Fin cfg0.N, win0_3.index t 0 = t.val ∧ win0_3.index t 1 = 0 :=
  (by decide +kernel : ∀ t : Fin grid0.N, win0_3.index t 0 = t.val ∧ win0_3.index t 1 = 0)
theorem idx0_4 : ∀ t : Fin cfg0.N, win0_4.index t 0 = 0 ∧ win0_4.index t 1 = 0 :=
  (by decide +kernel : ∀ t : Fin grid0.N, win0_4.index t 0 = 0 ∧ win0_4.index t 1 = 0)

/-- Row r of the block at point t is row 5000 t + r of the array. -/
def row (t : Fin cfg0.N) (r : Fin 5000) : Fin 50000 :=
  ⟨r.val + 5000 * t.val, by
    have := r.isLt
    have : t.val < 10 := lt_of_lt_of_eq t.isLt (show cfg0.N = 10 from N_0)
    omega⟩

variable (V : (c : Dev nD) → (b : Ref sig .tc) → Buf (Elt Ideal) ((c : Thread nD τ).loc b))

/-! ## The arrays and their blocks, by their literal types -/

abbrev nodeArr (c : Dev nD) : FVec Ideal S50000x128 .f32 := V c main_arg0
abbrev aggArr (c : Dev nD) : FVec Ideal S50000x128 .f32 := V c main_v40
abbrev idArr (c : Dev nD) : IVec S50000x1 32 := V c main_v47
abbrev nodeBlk (c : Dev nD) (t : Fin cfg0.N) : Vec Ideal S5000x128 .f32 := iblk0 V c 0 t
abbrev aggBlk (c : Dev nD) (t : Fin cfg0.N) : Vec Ideal S5000x128 .f32 := iblk0 V c 1 t
abbrev idBlk (c : Dev nD) (t : Fin cfg0.N) : Vec Ideal S5000x1 .i32 := iblk0 V c 2 t

/-- The h array. -/
abbrev hOut (c : Dev nD) : FVec Ideal S50000x128 .f32 := Cert.Spec.hArr (nodeArr V c) (aggArr V c)
/-- The per-graph sum array. -/
abbrev sumOut (c : Dev nD) : FVec Ideal S50x128 .f32 := Cert.Spec.segSum (idArr V c) (hOut V c)

/-! ## A block read through its window: the array at row 5000 t + r -/

theorem nodeBlk_apply (c : Dev nD) (t : Fin cfg0.N) (r : Fin 5000) (j : Fin 128) :
    nodeBlk V c t (ix2 r j) = nodeArr V c (ix2 (row t r) j) := by
  have hi := idx0_0 t
  show iblk0 V c 0 t (ix2 r j) = _
  unfold iblk0
  rw [View.read_apply]
  show V c main_arg0 _ = V c main_arg0 _
  congr 1
  funext a
  apply Fin.ext
  match a with
  | ⟨0, _⟩ => show win0_0.index t 0 * 5000 + 1 * r.val = r.val + 5000 * t.val; have := hi.1; omega
  | ⟨1, _⟩ => show win0_0.index t 1 * 128 + 1 * j.val = j.val; have := hi.2; omega

theorem aggBlk_apply (c : Dev nD) (t : Fin cfg0.N) (r : Fin 5000) (j : Fin 128) :
    aggBlk V c t (ix2 r j) = aggArr V c (ix2 (row t r) j) := by
  have hi := idx0_1 t
  show iblk0 V c 1 t (ix2 r j) = _
  unfold iblk0
  rw [View.read_apply]
  show V c main_v40 _ = V c main_v40 _
  congr 1
  funext a
  apply Fin.ext
  match a with
  | ⟨0, _⟩ => show win0_1.index t 0 * 5000 + 1 * r.val = r.val + 5000 * t.val; have := hi.1; omega
  | ⟨1, _⟩ => show win0_1.index t 1 * 128 + 1 * j.val = j.val; have := hi.2; omega

theorem idBlk_apply (c : Dev nD) (t : Fin cfg0.N) (r : Fin 5000) :
    idBlk V c t (ix2 r 0) = idArr V c (ix2 (row t r) 0) := by
  have hi := idx0_2 t
  show iblk0 V c 2 t (ix2 r 0) = _
  unfold iblk0
  rw [View.read_apply]
  show V c main_v47 _ = V c main_v47 _
  congr 1
  funext a
  apply Fin.ext
  match a with
  | ⟨0, _⟩ => show win0_2.index t 0 * 5000 + 1 * r.val = r.val + 5000 * t.val; have := hi.1; omega
  | ⟨1, _⟩ => show win0_2.index t 1 * 1 + 1 * 0 = 0; have := hi.2; omega

/-- The h array read through output window 3's block at point t. -/
theorem read_blk3 (t : Fin cfg0.N) (G : FVec Ideal S50000x128 .f32) (r : Fin 5000) (j : Fin 128) :
    ((cfg0.win 3).blk t).view.read (Elt Ideal) G (ix2 r j) = G (ix2 (row t r) j) := by
  have hi := idx0_3 t
  rw [View.read_apply]
  show G _ = G _
  congr 1
  funext a
  apply Fin.ext
  match a with
  | ⟨0, _⟩ => show win0_3.index t 0 * 5000 + 1 * r.val = r.val + 5000 * t.val; have := hi.1; omega
  | ⟨1, _⟩ => show win0_3.index t 1 * 128 + 1 * j.val = j.val; have := hi.2; omega

/-- The per-graph sum array read through output window 4's one block. -/
theorem read_blk4 (t : Fin cfg0.N) (G : FVec Ideal S50x128 .f32) (g : Fin 50) (j : Fin 128) :
    ((cfg0.win 4).blk t).view.read (Elt Ideal) G (ix2 g j) = G (ix2 g j) := by
  have hi := idx0_4 t
  rw [View.read_apply]
  show G _ = G _
  congr 1
  funext a
  apply Fin.ext
  match a with
  | ⟨0, _⟩ => show win0_4.index t 0 * 50 + 1 * g.val = g.val; have := hi.1; omega
  | ⟨1, _⟩ => show win0_4.index t 1 * 128 + 1 * j.val = j.val; have := hi.2; omega

/-! ## The h output: every point leaves node block + agg block -/

theorem out3_eq (c : Dev nD) (t : Fin cfg0.N) :
    (outsAt0 V c t.val t.isLt).1 = k0_pay2 (nodeBlk V c t) (aggBlk V c t) := by
  by_cases h0 : t.val % 10 = 0
  · rw [outsAt0_A V c t h0]
    dsimp only
    exact outA3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (nodeBlk V c t) (aggBlk V c t) (idBlk V c t)
  · rw [outsAt0_B V c t h0]
    dsimp only
    exact outB3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (nodeBlk V c t) (aggBlk V c t) (idBlk V c t) (outsAt0 V c (t.val - 1) (Nat.lt_of_le_of_lt (Nat.sub_le _ _) t.isLt)).2

theorem flushed3 (c : Dev nD) (t : Fin cfg0.N) (hf : (cfg0.win 3).flush t = true) :
    (dat0 V c).flushed 3 t = ((cfg0.win 3).blk t).view.read (Elt Ideal) (hOut V c) := by
  show (cfg0.win 3).cut (grid0.coords t) ((dat0 V c).after 3 t) = _
  rw [after0_3, out3_eq]
  funext y
  obtain ⟨r, j, rfl⟩ : ∃ (r : Fin 5000) (j : Fin 128), y = ix2 r j := ⟨y 0, y 1, eq_ix2 y⟩
  rw [read_blk3]
  show k0_pay2 (nodeBlk V c t) (aggBlk V c t) (ix2 r j) = _
  rw [Cert.KernelIdeal.Payload.pay0_h, nodeBlk_apply, aggBlk_apply]
  rfl

theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have h0 : (i 0 : Nat) < 50000 := (i 0).isLt
  have h1 : (i 1 : Nat) < 128 := (i 1).isLt
  have hlt : (i 0 : Nat) / 5000 < cfg0.N := by rw [show cfg0.N = 10 from N_0]; omega
  refine ⟨⟨(i 0 : Nat) / 5000, hlt⟩, flush0_3 _, ?_⟩
  have hi := idx0_3 ⟨(i 0 : Nat) / 5000, hlt⟩
  show i ∈ ((View.whole main_v48_0).slice (win0_3.rect ⟨(i 0 : Nat) / 5000, hlt⟩)).set
  rw [View.set_slice_whole, Rect.mem_set_unit]
  intro a
  match a with
  | ⟨0, _⟩ =>
    show win0_3.index ⟨(i 0 : Nat) / 5000, hlt⟩ 0 * 5000 ≤ (i 0 : Nat)
      ∧ (i 0 : Nat) < win0_3.index ⟨(i 0 : Nat) / 5000, hlt⟩ 0 * 5000 + 5000
    rw [hi.1]; dsimp only; omega
  | ⟨1, _⟩ =>
    show win0_3.index ⟨(i 0 : Nat) / 5000, hlt⟩ 1 * 128 ≤ (i 1 : Nat)
      ∧ (i 1 : Nat) < win0_3.index ⟨(i 0 : Nat) / 5000, hlt⟩ 1 * 128 + 128
    rw [hi.2]; omega

theorem r0_h (c : Dev nD) :
    (dat0 (F := Ideal) V c).arrAt 3 cfg0.N = Cert.Spec.hArr (V c main_arg0) (V c main_v40) :=
  (dat0 V c).arrAt_eq_of_cover 3 (hOut V c) (flushed3 V c) (cover3 c)

/-! ## The accumulator: after point n, the weighted rows of points 0 … n -/

/-- One row's contribution to graph g's sum at feature j. -/
def rowTerm (c : Dev nD) (g : Fin 50) (j : Fin 128) (i : Fin 50000) : EReal :=
  Cert.Spec.oh (idArr V c (ix2 i 0)) g * (nodeArr V c (ix2 i j) + aggArr V c (ix2 i j))

/-- Point s's contribution: its 5000 rows (zero past the ten points, where it is never read). -/
def addend (c : Dev nD) (g : Fin 50) (j : Fin 128) (s : ℕ) : EReal :=
  if h : s < 10 then ∑ r : Fin 5000, rowTerm V c g j ⟨r.val + 5000 * s, by have := r.isLt; omega⟩ else 0

/-- A block's weighted rows, as the payload states them, are the point's contribution. -/
theorem blk_sum (c : Dev nD) (g : Fin 50) (j : Fin 128) (t : Fin cfg0.N) :
    ∑ r : Fin 5000, Cert.Spec.oh (idBlk V c t (ix2 r 0)) g * (nodeBlk V c t (ix2 r j) + aggBlk V c t (ix2 r j))
      = addend V c g j t.val := by
  have hN : t.val < 10 := lt_of_lt_of_eq t.isLt (show cfg0.N = 10 from N_0)
  unfold addend
  rw [dif_pos hN]
  refine Finset.sum_congr rfl fun r _ => ?_
  rw [idBlk_apply V c t r, nodeBlk_apply V c t r j, aggBlk_apply V c t r j]
  rfl

/-- THE INVARIANT, by induction on the point: point 0 stores the zero block and adds its rows; a later point adds its
    rows to what the point before left. -/
theorem acc_eq (c : Dev nD) (g : Fin 50) (j : Fin 128) : ∀ (n : ℕ) (h : n < cfg0.N),
    (outsAt0 V c n h).2 (ix2 g j) = ∑ s : Fin (n + 1), addend V c g j s.val
  | 0, h => by
    rw [outsAt0_A V c ⟨0, h⟩ rfl]
    dsimp only
    refine (congrFun (outA4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (nodeBlk V c ⟨0, h⟩) (aggBlk V c ⟨0, h⟩) (idBlk V c ⟨0, h⟩)) (ix2 g j)).trans ?_
    refine (Cert.KernelIdeal.Payload.pay0_sum _ _ _ _ g j).trans ?_
    rw [Cert.KernelIdeal.Payload.pay0_zero, zero_add, blk_sum V c g j ⟨0, h⟩]
    exact (Fin.sum_univ_one (fun s : Fin 1 => addend V c g j s.val)).symm
  | n + 1, h => by
    have hN : cfg0.N = 10 := N_0
    have hB : ¬(⟨n + 1, h⟩ : Fin cfg0.N).val % 10 = 0 := by dsimp only; omega
    rw [outsAt0_B V c ⟨n + 1, h⟩ hB]
    dsimp only
    refine (congrFun (outB4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => hB ((hcond0_0 ⟨n + 1, h⟩).mp hh))
      (nodeBlk V c ⟨n + 1, h⟩) (aggBlk V c ⟨n + 1, h⟩) (idBlk V c ⟨n + 1, h⟩) (outsAt0 V c n (Nat.lt_of_succ_lt h)).2) (ix2 g j)).trans ?_
    refine (Cert.KernelIdeal.Payload.pay0_sum _ _ _ _ g j).trans ?_
    rw [acc_eq c g j n (Nat.lt_of_succ_lt h), blk_sum V c g j ⟨n + 1, h⟩]
    exact (Fin.sum_univ_castSucc (fun s : Fin (n + 1 + 1) => addend V c g j s.val)).symm

/-- All ten points' contributions are the sum over all 50000 rows. -/
theorem total_eq (c : Dev nD) (g : Fin 50) (j : Fin 128) :
    ∑ s : Fin 10, addend V c g j s.val = sumOut V c (ix2 g j) := by
  show _ = ∑ i : Fin 50000, rowTerm V c g j i
  rw [sum_blocks (rowTerm V c g j)]
  exact Finset.sum_congr rfl fun s _ => dif_pos s.isLt

theorem flushed4 (c : Dev nD) (t : Fin cfg0.N) (hf : (cfg0.win 4).flush t = true) :
    (dat0 V c).flushed 4 t = ((cfg0.win 4).blk t).view.read (Elt Ideal) (sumOut V c) := by
  have hN : cfg0.N = 10 := N_0
  have h9 : t.val = 9 := by have := (flush0_4 t).mp hf; have := t.isLt; omega
  obtain rfl : t = t0_9 := Fin.ext h9
  show (cfg0.win 4).cut (grid0.coords t0_9) ((dat0 V c).after 4 t0_9) = _
  rw [after0_4]
  funext y
  obtain ⟨g, j, rfl⟩ : ∃ (g : Fin 50) (j : Fin 128), y = ix2 g j := ⟨y 0, y 1, eq_ix2 y⟩
  rw [read_blk4]
  exact (acc_eq V c g j t0_9.val t0_9.isLt).trans (total_eq V c g j)

theorem cover4 (c : Dev nD) (i : ((cfg0.win 4).arr.view.loc (c.tc : Thread nD τ)).2.ty.Idx) :
    ∃ t : Fin cfg0.N, (cfg0.win 4).flush t = true ∧ i ∈ ((cfg0.win 4).blk t).view.set :=
  ⟨t0_9, (flush0_4 t0_9).mpr rfl, by
    have hi := idx0_4 t0_9
    have h0 : (i 0 : Nat) < 50 := (i 0).isLt
    have h1 : (i 1 : Nat) < 128 := (i 1).isLt
    show i ∈ ((View.whole main_v48_1).slice (win0_4.rect t0_9)).set
    rw [View.set_slice_whole, Rect.mem_set_unit]
    intro a
    match a with
    | ⟨0, _⟩ =>
      show win0_4.index t0_9 0 * 50 ≤ (i 0 : Nat) ∧ (i 0 : Nat) < win0_4.index t0_9 0 * 50 + 50
      rw [hi.1]; omega
    | ⟨1, _⟩ =>
      show win0_4.index t0_9 1 * 128 ≤ (i 1 : Nat) ∧ (i 1 : Nat) < win0_4.index t0_9 1 * 128 + 128
      rw [hi.2]; omega⟩

theorem r0_sum (c : Dev nD) :
    (dat0 (F := Ideal) V c).arrAt 4 cfg0.N
      = Cert.Spec.segSum (V c main_v47) (Cert.Spec.hArr (V c main_arg0) (V c main_v40)) :=
  (dat0 V c).arrAt_eq_of_cover 4 (sumOut V c) (flushed4 V c) (cover4 c)

end Cert.KernelIdeal.Region0

end
-- ==== Proof.Region1.lean ====
/-
  The second kernel region read as values, from ANY contents `V` of the buffers at its entry: after its ten points
  the per-graph array holds, for graph g and feature j, the sum over all 50000 rows of weight(row, g) · c(row, j)²,
  c the centred entry h − mean(graph of row) · mean_scale: zeroed at point 0, each point adds its block's part, one
  write-back after the last point.
-/
import proofs.«404709_j72688026518112_2_alg».proof.Proof.Gen.KernelIdeal.Frame
import proofs.«404709_j72688026518112_2_alg».proof.Proof.Spec
import proofs.«404709_j72688026518112_2_alg».proof.Proof.Payload
import Idealize.ShloMosaic.Lib.Pipeline.Value
import Idealize.ShloMosaic.Lib.Tactic

noncomputable section
set_option maxRecDepth 16384

namespace Cert.KernelIdeal.Region1

open Cert.KernelIdeal Cert.KernelIdeal.Gen
open Idealize.ShloMosaic Idealize.ShloMosaic.ValueIdx Idealize.ShloMosaic.TcCoe Idealize.SL.Sem
open Idealize.ShloMosaic.Pipeline (Dat)

/-! ## What each case of the body leaves in the accumulator block -/

section Pieces
variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a <;> rfl

/-- Points 1 … 9: the block holding `xo` is left at the update of `xo` by this point's input blocks: the one
    covering store's payload, whose loads read the whole buffers. -/
theorem out_B (c : Dev nD) (i : grid1.Coords) (a1 : Memref sig .tc .vmem S5000x128 .f32) (h1 : a1.IsWhole)
    (a2 : Memref sig .tc .vmem S5000x1 .i32) (h2 : a2.IsWhole) (a3 : Memref sig .tc .vmem S50x128 .f32) (h3 : a3.IsWhole)
    (a4 : Memref sig .tc .vmem S128 .f32) (h4 : a4.IsWhole) (a5 : Memref sig .tc .vmem S50x128 .f32) (h5 : a5.IsWhole)
    (hc : ¬cond1_0 i) (x0 : Vec F S5000x128 .f32) (x1 : Vec F S5000x1 .i32) (x2 : Vec F S50x128 .f32)
    (x3 : Vec F S128 .f32) (xo : Vec F S50x128 .f32) :
    out1_B_4 c i a1 h1 a2 h2 a3 h3 a4 h4 a5 h5 hc x0 x1 x2 x3 xo = k1_pay2 x0 x1 x2 x3 xo := by
  unfold out1_B_4
  rw [View.read_writes_eq_canon _ _ _ (cover1_B_4 c i a1 h1 a2 h2 a3 h3 a4 h4 a5 h5 hc x0 x1 x2 x3 xo)]
  unfold kernelRun1_B
  dsimp only
  sl_unfold_words
  rw [View.canon_unit_zero hz2]
  simp only [View.readAt_eq_ld, h1.read_unread, h2.read_unread, h3.read_unread, h4.read_unread, h5.read_unread,
    View.ld_unit_zero (S := S5000x128) hz2, View.ld_unit_zero (S := S5000x1) hz2, View.ld_unit_zero (S := S50x128) hz2,
    View.ld_unit_zero (S := S128) hz1]

/-- Point 0: the block is zeroed, read back, and left at the update of the zero block by this point's input blocks. -/
theorem out_A (c : Dev nD) (i : grid1.Coords) (a1 : Memref sig .tc .vmem S5000x128 .f32) (h1 : a1.IsWhole)
    (a2 : Memref sig .tc .vmem S5000x1 .i32) (h2 : a2.IsWhole) (a3 : Memref sig .tc .vmem S50x128 .f32) (h3 : a3.IsWhole)
    (a4 : Memref sig .tc .vmem S128 .f32) (h4 : a4.IsWhole) (a5 : Memref sig .tc .vmem S50x128 .f32) (h5 : a5.IsWhole)
    (hc : cond1_0 i) (x0 : Vec F S5000x128 .f32) (x1 : Vec F S5000x1 .i32) (x2 : Vec F S50x128 .f32)
    (x3 : Vec F S128 .f32) :
    out1_A_4 c i a1 h1 a2 h2 a3 h3 a4 h4 a5 h5 hc x0 x1 x2 x3 = k1_pay2 x0 x1 x2 x3 (k1_pay1 (F := F)) := by
  unfold out1_A_4
  rw [View.read_writes_eq_canon _ _ _ (cover1_A_4 c i a1 h1 a2 h2 a3 h3 a4 h4 a5 h5 hc x0 x1 x2 x3)]
  unfold kernelRun1_A
  dsimp only
  sl_unfold_words
  rw [View.canon_cons_unit_zero (S := S50x128) hz2]
  simp only [View.readAt_eq_ld, h1.read_unread, h2.read_unread, h3.read_unread, h4.read_unread,
    View.ld_unit_zero (S := S5000x128) hz2, View.ld_unit_zero (S := S5000x1) hz2, View.ld_unit_zero (S := S50x128) hz2,
    View.ld_unit_zero (S := S128) hz1, View.readCov_unit_zero (S := S50x128) _ hz2]

end Pieces

variable (V : (c : Dev nD) → (b : Ref sig .tc) → Buf (Elt Ideal) ((c : Thread nD τ).loc b))

/-! ## The blocks and the arrays, by their literal types -/

/-- Point `t`'s block of h: 5000 rows. -/
abbrev hblk (c : Dev nD) (t : Fin cfg1.N) : Vec Ideal S5000x128 .f32 := iblk1 V c 0 t
/-- Point `t`'s block of the graph-id column. -/
abbrev bblk (c : Dev nD) (t : Fin cfg1.N) : Vec Ideal S5000x1 .i32 := iblk1 V c 1 t
/-- The mean table as point `t` reads it. -/
abbrev mblk (c : Dev nD) (t : Fin cfg1.N) : Vec Ideal S50x128 .f32 := iblk1 V c 2 t
/-- mean_scale as point `t` reads it. -/
abbrev sblk (c : Dev nD) (t : Fin cfg1.N) : Vec Ideal S128 .f32 := iblk1 V c 3 t
/-- h, all 50000 rows. -/
abbrev harr (c : Dev nD) : Vec Ideal S50000x128 .f32 := V c main_v48_0
/-- The graph-id column. -/
abbrev barr (c : Dev nD) : Vec Ideal S50000x1 .i32 := V c main_v47
/-- The mean table. -/
abbrev marr (c : Dev nD) : Vec Ideal S50x128 .f32 := V c main_v50
/-- mean_scale. -/
abbrev sarr (c : Dev nD) : Vec Ideal S128 .f32 := V c main_arg6

/-- Row `r` of point `t`'s block is array row `5000 t + r`. -/
def row (t : Fin cfg1.N) (r : Fin 5000) : Fin 50000 :=
  ⟨5000 * t.val + r.val, by have := t.isLt; have hN : cfg1.N = 10 := N_1; have := r.isLt; omega⟩

/-- The block index of each window at each point: the point on the row axis of the two blocked windows, zero elsewhere. -/
theorem index1_0 : ∀ t : Fin cfg1.N, win1_0.index t 0 = t.val ∧ win1_0.index t 1 = 0 :=
  (by decide +kernel : ∀ t : Fin grid1.N, win1_0.index t 0 = t.val ∧ win1_0.index t 1 = 0)
theorem index1_1 : ∀ t : Fin cfg1.N, win1_1.index t 0 = t.val ∧ win1_1.index t 1 = 0 :=
  (by decide +kernel : ∀ t : Fin grid1.N, win1_1.index t 0 = t.val ∧ win1_1.index t 1 = 0)
theorem index1_2 : ∀ t : Fin cfg1.N, win1_2.index t 0 = 0 ∧ win1_2.index t 1 = 0 :=
  (by decide +kernel : ∀ t : Fin grid1.N, win1_2.index t 0 = 0 ∧ win1_2.index t 1 = 0)
theorem index1_3 : ∀ t : Fin cfg1.N, win1_3.index t 0 = 0 :=
  (by decide +kernel : ∀ t : Fin grid1.N, win1_3.index t 0 = 0)

/-- An entry of a block of h is the array's entry at the block's row offset. -/
theorem hblk_apply (c : Dev nD) (t : Fin cfg1.N) (r : Fin 5000) (j : Fin 128) :
    hblk V c t (ix2 r j) = harr V c (ix2 (row t r) j) := by
  have hi := index1_0 t
  show iblk1 V c 0 t (ix2 r j) = V c main_v48_0 (ix2 (row t r) j)
  unfold iblk1
  rw [View.read_apply]
  show V c main_v48_0 _ = V c main_v48_0 _
  congr 1
  funext a
  apply Fin.ext
  match a with
  | ⟨0, _⟩ => show win1_0.index t 0 * 5000 + 1 * r.val = 5000 * t.val + r.val; rw [hi.1]; omega
  | ⟨1, _⟩ => show win1_0.index t 1 * 128 + 1 * j.val = j.val; rw [hi.2]; omega

/-- An entry of a block of the graph-id column is the column's entry at the block's row offset. -/
theorem bblk_apply (c : Dev nD) (t : Fin cfg1.N) (r : Fin 5000) :
    bblk V c t (ix2 r 0) = barr V c (ix2 (row t r) 0) := by
  have hi := index1_1 t
  show iblk1 V c 1 t (ix2 r 0) = V c main_v47 (ix2 (row t r) 0)
  unfold iblk1
  rw [View.read_apply]
  show V c main_v47 _ = V c main_v47 _
  congr 1
  funext a
  apply Fin.ext
  match a with
  | ⟨0, _⟩ => show win1_1.index t 0 * 5000 + 1 * r.val = 5000 * t.val + r.val; rw [hi.1]; omega
  | ⟨1, _⟩ => show win1_1.index t 1 * 1 + 1 * 0 = 0; rw [hi.2]

/-- Every point reads the whole mean table. -/
theorem mblk_eq (c : Dev nD) (t : Fin cfg1.N) : mblk V c t = marr V c := by
  have hi := index1_2 t
  funext y
  show iblk1 V c 2 t y = V c main_v50 y
  unfold iblk1
  rw [View.read_apply]
  show V c main_v50 _ = V c main_v50 _
  congr 1
  funext a
  apply Fin.ext
  match a with
  | ⟨0, _⟩ => show win1_2.index t 0 * 50 + 1 * (y 0).val = (y 0).val; rw [hi.1]; omega
  | ⟨1, _⟩ => show win1_2.index t 1 * 128 + 1 * (y 1).val = (y 1).val; rw [hi.2]; omega

/-- Every point reads the whole mean_scale. -/
theorem sblk_eq (c : Dev nD) (t : Fin cfg1.N) : sblk V c t = sarr V c := by
  have hi := index1_3 t
  funext y
  show iblk1 V c 3 t y = V c main_arg6 y
  unfold iblk1
  rw [View.read_apply]
  show V c main_arg6 _ = V c main_arg6 _
  congr 1
  funext a
  apply Fin.ext
  match a with
  | ⟨0, _⟩ => show win1_3.index t 0 * 128 + 1 * (y 0).val = (y 0).val; rw [hi]; omega

/-! ## The accumulator after each point -/

/-- Block `s`'s share of graph `g`'s, feature `j`'s sum: over the block's rows, weight · centred entry squared
    (nothing past the grid). -/
def part (c : Dev nD) (s : ℕ) (g : Fin 50) (j : Fin 128) : EReal :=
  if hs : s < cfg1.N then
    ∑ r : Fin 5000, Cert.Spec.oh (bblk V c ⟨s, hs⟩ (ix2 r 0)) g *
      (Cert.Spec.cenElt (hblk V c ⟨s, hs⟩ (ix2 r j)) (bblk V c ⟨s, hs⟩ (ix2 r 0)) (mblk V c ⟨s, hs⟩) j (sblk V c ⟨s, hs⟩ (ix1 j))
        * Cert.Spec.cenElt (hblk V c ⟨s, hs⟩ (ix2 r j)) (bblk V c ⟨s, hs⟩ (ix2 r 0)) (mblk V c ⟨s, hs⟩) j (sblk V c ⟨s, hs⟩ (ix1 j)))
  else 0

theorem part_of_lt (c : Dev nD) (t : Fin cfg1.N) (g : Fin 50) (j : Fin 128) :
    part V c t.val g j = ∑ r : Fin 5000, Cert.Spec.oh (bblk V c t (ix2 r 0)) g *
      (Cert.Spec.cenElt (hblk V c t (ix2 r j)) (bblk V c t (ix2 r 0)) (mblk V c t) j (sblk V c t (ix1 j))
        * Cert.Spec.cenElt (hblk V c t (ix2 r j)) (bblk V c t (ix2 r 0)) (mblk V c t) j (sblk V c t (ix1 j))) := by
  unfold part
  rw [dif_pos t.isLt]

/-- After point `n` the accumulator holds the shares of blocks 0 … n: zeroed and updated at point 0, updated at each
    later point — by induction on the point. -/
theorem outsAt_eq (c : Dev nD) : ∀ (n : ℕ) (h : n < cfg1.N) (g : Fin 50) (j : Fin 128),
    outsAt1 V c n h (ix2 g j) = ∑ s ∈ Finset.range (n + 1), part V c s g j
  | 0, h, g, j => by
    rw [outsAt1_A V c ⟨0, h⟩ rfl]
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) (ms1_3 ⟨0, h⟩) (hs1_3 ⟨0, h⟩) (ms1_4 ⟨0, h⟩) (hs1_4 ⟨0, h⟩)
      ((hcond1_0 ⟨0, h⟩).mpr rfl) (hblk V c ⟨0, h⟩) (bblk V c ⟨0, h⟩) (mblk V c ⟨0, h⟩) (sblk V c ⟨0, h⟩)) (ix2 g j)).trans ?_
    rw [Payload.pay1_sq, Payload.pay1_zero, Finset.sum_range_succ, Finset.sum_range_zero, part_of_lt V c ⟨0, h⟩ g j]
  | n + 1, h, g, j => by
    have hN : cfg1.N = 10 := N_1
    have hB : ¬(⟨n + 1, h⟩ : Fin cfg1.N).val % 10 = 0 := by dsimp only; omega
    rw [outsAt1_B V c ⟨n + 1, h⟩ hB]
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩)
      (fun hh => hB ((hcond1_0 ⟨n + 1, h⟩).mp hh)) (hblk V c ⟨n + 1, h⟩) (bblk V c ⟨n + 1, h⟩) (mblk V c ⟨n + 1, h⟩) (sblk V c ⟨n + 1, h⟩)
      (outsAt1 V c n (Nat.lt_of_succ_lt h))) (ix2 g j)).trans ?_
    rw [Payload.pay1_sq, Finset.sum_range_succ, outsAt_eq c n (Nat.lt_of_succ_lt h) g j, part_of_lt V c ⟨n + 1, h⟩ g j]

/-! ## The one write-back, after the last point -/

/-- The accumulator after point 9, as contents of the result array (its one block is the array). -/
abbrev result (c : Dev nD) : Buf (Elt Ideal) ((c : Thread nD τ).loc main_v51) :=
  outsAt1 V c 9 (by rw [show cfg1.N = 10 from N_1]; decide)

/-- The one write-back, at point 9, writes it: block (0, 0) of the [50,128] array read through zero offsets is the array. -/
theorem flushed_eq (c : Dev nD) (t : Fin cfg1.N) (hf : (cfg1.win 4).flush t = true) :
    (dat1 V c).flushed 4 t = ((cfg1.win 4).blk t).view.read (Elt Ideal) (result V c) := by
  have hN : cfg1.N = 10 := N_1
  have h9 : t.val = 9 := by have := (flush1_4 t).mp hf; have := t.isLt; omega
  obtain rfl : t = t1_9 := Fin.ext h9
  show (cfg1.win 4).cut (grid1.coords t1_9) ((dat1 V c).after 4 t1_9) = _
  rw [after1_4]
  have hz' : (fun a => win1_4.index t1_9 a * main_v51.ty.shape.size a) = fun _ => 0 := funext fun a => by fin_cases a <;> decide
  exact (Memref.read_access_unit_zero (Elt Ideal) main_v51 hz' (fun a => by rw [congrFun hz' a]; simp) (result V c)).symm

/-- So the result array ends holding the accumulator after point 9: that point's block covers it. -/
theorem final_eq (c : Dev nD) : (dat1 V c).arrAt 4 cfg1.N = result V c :=
  (dat1 V c).arrAt_eq_of_cover 4 (result V c) (flushed_eq V c) fun i =>
    ⟨t1_9, (flush1_4 t1_9).mpr rfl, by
      show i ∈ ((View.whole main_v51).slice (win1_4.rect t1_9)).set
      rw [View.set_slice_whole, Rect.mem_set_unit]
      intro a
      have h0 : (i 0 : Nat) < 50 := (i 0).isLt
      have h1 : (i 1 : Nat) < 128 := (i 1).isLt
      match a with
      | ⟨0, _⟩ => show win1_4.index t1_9 0 * win1_4.size 0 ≤ (i 0 : Nat) ∧ (i 0 : Nat) < win1_4.index t1_9 0 * win1_4.size 0 + win1_4.xsize (grid1.coords t1_9) 0
                  rw [show win1_4.index t1_9 0 * win1_4.size 0 = 0 from by decide +kernel, show win1_4.xsize (grid1.coords t1_9) 0 = 50 from by decide +kernel]; omega
      | ⟨1, _⟩ => show win1_4.index t1_9 1 * win1_4.size 1 ≤ (i 1 : Nat) ∧ (i 1 : Nat) < win1_4.index t1_9 1 * win1_4.size 1 + win1_4.xsize (grid1.coords t1_9) 1
                  rw [show win1_4.index t1_9 1 * win1_4.size 1 = 0 from by decide +kernel, show win1_4.xsize (grid1.coords t1_9) 1 = 128 from by decide +kernel]; omega⟩

/-! ## Ten blocks of 5000 rows are the 50000 rows -/

/-- A sum over the 50000 rows, block by block. -/
theorem sum_blocks {M : Type*} [AddCommMonoid M] (W : Fin 50000 → M) :
    ∑ i : Fin 50000, W i
      = ∑ t : Fin 10, ∑ r : Fin 5000, W ⟨5000 * t.val + r.val, by have := t.isLt; have := r.isLt; omega⟩ := by
  rw [← Equiv.sum_comp (finProdFinEquiv : Fin 10 × Fin 5000 ≃ Fin 50000) W, Fintype.sum_prod_type]
  refine Finset.sum_congr rfl fun t _ => Finset.sum_congr rfl fun r _ => congrArg W (Fin.ext ?_)
  show r.val + 5000 * t.val = 5000 * t.val + r.val
  omega

/-- The ten blocks' shares add up to the specification's per-graph sum of squares. -/
theorem total_eq (c : Dev nD) (g : Fin 50) (j : Fin 128) :
    ∑ s ∈ Finset.range 10, part V c s g j
      = Cert.Spec.sqArr (harr V c) (barr V c) (marr V c) (sarr V c) (ix2 g j) := by
  have hN : cfg1.N = 10 := N_1
  rw [Finset.sum_range]
  show _ = ∑ i : Fin 50000, Cert.Spec.oh (barr V c (ix2 i 0)) g *
      (Cert.Spec.cenElt (harr V c (ix2 i j)) (barr V c (ix2 i 0)) (marr V c) j (sarr V c (ix1 j))
        * Cert.Spec.cenElt (harr V c (ix2 i j)) (barr V c (ix2 i 0)) (marr V c) j (sarr V c (ix1 j)))
  refine Eq.trans ?_ (sum_blocks _).symm
  refine Finset.sum_congr rfl fun t _ => ?_
  have ht : t.val < cfg1.N := by rw [hN]; exact t.isLt
  rw [part_of_lt V c ⟨t.val, ht⟩ g j]
  refine Finset.sum_congr rfl fun r _ => ?_
  rw [hblk_apply V c, bblk_apply V c, mblk_eq V c, sblk_eq V c]
  rfl

theorem r1_sq (c : Dev nD) :
    (dat1 (F := Ideal) V c).arrAt 4 cfg1.N
      = Cert.Spec.sqArr (V c main_v48_0) (V c main_v47) (V c main_v50) (V c main_arg6) := by
  refine (final_eq V c).trans ?_
  funext gj
  obtain ⟨g, j, rfl⟩ : ∃ (g : Fin 50) (j : Fin 128), gj = ix2 g j := ⟨gj 0, gj 1, eq_ix2 gj⟩
  exact (outsAt_eq V c 9 _ g j).trans (total_eq V c g j)

end Cert.KernelIdeal.Region1

end
-- ==== Proof.Region2.lean ====
/-
  The third kernel region read as values, from ANY contents `V` of the buffers at its entry: point t writes rows
  5000 t … 5000 t + 4999 of the output, each entry the specification's output entry of that row's h, graph id and the
  two per-graph tables; the ten blocks tile the array.
-/
import proofs.«404709_j72688026518112_2_alg».proof.Proof.Gen.KernelIdeal.Frame
import proofs.«404709_j72688026518112_2_alg».proof.Proof.Spec
import proofs.«404709_j72688026518112_2_alg».proof.Proof.Payload
import Idealize.ShloMosaic.Lib.Pipeline.Value
import Idealize.ShloMosaic.Lib.Tactic

noncomputable section
set_option maxRecDepth 16384

namespace Cert.KernelIdeal.Region2

open Cert.KernelIdeal Cert.KernelIdeal.Gen
open Idealize.ShloMosaic Idealize.ShloMosaic.ValueIdx Idealize.ShloMosaic.TcCoe Idealize.SL.Sem
open Idealize.ShloMosaic.Pipeline (Dat)

variable (V : (c : Dev nD) → (b : Ref sig .tc) → Buf (Elt Ideal) ((c : Thread nD τ).loc b))

/-! ## The zero offsets, and where each window's block sits at each point -/

/-- The rank-2 zero offsets, however the zeros are spelt. -/
theorem zero2 : (![0, 0] : Fin 2 → Nat) = fun _ => 0 := funext fun a => by fin_cases a <;> rfl

/-- The rank-1 zero offset. -/
theorem zero1 : (![0] : Fin 1 → Nat) = fun _ => 0 := funext fun a => by fin_cases a <;> rfl

/-- The block indices over the ten points: h, the graph-id column and the output move with the point along the
    rows and stay at column block 0; the two per-graph tables and the three per-feature vectors stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 1) = 0
    ∧ win2_5.index t (0 : Fin 1) = 0
    ∧ win2_6.index t (0 : Fin 1) = 0
    ∧ win2_7.index t (0 : Fin 2) = t.val ∧ win2_7.index t (1 : Fin 2) = 0 :=
  (by decide +kernel : ∀ t : Fin grid2.N, _)

/-! ## Each input block, read off its array -/

/-- h's block at point t is rows 5000 t … 5000 t + 4999 of h. -/
theorem blk0_apply (c : Dev nD) (t : Fin cfg2.N) (x : S5000x128.Idx) (k : S50000x128.Idx)
    (hk0 : (k 0).val = t.val * 5000 + (x 0).val) (hk1 : (k 1).val = (x 1).val) :
    (iblk2 V c 0 t : Vec Ideal S5000x128 .f32) x = (V c main_v48_0 : S50000x128.Idx → EReal) k := by
  obtain ⟨f00, f01, -⟩ := idx_facts t
  unfold iblk2
  rw [View.read_apply]
  show V c main_v48_0 _ = V c main_v48_0 _
  congr 1
  funext a
  apply Fin.ext
  match a with
  | ⟨0, _⟩ => show win2_0.index t (0 : Fin 2) * 5000 + 1 * (x 0).val = (k 0).val; omega
  | ⟨1, _⟩ => show win2_0.index t (1 : Fin 2) * 128 + 1 * (x 1).val = (k 1).val; omega

/-- The graph-id column's block at point t is rows 5000 t … 5000 t + 4999 of the column. -/
theorem blk1_apply (c : Dev nD) (t : Fin cfg2.N) (x : S5000x1.Idx) (k : S50000x1.Idx)
    (hk0 : (k 0).val = t.val * 5000 + (x 0).val) (hk1 : (k 1).val = (x 1).val) :
    (iblk2 V c 1 t : Vec Ideal S5000x1 .i32) x = (V c main_v47 : S50000x1.Idx → BitVec 32) k := by
  obtain ⟨-, -, f10, f11, -⟩ := idx_facts t
  unfold iblk2
  rw [View.read_apply]
  show V c main_v47 _ = V c main_v47 _
  congr 1
  funext a
  apply Fin.ext
  match a with
  | ⟨0, _⟩ => show win2_1.index t (0 : Fin 2) * 5000 + 1 * (x 0).val = (k 0).val; omega
  | ⟨1, _⟩ => show win2_1.index t (1 : Fin 2) * 1 + 1 * (x 1).val = (k 1).val; omega

/-- The mean table's block is the whole table at every point. -/
theorem blk2_eq (c : Dev nD) (t : Fin cfg2.N) :
    (iblk2 V c 2 t : Vec Ideal S50x128 .f32) = (V c main_v50 : S50x128.Idx → EReal) := by
  obtain ⟨-, -, -, -, f20, f21, -⟩ := idx_facts t
  funext x
  unfold iblk2
  rw [View.read_apply]
  show V c main_v50 _ = V c main_v50 x
  congr 1
  funext a
  apply Fin.ext
  match a with
  | ⟨0, _⟩ => show win2_2.index t (0 : Fin 2) * 50 + 1 * (x 0).val = (x 0).val; omega
  | ⟨1, _⟩ => show win2_2.index t (1 : Fin 2) * 128 + 1 * (x 1).val = (x 1).val; omega

/-- The variance table's block is the whole table at every point. -/
theorem blk3_eq (c : Dev nD) (t : Fin cfg2.N) :
    (iblk2 V c 3 t : Vec Ideal S50x128 .f32) = (V c main_v53 : S50x128.Idx → EReal) := by
  obtain ⟨-, -, -, -, -, -, f30, f31, -⟩ := idx_facts t
  funext x
  unfold iblk2
  rw [View.read_apply]
  show V c main_v53 _ = V c main_v53 x
  congr 1
  funext a
  apply Fin.ext
  match a with
  | ⟨0, _⟩ => show win2_3.index t (0 : Fin 2) * 50 + 1 * (x 0).val = (x 0).val; omega
  | ⟨1, _⟩ => show win2_3.index t (1 : Fin 2) * 128 + 1 * (x 1).val = (x 1).val; omega

/-- The mean scale's block is the whole vector at every point. -/
theorem blk4_eq (c : Dev nD) (t : Fin cfg2.N) :
    (iblk2 V c 4 t : Vec Ideal S128 .f32) = (V c main_arg6 : S128.Idx → EReal) := by
  obtain ⟨-, -, -, -, -, -, -, -, f40, -⟩ := idx_facts t
  funext x
  unfold iblk2
  rw [View.read_apply]
  show V c main_arg6 _ = V c main_arg6 x
  congr 1
  funext a
  apply Fin.ext
  match a with
  | ⟨0, _⟩ => show win2_4.index t (0 : Fin 1) * 128 + 1 * (x 0).val = (x 0).val; omega

/-- The weight's block is the whole vector at every point. -/
theorem blk5_eq (c : Dev nD) (t : Fin cfg2.N) :
    (iblk2 V c 5 t : Vec Ideal S128 .f32) = (V c main_arg4 : S128.Idx → EReal) := by
  obtain ⟨-, -, -, -, -, -, -, -, -, f50, -⟩ := idx_facts t
  funext x
  unfold iblk2
  rw [View.read_apply]
  show V c main_arg4 _ = V c main_arg4 x
  congr 1
  funext a
  apply Fin.ext
  match a with
  | ⟨0, _⟩ => show win2_5.index t (0 : Fin 1) * 128 + 1 * (x 0).val = (x 0).val; omega

/-- The bias's block is the whole vector at every point. -/
theorem blk6_eq (c : Dev nD) (t : Fin cfg2.N) :
    (iblk2 V c 6 t : Vec Ideal S128 .f32) = (V c main_arg5 : S128.Idx → EReal) := by
  obtain ⟨-, -, -, -, -, -, -, -, -, -, f60, -⟩ := idx_facts t
  funext x
  unfold iblk2
  rw [View.read_apply]
  show V c main_arg5 _ = V c main_arg5 x
  congr 1
  funext a
  apply Fin.ext
  match a with
  | ⟨0, _⟩ => show win2_6.index t (0 : Fin 1) * 128 + 1 * (x 0).val = (x 0).val; omega

/-! ## What the body stores, as the output array's entry -/

/-- At coordinates: when the block's h entry (r, j) is the array's entry (R, j) and the block's graph id of row r
    is the column's of row R, the body's stored entry (r, j) is the output array's entry (R, j). -/
theorem pay_at (x0 : Vec Ideal S5000x128 .f32) (x1 : Vec Ideal S5000x1 .i32) (x2 x3 : Vec Ideal S50x128 .f32)
    (x4 x5 x6 : Vec Ideal S128 .f32) (h : FVec Ideal S50000x128 .f32) (b : IVec S50000x1 32)
    (r : Fin 5000) (j : Fin 128) (R : Fin 50000)
    (e0 : x0 (ix2 r j) = h (ix2 R j)) (e1 : x1 (ix2 r 0) = b (ix2 R 0)) :
    k2_pay1 x0 x1 x2 x3 x4 x5 x6 (ix2 r j) = Cert.Spec.outArr h b x2 x3 x4 x5 x6 (ix2 R j) := by
  refine (Payload.pay2_out x0 x1 x2 x3 x4 x5 x6 r j).trans ?_
  show Cert.Spec.outElt (x0 (ix2 r j)) (x1 (ix2 r 0)) x2 x3 j (x4 (ix1 j)) (x5 (ix1 j)) (x6 (ix1 j))
     = Cert.Spec.outElt (h (ix2 R j)) (b (ix2 R 0)) x2 x3 j (x4 (ix1 j)) (x5 (ix1 j)) (x6 (ix1 j))
  rw [e0, e1]

/-- The same at any block index y and array index i with i = (5000 tv + y₀, y₁), from the blocks' reads: the two
    moving blocks entry by entry, the five whole ones as equations. -/
theorem pay_at' (x0 : Vec Ideal S5000x128 .f32) (x1 : Vec Ideal S5000x1 .i32) (x2 x3 : Vec Ideal S50x128 .f32)
    (x4 x5 x6 : Vec Ideal S128 .f32) (h : FVec Ideal S50000x128 .f32) (b : IVec S50000x1 32)
    (mean var : FVec Ideal S50x128 .f32) (ms w bias : FVec Ideal S128 .f32)
    (tv : Nat) (y : S5000x128.Idx) (i : S50000x128.Idx)
    (hi0 : (i 0).val = tv * 5000 + (y 0).val) (hi1 : (i 1).val = (y 1).val)
    (e0 : ∀ (x : S5000x128.Idx) (k : S50000x128.Idx), (k 0).val = tv * 5000 + (x 0).val → (k 1).val = (x 1).val → x0 x = h k)
    (e1 : ∀ (x : S5000x1.Idx) (k : S50000x1.Idx), (k 0).val = tv * 5000 + (x 0).val → (k 1).val = (x 1).val → x1 x = b k)
    (e2 : x2 = mean) (e3 : x3 = var) (e4 : x4 = ms) (e5 : x5 = w) (e6 : x6 = bias) :
    k2_pay1 x0 x1 x2 x3 x4 x5 x6 y = Cert.Spec.outArr h b mean var ms w bias i := by
  subst e2 e3 e4 e5 e6
  obtain ⟨r, j, rfl⟩ : ∃ (r : Fin 5000) (j : Fin 128), y = ix2 r j := ⟨y 0, y 1, eq_ix2 y⟩
  obtain ⟨R, j', rfl⟩ : ∃ (R : Fin 50000) (j' : Fin 128), i = ix2 R j' := ⟨i 0, i 1, eq_ix2 i⟩
  have hj : j' = j := Fin.ext hi1
  subst hj
  exact pay_at x0 x1 x2 x3 x4 x5 x6 h b r j' R (e0 (ix2 r j') (ix2 R j') hi0 rfl) (e1 (ix2 r 0) (ix2 R 0) hi0 rfl)

/-! ## What each point writes back, and the tiling -/

/-- What point t writes back is block t of the specification's output array over the arrays as the region finds them. -/
theorem flushed_eq (c : Dev nD) (t : Fin cfg2.N) :
    (dat2 V c).flushed 7 t
      = ((cfg2.win 7).blk t).view.read (Elt Ideal)
          (Cert.Spec.outArr (V c main_v48_0) (V c main_v47) (V c main_v50) (V c main_v53) (V c main_arg6)
            (V c main_arg4) (V c main_arg5)) := by
  show (cfg2.win 7).cut (grid2.coords t) ((dat2 V c).after 7 t) = _
  rw [after2_7]
  unfold out2_7
  rw [View.canon_unit_zero zero2]
  simp only [View.ld_unit_zero (S := S5000x128) zero2, View.ld_unit_zero (S := S5000x1) zero2,
    View.ld_unit_zero (S := S50x128) zero2, View.ld_unit_zero (S := S128) zero1]
  obtain ⟨-, -, -, -, -, -, -, -, -, -, -, f70, f71⟩ := idx_facts t
  funext y
  refine pay_at' (iblk2 V c 0 t) (iblk2 V c 1 t) (iblk2 V c 2 t) (iblk2 V c 3 t) (iblk2 V c 4 t) (iblk2 V c 5 t)
    (iblk2 V c 6 t) (V c main_v48_0) (V c main_v47) (V c main_v50) (V c main_v53) (V c main_arg6) (V c main_arg4)
    (V c main_arg5) t.val ((cfg2.win 7).xinj (grid2.coords t) y) (((cfg2.win 7).blk t).view.emb y) ?_ ?_
    (fun x k h0 h1 => blk0_apply V c t x k h0 h1) (fun x k h0 h1 => blk1_apply V c t x k h0 h1)
    (blk2_eq V c t) (blk3_eq V c t) (blk4_eq V c t) (blk5_eq V c t) (blk6_eq V c t)
  · show win2_7.index t (0 : Fin 2) * 5000 + 1 * (y 0).val = t.val * 5000 + (y 0).val; omega
  · show win2_7.index t (1 : Fin 2) * 128 + 1 * (y 1).val = (y 1).val; omega

/-- An index of the output array is in point t's block iff each coordinate is in the block's range on its axis. -/
theorem mem_blk (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v54).slice (win2_7.rect t)).set ↔ _
  rw [View.set_slice_whole, Rect.mem_set_unit]
  exact Iff.rfl

/-- The ten blocks tile the array: row i₀ is in the block of point i₀ / 5000. -/
theorem cover (i : S50000x128.Idx) :
    ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, -, -, -, -, -, f70, f71⟩ := idx_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-! ## The region's output array -/

theorem r2_out (c : Dev nD) :
    (dat2 (F := Ideal) V c).arrAt 7 cfg2.N
      = Cert.Spec.outArr (V c main_v48_0) (V c main_v47) (V c main_v50) (V c main_v53) (V c main_arg6) (V c main_arg4)
          (V c main_arg5) := by
  exact (dat2 V c).arrAt_eq_of_cover 7
    (Cert.Spec.outArr (V c main_v48_0) (V c main_v47) (V c main_v50) (V c main_v53) (V c main_arg6) (V c main_arg4)
      (V c main_arg5))
    (fun t _ => flushed_eq V c t) cover

end Cert.KernelIdeal.Region2

end
-- ==== Proof.KValue.lean ====
/-
  The kernel program's result array as one function of its arguments: the buffers are followed boundary by boundary
  through @main (host operations, region 1, two host operations, region 2, two host operations, region 3), each
  region read as values, each host stretch as its operations' term, every other buffer carried unchanged.
-/
import proofs.«404709_j72688026518112_2_alg».proof.Proof.Gen.KernelIdeal.Frame
import proofs.«404709_j72688026518112_2_alg».proof.Proof.Spec
import proofs.«404709_j72688026518112_2_alg».proof.Proof.HostTerms
import proofs.«404709_j72688026518112_2_alg».proof.Proof.KHost3
import proofs.«404709_j72688026518112_2_alg».proof.Proof.Region0
import proofs.«404709_j72688026518112_2_alg».proof.Proof.Region1
import proofs.«404709_j72688026518112_2_alg».proof.Proof.Region2
import Idealize.ShloMosaic.Lib.StableHlo.Run
import Idealize.ShloMosaic.Lib.Pipeline.Value
import Idealize.ShloMosaic.Lib.Tactic

noncomputable section
set_option maxRecDepth 16384

namespace Cert.KernelIdeal.KValue

open Cert.KernelIdeal Cert.KernelIdeal.Gen
open Idealize.ShloMosaic Idealize.ShloMosaic.ValueIdx Idealize.ShloMosaic.TcCoe Idealize.SL.Sem

variable (m : (ℓ : Loc nD τ sig) → Buf (Elt Ideal) ℓ) (ρ : Dev nD → PrngReg)

/-! ## A per-graph table divided by the count column

The count column [50, 1] is laid along the 128 features; the quotient at (g, j) is the table's entry over graph g's
count. -/

/-- The count column broadcast along the features reads, at (g, j), the column at g. -/
theorem bcast_col_apply (h : S50x1.BroadcastsInDim S50x128 (![0, 1] : Fin 2 → Fin S50x128.rank))
    (n : FVec Ideal S50x1 .f32) (gj : S50x128.Idx) :
    broadcastInDim S50x128 ![0, 1] h n gj = n (ix2 (gj 0) 0) := by
  refine broadcastInDim_apply _ h n gj (ix2 (gj 0) 0) (fun a => ?_)
  match a with
  | ⟨0, _⟩ => rfl
  | ⟨1, _⟩ => rfl

/-- The host quotient of a per-graph table by the broadcast count column is the specification's table over the count. -/
theorem divf_bcast (h : S50x1.BroadcastsInDim S50x128 (![0, 1] : Fin 2 → Fin S50x128.rank))
    (a : FVec Ideal S50x128 .f32) (n : FVec Ideal S50x1 .f32) :
    Host.divf a (broadcastInDim S50x128 ![0, 1] h n) = Cert.Spec.perCount a n := by
  funext gj
  show Ideal.div (a gj) (broadcastInDim S50x128 ![0, 1] h n gj) = Ideal.div (a gj) (n (ix2 (gj 0) 0))
  rw [bcast_col_apply h n gj]

/-- The two host operations between the first and the second region, from any contents: the mean table is the
    per-graph sum over the count. -/
theorem ops1_v50 (X : Valuation τ sig (Elt Ideal)) :
    StableHlo.after (hostOps1 (F := Ideal)) X (Proc.devRef .tc main_v50)
      = Cert.Spec.perCount (X (Proc.devRef .tc main_v48_1)) (X (Proc.devRef .tc main_v46)) := by
  after_results
  exact divf_bcast _ _ _

/-- The two host operations between the second and the third region, from any contents: the variance table is the
    per-graph sum of squares over the count. -/
theorem ops2_v53 (X : Valuation τ sig (Elt Ideal)) :
    StableHlo.after (hostOps2 (F := Ideal)) X (Proc.devRef .tc main_v53)
      = Cert.Spec.perCount (X (Proc.devRef .tc main_v51)) (X (Proc.devRef .tc main_v46)) := by
  after_results
  exact divf_bcast _ _ _

/-- A buffer that no operation of a host stretch writes holds after the stretch what it held before. -/
local macro "host_carry " ops:ident r:ident : tactic =>
  `(tactic| exact StableHlo.after_of_forall_not_mem (b := Proc.devRef .tc $r) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The quantities of the layer, as functions of the arguments -/

/-- h = node + agg. -/
def hK (c : Dev nD) : FVec Ideal S50000x128 .f32 :=
  Cert.Spec.hArr (m ((c.tc : Thread nD τ).loc main_arg0))
    (HostTerms.agg (m ((c.tc : Thread nD τ).loc main_arg0)) (m ((c.tc : Thread nD τ).loc main_arg1)) (m ((c.tc : Thread nD τ).loc main_arg2)))

/-- The graph-id column. -/
def idsK (c : Dev nD) : IVec S50000x1 32 := HostTerms.ids (m ((c.tc : Thread nD τ).loc main_arg3))

/-- The count column. -/
def cntK (c : Dev nD) : FVec Ideal S50x1 .f32 := HostTerms.cnt (m ((c.tc : Thread nD τ).loc main_arg3))

/-- The per-graph mean of h. -/
def meanK (c : Dev nD) : FVec Ideal S50x128 .f32 :=
  Cert.Spec.perCount (Cert.Spec.segSum (idsK m c) (hK m c)) (cntK m c)

/-- The per-graph variance of the centred h. -/
def varK (c : Dev nD) : FVec Ideal S50x128 .f32 :=
  Cert.Spec.perCount (Cert.Spec.sqArr (hK m c) (idsK m c) (meanK m c) (m ((c.tc : Thread nD τ).loc main_arg6))) (cntK m c)

/-- The layer's function of the arguments is the output array of these quantities. -/
theorem layer_eq (c : Dev nD) :
    Cert.Spec.layer (m ((c.tc : Thread nD τ).loc main_arg0))
        (HostTerms.agg (m ((c.tc : Thread nD τ).loc main_arg0)) (m ((c.tc : Thread nD τ).loc main_arg1)) (m ((c.tc : Thread nD τ).loc main_arg2)))
        (HostTerms.ids (m ((c.tc : Thread nD τ).loc main_arg3))) (HostTerms.cnt (m ((c.tc : Thread nD τ).loc main_arg3)))
        (m ((c.tc : Thread nD τ).loc main_arg6)) (m ((c.tc : Thread nD τ).loc main_arg4)) (m ((c.tc : Thread nD τ).loc main_arg5))
      = Cert.Spec.outArr (hK m c) (idsK m c) (meanK m c) (varK m c)
          (m ((c.tc : Thread nD τ).loc main_arg6)) (m ((c.tc : Thread nD τ).loc main_arg4)) (m ((c.tc : Thread nD τ).loc main_arg5)) := rfl

/-! ## At the first region's exit -/

/-- The first region's row output is h. -/
theorem W4_h (c : Dev nD) : W4 (F := Ideal) m ρ c (Proc.devRef .tc main_v48_0) = hK m c := by
  have e : W4 (F := Ideal) m ρ c (Proc.devRef .tc main_v48_0)
      = Cert.Spec.hArr (W3 (F := Ideal) m ρ c (Proc.devRef .tc main_arg0)) (W3 (F := Ideal) m ρ c (Proc.devRef .tc main_v40)) :=
    (W4_arr m ρ c 3).trans (Region0.r0_h (V3 m ρ) c)
  unfold hK
  rw [e, KHost3.W3_arg0 m ρ c, KHost3.W3_agg m ρ c]

/-- The first region's per-graph output is the per-graph sum of h. -/
theorem W4_sum (c : Dev nD) : W4 (F := Ideal) m ρ c (Proc.devRef .tc main_v48_1) = Cert.Spec.segSum (idsK m c) (hK m c) := by
  have e : W4 (F := Ideal) m ρ c (Proc.devRef .tc main_v48_1)
      = Cert.Spec.segSum (W3 (F := Ideal) m ρ c (Proc.devRef .tc main_v47))
          (Cert.Spec.hArr (W3 (F := Ideal) m ρ c (Proc.devRef .tc main_arg0)) (W3 (F := Ideal) m ρ c (Proc.devRef .tc main_v40))) :=
    (W4_arr m ρ c 4).trans (Region0.r0_sum (V3 m ρ) c)
  unfold idsK hK
  rw [e, KHost3.W3_ids m ρ c, KHost3.W3_arg0 m ρ c, KHost3.W3_agg m ρ c]

theorem W4_ids (c : Dev nD) : W4 (F := Ideal) m ρ c (Proc.devRef .tc main_v47) = idsK m c :=
  ((W4_arr m ρ c 2).trans (((dat0 (V3 m ρ) c).arrAt_in 2 rfl _).trans (A_eq0 (V3 m ρ) c 2))).trans (KHost3.W3_ids m ρ c)

theorem W4_cnt (c : Dev nD) : W4 (F := Ideal) m ρ c (Proc.devRef .tc main_v46) = cntK m c :=
  (W4_of_ne m ρ c main_v46 (by decide)).trans (KHost3.W3_cnt m ρ c)

theorem W4_arg6 (c : Dev nD) : W4 (F := Ideal) m ρ c (Proc.devRef .tc main_arg6) = (m ((c.tc : Thread nD τ).loc main_arg6)) :=
  (W4_of_ne m ρ c main_arg6 (by decide)).trans (KHost3.W3_arg6 m ρ c)

theorem W4_arg4 (c : Dev nD) : W4 (F := Ideal) m ρ c (Proc.devRef .tc main_arg4) = (m ((c.tc : Thread nD τ).loc main_arg4)) :=
  (W4_of_ne m ρ c main_arg4 (by decide)).trans (KHost3.W3_arg4 m ρ c)

theorem W4_arg5 (c : Dev nD) : W4 (F := Ideal) m ρ c (Proc.devRef .tc main_arg5) = (m ((c.tc : Thread nD τ).loc main_arg5)) :=
  (W4_of_ne m ρ c main_arg5 (by decide)).trans (KHost3.W3_arg5 m ρ c)

/-! ## At the second region's entry -/

/-- The mean table. -/
theorem W5_mean (c : Dev nD) : W5 (F := Ideal) m ρ c (Proc.devRef .tc main_v50) = meanK m c :=
  (ops1_v50 (W4 (F := Ideal) m ρ c)).trans (congrArg₂ Cert.Spec.perCount (W4_sum m ρ c) (W4_cnt m ρ c))

theorem W5_h (c : Dev nD) : W5 (F := Ideal) m ρ c (Proc.devRef .tc main_v48_0) = hK m c := by
  have e : W5 (F := Ideal) m ρ c (Proc.devRef .tc main_v48_0) = W4 (F := Ideal) m ρ c (Proc.devRef .tc main_v48_0) := by
    host_carry hostOps1 main_v48_0
  exact e.trans (W4_h m ρ c)

theorem W5_ids (c : Dev nD) : W5 (F := Ideal) m ρ c (Proc.devRef .tc main_v47) = idsK m c := by
  have e : W5 (F := Ideal) m ρ c (Proc.devRef .tc main_v47) = W4 (F := Ideal) m ρ c (Proc.devRef .tc main_v47) := by
    host_carry hostOps1 main_v47
  exact e.trans (W4_ids m ρ c)

theorem W5_cnt (c : Dev nD) : W5 (F := Ideal) m ρ c (Proc.devRef .tc main_v46) = cntK m c := by
  have e : W5 (F := Ideal) m ρ c (Proc.devRef .tc main_v46) = W4 (F := Ideal) m ρ c (Proc.devRef .tc main_v46) := by
    host_carry hostOps1 main_v46
  exact e.trans (W4_cnt m ρ c)

theorem W5_arg6 (c : Dev nD) : W5 (F := Ideal) m ρ c (Proc.devRef .tc main_arg6) = (m ((c.tc : Thread nD τ).loc main_arg6)) := by
  have e : W5 (F := Ideal) m ρ c (Proc.devRef .tc main_arg6) = W4 (F := Ideal) m ρ c (Proc.devRef .tc main_arg6) := by
    host_carry hostOps1 main_arg6
  exact e.trans (W4_arg6 m ρ c)

theorem W5_arg4 (c : Dev nD) : W5 (F := Ideal) m ρ c (Proc.devRef .tc main_arg4) = (m ((c.tc : Thread nD τ).loc main_arg4)) := by
  have e : W5 (F := Ideal) m ρ c (Proc.devRef .tc main_arg4) = W4 (F := Ideal) m ρ c (Proc.devRef .tc main_arg4) := by
    host_carry hostOps1 main_arg4
  exact e.trans (W4_arg4 m ρ c)

theorem W5_arg5 (c : Dev nD) : W5 (F := Ideal) m ρ c (Proc.devRef .tc main_arg5) = (m ((c.tc : Thread nD τ).loc main_arg5)) := by
  have e : W5 (F := Ideal) m ρ c (Proc.devRef .tc main_arg5) = W4 (F := Ideal) m ρ c (Proc.devRef .tc main_arg5) := by
    host_carry hostOps1 main_arg5
  exact e.trans (W4_arg5 m ρ c)

/-! ## At the second region's exit -/

/-- The second region's output is the per-graph sum of the centred squares. -/
theorem W6_sq (c : Dev nD) :
    W6 (F := Ideal) m ρ c (Proc.devRef .tc main_v51) = Cert.Spec.sqArr (hK m c) (idsK m c) (meanK m c) (m ((c.tc : Thread nD τ).loc main_arg6)) := by
  have e : W6 (F := Ideal) m ρ c (Proc.devRef .tc main_v51)
      = Cert.Spec.sqArr (W5 (F := Ideal) m ρ c (Proc.devRef .tc main_v48_0)) (W5 (F := Ideal) m ρ c (Proc.devRef .tc main_v47))
          (W5 (F := Ideal) m ρ c (Proc.devRef .tc main_v50)) (W5 (F := Ideal) m ρ c (Proc.devRef .tc main_arg6)) :=
    (W6_arr m ρ c 4).trans (Region1.r1_sq (V5 m ρ) c)
  rw [e, W5_h m ρ c, W5_ids m ρ c, W5_mean m ρ c, W5_arg6 m ρ c]

theorem W6_h (c : Dev nD) : W6 (F := Ideal) m ρ c (Proc.devRef .tc main_v48_0) = hK m c :=
  ((W6_arr m ρ c 0).trans (((dat1 (V5 m ρ) c).arrAt_in 0 rfl _).trans (A_eq1 (V5 m ρ) c 0))).trans (W5_h m ρ c)

theorem W6_ids (c : Dev nD) : W6 (F := Ideal) m ρ c (Proc.devRef .tc main_v47) = idsK m c :=
  ((W6_arr m ρ c 1).trans (((dat1 (V5 m ρ) c).arrAt_in 1 rfl _).trans (A_eq1 (V5 m ρ) c 1))).trans (W5_ids m ρ c)

theorem W6_mean (c : Dev nD) : W6 (F := Ideal) m ρ c (Proc.devRef .tc main_v50) = meanK m c :=
  ((W6_arr m ρ c 2).trans (((dat1 (V5 m ρ) c).arrAt_in 2 rfl _).trans (A_eq1 (V5 m ρ) c 2))).trans (W5_mean m ρ c)

theorem W6_arg6 (c : Dev nD) : W6 (F := Ideal) m ρ c (Proc.devRef .tc main_arg6) = (m ((c.tc : Thread nD τ).loc main_arg6)) :=
  ((W6_arr m ρ c 3).trans (((dat1 (V5 m ρ) c).arrAt_in 3 rfl _).trans (A_eq1 (V5 m ρ) c 3))).trans (W5_arg6 m ρ c)

theorem W6_cnt (c : Dev nD) : W6 (F := Ideal) m ρ c (Proc.devRef .tc main_v46) = cntK m c :=
  (W6_of_ne m ρ c main_v46 (by decide)).trans (W5_cnt m ρ c)

theorem W6_arg4 (c : Dev nD) : W6 (F := Ideal) m ρ c (Proc.devRef .tc main_arg4) = (m ((c.tc : Thread nD τ).loc main_arg4)) :=
  (W6_of_ne m ρ c main_arg4 (by decide)).trans (W5_arg4 m ρ c)

theorem W6_arg5 (c : Dev nD) : W6 (F := Ideal) m ρ c (Proc.devRef .tc main_arg5) = (m ((c.tc : Thread nD τ).loc main_arg5)) :=
  (W6_of_ne m ρ c main_arg5 (by decide)).trans (W5_arg5 m ρ c)

/-! ## At the third region's entry -/

/-- The variance table. -/
theorem W7_var (c : Dev nD) : W7 (F := Ideal) m ρ c (Proc.devRef .tc main_v53) = varK m c :=
  (ops2_v53 (W6 (F := Ideal) m ρ c)).trans (congrArg₂ Cert.Spec.perCount (W6_sq m ρ c) (W6_cnt m ρ c))

theorem W7_h (c : Dev nD) : W7 (F := Ideal) m ρ c (Proc.devRef .tc main_v48_0) = hK m c := by
  have e : W7 (F := Ideal) m ρ c (Proc.devRef .tc main_v48_0) = W6 (F := Ideal) m ρ c (Proc.devRef .tc main_v48_0) := by
    host_carry hostOps2 main_v48_0
  exact e.trans (W6_h m ρ c)

theorem W7_ids (c : Dev nD) : W7 (F := Ideal) m ρ c (Proc.devRef .tc main_v47) = idsK m c := by
  have e : W7 (F := Ideal) m ρ c (Proc.devRef .tc main_v47) = W6 (F := Ideal) m ρ c (Proc.devRef .tc main_v47) := by
    host_carry hostOps2 main_v47
  exact e.trans (W6_ids m ρ c)

theorem W7_mean (c : Dev nD) : W7 (F := Ideal) m ρ c (Proc.devRef .tc main_v50) = meanK m c := by
  have e : W7 (F := Ideal) m ρ c (Proc.devRef .tc main_v50) = W6 (F := Ideal) m ρ c (Proc.devRef .tc main_v50) := by
    host_carry hostOps2 main_v50
  exact e.trans (W6_mean m ρ c)

theorem W7_arg6 (c : Dev nD) : W7 (F := Ideal) m ρ c (Proc.devRef .tc main_arg6) = (m ((c.tc : Thread nD τ).loc main_arg6)) := by
  have e : W7 (F := Ideal) m ρ c (Proc.devRef .tc main_arg6) = W6 (F := Ideal) m ρ c (Proc.devRef .tc main_arg6) := by
    host_carry hostOps2 main_arg6
  exact e.trans (W6_arg6 m ρ c)

theorem W7_arg4 (c : Dev nD) : W7 (F := Ideal) m ρ c (Proc.devRef .tc main_arg4) = (m ((c.tc : Thread nD τ).loc main_arg4)) := by
  have e : W7 (F := Ideal) m ρ c (Proc.devRef .tc main_arg4) = W6 (F := Ideal) m ρ c (Proc.devRef .tc main_arg4) := by
    host_carry hostOps2 main_arg4
  exact e.trans (W6_arg4 m ρ c)

theorem W7_arg5 (c : Dev nD) : W7 (F := Ideal) m ρ c (Proc.devRef .tc main_arg5) = (m ((c.tc : Thread nD τ).loc main_arg5)) := by
  have e : W7 (F := Ideal) m ρ c (Proc.devRef .tc main_arg5) = W6 (F := Ideal) m ρ c (Proc.devRef .tc main_arg5) := by
    host_carry hostOps2 main_arg5
  exact e.trans (W6_arg5 m ρ c)

/-! ## The result -/

/-- The result array at the last boundary is the layer's function of the arguments. -/
theorem value (c : Dev nD) :
    W8 (F := Ideal) m ρ c (Proc.devRef .tc main_v54)
      = Cert.Spec.layer (m ((c.tc : Thread nD τ).loc main_arg0))
          (HostTerms.agg (m ((c.tc : Thread nD τ).loc main_arg0)) (m ((c.tc : Thread nD τ).loc main_arg1)) (m ((c.tc : Thread nD τ).loc main_arg2)))
          (HostTerms.ids (m ((c.tc : Thread nD τ).loc main_arg3))) (HostTerms.cnt (m ((c.tc : Thread nD τ).loc main_arg3)))
          (m ((c.tc : Thread nD τ).loc main_arg6)) (m ((c.tc : Thread nD τ).loc main_arg4)) (m ((c.tc : Thread nD τ).loc main_arg5)) := by
  have e : W8 (F := Ideal) m ρ c (Proc.devRef .tc main_v54)
      = Cert.Spec.outArr (W7 (F := Ideal) m ρ c (Proc.devRef .tc main_v48_0)) (W7 (F := Ideal) m ρ c (Proc.devRef .tc main_v47))
          (W7 (F := Ideal) m ρ c (Proc.devRef .tc main_v50)) (W7 (F := Ideal) m ρ c (Proc.devRef .tc main_v53))
          (W7 (F := Ideal) m ρ c (Proc.devRef .tc main_arg6)) (W7 (F := Ideal) m ρ c (Proc.devRef .tc main_arg4))
          (W7 (F := Ideal) m ρ c (Proc.devRef .tc main_arg5)) :=
    (W8_arr m ρ c 7).trans (Region2.r2_out (V7 m ρ) c)
  rw [e, W7_h m ρ c, W7_ids m ρ c, W7_mean m ρ c, W7_var m ρ c, W7_arg6 m ρ c, W7_arg4 m ρ c, W7_arg5 m ρ c]
  exact (layer_eq m c).symm

end Cert.KernelIdeal.KValue

end
-- ==== Proof.HostIdx.lean ====
/-
  The reference's host operations that index by values, read at an index on the extended reals.
  A segment sum (a scatter-add of rows into a zero [50, 128] table by graph id) is, at (g, j), the sum over all rows
  of weight(row, g) · entry(row, j): an id that is not one of the 50 graphs lands nowhere and has weight zero.
  A table look-up by graph id (the gather of the id counted from the end when negative) is, for an id in range, the
  weighted sum over the 50 graphs: exactly one weight is one.
  The count column is a positive real: a finite sum of ones, or one if that is zero.
-/
import proofs.«404709_j72688026518112_2_alg».proof.Proof.Gen.ReferenceIdeal
import proofs.«404709_j72688026518112_2_alg».proof.Proof.Spec
import proofs.«404709_j72688026518112_2_alg».proof.Proof.HostTerms
import Idealize.ShloMosaic.Lib.ValueIdx
import Idealize.ShloMosaic.Lib.ValueIdxRank1
import Idealize.ShloMosaic.Lib.StableHlo.Predicate
import Idealize.ShloMosaic.PureOps.Ideal.Laws
import Idealize.ShloMosaic.Lib.IdealHost

noncomputable section

namespace Cert.ReferenceIdeal.HostIdx

open Idealize.ShloMosaic Idealize.ShloMosaic.ValueIdx Cert.ReferenceIdeal Cert.ReferenceIdeal.Gen

/-- Where a row update lands. For a scatter of the rows of an [N, C] array into a [G, C] table by an [N, 1] column
    of row ids (the row axis inserted and scattered, the feature axis the window), the update at (row, feature)
    lands at (g, j) exactly when the row's id, read signed, is g and the feature is j. -/
theorem resultIdx?_rows {G C N w : Nat} (d : ScatterDims ⟨2, ![G, C]⟩ ⟨2, ![N, 1]⟩ ⟨2, ![N, C]⟩)
    (huw : d.updateWindowDims = [1]) (hiw : d.insertedWindowDims = [0])
    (hsd : d.scatterDimsToOperandDims = [0]) (hiv : d.indexVectorDim = 1)
    (idx : IVec ⟨2, ![N, 1]⟩ w) (u : (⟨2, ![N, C]⟩ : Shape).Idx) (g : Fin G) (j : Fin C) :
    d.resultIdx? u idx = some (ix2 g j) ↔ (idx (ix2 (u 0) 0)).toInt = (g.val : Int) ∧ u 1 = j := by
  -- the start is the row's id on the table's row axis and nothing on its feature axis
  have hs0 : d.start u idx 0 = (idx (ix2 (u 0) 0)).toInt := by
    obtain ⟨uw, iw, sd, iv, wf⟩ := d
    simp only at huw hiw hsd hiv
    subst huw hiw hsd hiv
    unfold ScatterDims.start
    rw [dif_pos (List.mem_singleton.mpr rfl)]
    congr 2
    funext b
    match b with
    | ⟨0, _⟩ => rfl
    | ⟨1, _⟩ => rfl
  have hs1 : d.start u idx 1 = 0 := by
    unfold ScatterDims.start
    rw [dif_neg (by rw [hsd]; exact (show (1 : Fin 2) ∉ [(0 : Fin 2)] from by decide))]
  -- the window coordinate is nothing on the row axis and the feature on the feature axis
  have hw0 : d.window u 0 = 0 := by
    unfold ScatterDims.window
    rw [dif_neg (by
      rw [ScatterDims.sKept, hiw]
      exact (show (0 : Fin 2) ∉ (List.finRange 2).filter (· ∉ [(0 : Fin 2)]) from by decide))]
  have hw1 : d.window u 1 = (u 1).val := by
    obtain ⟨uw, iw, sd, iv, wf⟩ := d
    simp only at huw hiw hsd hiv
    subst huw hiw hsd hiv
    unfold ScatterDims.window
    have hk : (1 : Fin 2) ∈ ScatterDims.sKept (⟨[1], [0], [0], 1, wf⟩ :
        ScatterDims ⟨2, ![G, C]⟩ ⟨2, ![N, 1]⟩ ⟨2, ![N, C]⟩) :=
      show (1 : Fin 2) ∈ (List.finRange 2).filter (· ∉ [(0 : Fin 2)]) from by decide
    rw [dif_pos hk]
    rfl
  unfold ScatterDims.resultIdx?
  constructor
  · intro h
    split at h
    · next hb =>
      have h' := Option.some.inj h
      have e0 := congrArg (fun f => (f 0).val) h'
      have e1 := congrArg (fun f => (f 1).val) h'
      have b0 := (hb 0).1
      simp only [hs0, hs1, hw0, hw1] at e0 e1 b0
      change _ = g.val at e0
      change _ = j.val at e1
      exact ⟨by omega, Fin.ext (by omega)⟩
    · exact absurd h (by simp)
  · rintro ⟨h0, h1⟩
    have hg := g.isLt
    have hj := (u 1).isLt
    have hb : ∀ a, 0 ≤ d.start u idx a + d.window u a ∧
        d.start u idx a + d.window u a < (⟨2, ![G, C]⟩ : Shape).size a := by
      intro a
      match a with
      | ⟨0, _⟩ =>
        change 0 ≤ d.start u idx 0 + d.window u 0 ∧ d.start u idx 0 + d.window u 0 < (G : Int)
        rw [hs0, hw0, h0]; omega
      | ⟨1, _⟩ =>
        change 0 ≤ d.start u idx 1 + d.window u 1 ∧ d.start u idx 1 + d.window u 1 < (C : Int)
        rw [hs1, hw1]
        change (u 1).val < C at hj
        omega
    rw [dif_pos hb]
    congr 1
    funext a
    apply Fin.ext
    match a with
    | ⟨0, _⟩ =>
      change (d.start u idx 0 + d.window u 0).toNat = g.val
      rw [hs0, hw0, h0]; omega
    | ⟨1, _⟩ =>
      change (d.start u idx 1 + d.window u 1).toNat = j.val
      rw [hs1, hw1, h1]; omega

/-- Which table entry a row look-up reads. For a gather of rows of a [G, C] table by an [N, 1] column of row ids
    (the row axis collapsed and start-indexed, the feature axis the offset), the result at (i, j) reads the table at
    the row's id, read signed and clamped into the table, and feature j. -/
theorem operandIdx_rows {G C N w : Nat} (d : GatherDims ⟨2, ![G, C]⟩ ⟨2, ![N, 1]⟩ ⟨2, ![N, C]⟩)
    (hoff : d.offsetDims = [1]) (hcoll : d.collapsedSliceDims = [0]) (hob : d.operandBatchingDims = [])
    (hsim : d.startIndexMap = [0]) (hivd : d.indexVectorDim = 1)
    (idx : IVec ⟨2, ![N, 1]⟩ w) (i : Fin N) (j : Fin C) :
    (d.operandIdx (ix2 i j) idx 0).val = min (idx (ix2 i 0)).toInt.toNat (G - 1) ∧
      (d.operandIdx (ix2 i j) idx 1).val = j.val := by
  have hb : ∀ a : Fin 2, a ∉ d.operandBatchingDims := fun a => by rw [hob]; exact List.not_mem_nil
  have hsl : d.sliceSizes 0 = 1 := d.slice_collapsed 0 (by rw [hcoll]; exact List.mem_singleton.mpr rfl)
  constructor
  · show d.start (ix2 i j) idx 0 + d.batchCoord (ix2 i j) 0 + d.offCoord (ix2 i j) 0 = _
    rw [GatherDims.batchCoord_eq_zero _ _ _ (hb 0), GatherDims.offCoord_eq_zero _ _ _ (fun h =>
      ((GatherDims.mem_sKept _ _).mp h).1 (by rw [hcoll]; exact List.mem_singleton.mpr rfl))]
    simp only [Nat.add_zero]
    suffices hst : d.start (ix2 i j) idx 0 = min (idx (ix2 i 0)).toInt.toNat (G - d.sliceSizes 0) by
      rw [hst, hsl]
    clear hsl
    obtain ⟨od, cd, ob, sb, sm, iv, ss, wf⟩ := d
    simp only at hoff hcoll hob hsim hivd
    subst hoff hcoll hob hsim hivd
    unfold GatherDims.start
    rw [dif_pos (List.mem_singleton.mpr rfl)]
    congr 4
    funext b
    match b with
    | ⟨0, _⟩ => rfl
    | ⟨1, _⟩ => rfl
  · show d.start (ix2 i j) idx 1 + d.batchCoord (ix2 i j) 1 + d.offCoord (ix2 i j) 1 = _
    rw [GatherDims.batchCoord_eq_zero _ _ _ (hb 1)]
    have hst : d.start (ix2 i j) idx 1 = 0 := by
      unfold GatherDims.start
      rw [dif_neg (by rw [hsim]; exact (show (1 : Fin 2) ∉ [(0 : Fin 2)] from by decide))]
    rw [hst]
    simp only [Nat.add_zero, Nat.zero_add]
    obtain ⟨od, cd, ob, sb, sm, iv, ss, wf⟩ := d
    simp only at hoff hcoll hob hsim hivd
    subst hoff hcoll hob hsim hivd
    unfold GatherDims.offCoord
    have hk : (1 : Fin 2) ∈ GatherDims.sKept (⟨[1], [0], [], sb, [0], 1, ss, wf⟩ :
        GatherDims ⟨2, ![G, C]⟩ ⟨2, ![N, 1]⟩ ⟨2, ![N, C]⟩) :=
      show (1 : Fin 2) ∈ (List.finRange 2).filter (· ∉ [(0 : Fin 2)] ++ []) from by decide
    rw [dif_pos hk]
    rfl

/-- A word is the graph g exactly when its signed value is g. -/
theorem toInt_eq_iff (x : BitVec 32) (g : Fin 50) : x.toInt = (g.val : Int) ↔ x = BitVec.ofNat 32 g.val := by
  have hg := g.isLt
  constructor
  · intro h
    exact BitVec.eq_of_toInt_eq (h.trans (StableHlo.Predicate.toInt_ofNat_small g.val (by omega)).symm)
  · intro h
    rw [h]; exact StableHlo.Predicate.toInt_ofNat_small g.val (by omega)

/-- A vector kept as an [n, 1] column reads, at row i, the vector at i. -/
theorem col_apply {α : Type} {n : Nat} (h : (⟨1, ![n]⟩ : Shape).BroadcastsInDim ⟨2, ![n, 1]⟩ ![0])
    (v : (⟨1, ![n]⟩ : Shape).Idx → α) (i : Fin n) :
    broadcastInDim ⟨2, ![n, 1]⟩ ![0] h v (ix2 i 0) = v (ix1 i) := by
  simp only [broadcastInDim]
  congr 1
  funext a
  match a with
  | ⟨0, _⟩ =>
    apply Fin.ext
    have hp := i.isLt
    split
    · next h1 => change n = 1 at h1; show (0 : Nat) = i.val; omega
    · rfl

/-- An id that is not negative is its own wrapped id: the column of wrapped ids reads, at row i, the id of row i. -/
theorem wrap_apply (b : IVec S50000 32) (i : Fin 50000) (h0 : 0 ≤ (b (ix1 i)).toInt) :
    (broadcastInDim S50000x1 ![0] bcast_S50000_S50000x1_0
        (select (cmpi .slt b (broadcastInDim S50000 ![] bcast_S_S50000 (constantI S_ 32 0#32)))
          (addi b (broadcastInDim S50000 ![] bcast_S_S50000 (constantI S_ 32 50#32))) b)) (ix2 i 0) = b (ix1 i) := by
  rw [col_apply]
  show Scalar.select (BitVec.ofBool ((b (ix1 i)).slt 0#32)) _ (b (ix1 i)) = b (ix1 i)
  have hlt : (b (ix1 i)).slt 0#32 = false := by
    simp only [BitVec.slt, BitVec.toInt_zero, decide_eq_false_iff_not, not_lt]; exact h0
  rw [hlt]
  exact select_zero _ _

/-- The look-up through any id column whose entry at row i is a word x with 0 ≤ x < 50, read signed: the clamp is
    the identity, and of the 50 weights exactly the one of graph x is one. -/
theorem gather_rowOf (tbl : FVec Ideal S50x128 .f32) (idx : IVec S50000x1 32) (i : Fin 50000) (j : Fin 128)
    (x : BitVec 32) (hx : idx (ix2 i 0) = x) (h0 : 0 ≤ x.toInt) (h1 : x.toInt < 50) :
    Host.gather gather_S50x128_S50000x1_S50000x128_1_0_n_n_0_1_1128 tbl idx (ix2 i j) = Cert.Spec.rowOf x tbl j := by
  unfold Host.gather
  obtain ⟨e0, e1⟩ := operandIdx_rows gather_S50x128_S50000x1_S50000x128_1_0_n_n_0_1_1128 rfl rfl rfl rfl rfl idx i j
  rw [hx] at e0
  -- the graph of row i
  have hlt : x.toInt.toNat < 50 := by omega
  have hop : gather_S50x128_S50000x1_S50000x128_1_0_n_n_0_1_1128.operandIdx (ix2 i j) idx
      = ix2 (⟨x.toInt.toNat, hlt⟩ : Fin 50) j := by
    funext a
    match a with
    | ⟨0, _⟩ =>
      exact Fin.ext (show (gather_S50x128_S50000x1_S50000x128_1_0_n_n_0_1_1128.operandIdx (ix2 i j) idx 0).val
        = x.toInt.toNat by rw [e0]; omega)
    | ⟨1, _⟩ => exact Fin.ext e1
  rw [hop]
  have hbg : x = BitVec.ofNat 32 x.toInt.toNat :=
    (toInt_eq_iff x ⟨x.toInt.toNat, hlt⟩).mp (by show x.toInt = ((x.toInt.toNat : Nat) : Int); omega)
  unfold Cert.Spec.rowOf
  rw [Finset.sum_eq_single (⟨x.toInt.toNat, hlt⟩ : Fin 50)]
  · unfold Cert.Spec.oh; rw [if_pos hbg, one_mul]
  · intro g' _ hne
    unfold Cert.Spec.oh
    rw [if_neg, zero_mul]
    intro h
    apply hne
    have := (toInt_eq_iff x g').mpr h
    exact Fin.ext (by show g'.val = x.toInt.toNat; omega)
  · intro h; exact absurd (Finset.mem_univ _) h

/-- The larger of a natural number and one is a positive real. -/
theorem max_natCast_one (n : ℕ) : ∃ r : ℝ, 0 < r ∧ max ((n : ℕ) : EReal) 1 = (r : EReal) :=
  ⟨max (n : ℝ) 1, lt_max_of_lt_right one_pos, by rw [EReal.coe_strictMono.monotone.map_max]; rfl⟩

/-- The segment sum at (graph g, feature j). -/
theorem scatterAdd_seg (b : IVec S50000 32) (x : FVec Ideal S50000x128 .f32) (g : Fin 50) (j : Fin 128) :
    Host.scatterAdd scatter_S50x128_S50000x1_S50000x128_1_0_0_1
        (broadcastInDim S50x128 ![] bcast_S_S50x128 (constant S_ .f32 0x00000000#32))
        (broadcastInDim S50000x1 ![0] bcast_S50000_S50000x1_0 b) x (ix2 g j)
      = ∑ i : Fin 50000, Cert.Spec.oh (b (ix1 i)) g * x (ix2 i j) := by
  show Ideal.hostScatterAdd _ _ _ _ _ = _
  unfold Ideal.hostScatterAdd
  have hz : (broadcastInDim S50x128 ![] bcast_S_S50x128 (constant (F := Ideal) S_ .f32 0x00000000#32)) (ix2 g j) = 0 :=
    Ideal.ofBits_zero_f32
  rw [hz, zero_add, Finset.sum_filter, sum_idx2]
  refine Finset.sum_congr rfl fun i _ => ?_
  -- the update at (i, c) lands at (g, j) exactly when row i's graph is g and c is j
  have hc : ∀ c : Fin 128,
      scatter_S50x128_S50000x1_S50000x128_1_0_0_1.resultIdx? (ix2 i c)
          (broadcastInDim S50000x1 ![0] bcast_S50000_S50000x1_0 b) = some (ix2 g j)
        ↔ b (ix1 i) = BitVec.ofNat 32 g.val ∧ c = j := fun c => by
    rw [resultIdx?_rows _ rfl rfl rfl rfl, toInt_eq_iff]
    show broadcastInDim S50000x1 ![0] bcast_S50000_S50000x1_0 b (ix2 i 0) = _ ∧ c = j ↔ _
    rw [col_apply]
  rw [Finset.sum_congr rfl fun c _ => if_congr (hc c) rfl rfl]
  unfold Cert.Spec.oh
  by_cases hbg : b (ix1 i) = BitVec.ofNat 32 g.val
  · simp only [hbg, true_and, if_true, one_mul]
    rw [Finset.sum_ite_eq']
    simp only [Finset.mem_univ, if_true]
  · simp only [hbg, false_and, if_false, Finset.sum_const_zero, zero_mul]

/-- The table look-up at (row i, feature j), for graph ids in range. -/
theorem gather_row (tbl : FVec Ideal S50x128 .f32) (b : IVec S50000 32)
    (hb : ∀ i : S50000.Idx, 0 ≤ (b i).toInt ∧ (b i).toInt < 50) (i : Fin 50000) (j : Fin 128) :
    Host.gather gather_S50x128_S50000x1_S50000x128_1_0_n_n_0_1_1128 tbl
        (broadcastInDim S50000x1 ![0] bcast_S50000_S50000x1_0
          (select (cmpi .slt b (broadcastInDim S50000 ![] bcast_S_S50000 (constantI S_ 32 0#32)))
            (addi b (broadcastInDim S50000 ![] bcast_S_S50000 (constantI S_ 32 50#32))) b)) (ix2 i j)
      = Cert.Spec.rowOf (b (ix1 i)) tbl j :=
  gather_rowOf tbl _ i j (b (ix1 i)) (wrap_apply b i (hb (ix1 i)).1) (hb (ix1 i)).1 (hb (ix1 i)).2

/-- The count of a graph is a positive real. -/
theorem cnt_pos (b : IVec Cert.KernelIdeal.S50000 32) (g : Fin 50) :
    ∃ r : ℝ, 0 < r ∧ Cert.KernelIdeal.HostTerms.cnt (F := Ideal) b (ix2 g 0) = (r : EReal) := by
  unfold Cert.KernelIdeal.HostTerms.cnt
  rw [maximumf_apply]
  show ∃ r : ℝ, 0 < r ∧ max (Ideal.hostScatterAdd _ _ _ _ (ix2 g 0)) _ = (r : EReal)
  unfold Ideal.hostScatterAdd
  -- the table starts at zero, every update is one, and the floor is one
  have hz : ∀ j, (broadcastInDim Cert.KernelIdeal.S50x1 ![] Cert.KernelIdeal.Gen.bcast_S_S50x1
      (constant (F := Ideal) Cert.KernelIdeal.S_ .f32 0x00000000#32)) j = 0 := fun _ => Ideal.ofBits_zero_f32
  have ho : ∀ j, (broadcastInDim Cert.KernelIdeal.S50x1 ![] Cert.KernelIdeal.Gen.bcast_S_S50x1
      (constant (F := Ideal) Cert.KernelIdeal.S_ .f32 0x3F800000#32)) j = 1 := fun _ => Ideal.ofBits_one_f32
  have hu : ∀ j, (broadcastInDim Cert.KernelIdeal.S50000x1 ![] Cert.KernelIdeal.Gen.bcast_S_S50000x1
      (constant (F := Ideal) Cert.KernelIdeal.S_ .f32 0x3F800000#32)) j = 1 := fun _ => Ideal.ofBits_one_f32
  -- a sum of ones over the updates that land at (g, 0): their number
  simp only [hz, ho, hu, zero_add, Finset.sum_const, nsmul_one]
  exact max_natCast_one _

end Cert.ReferenceIdeal.HostIdx

end
-- ==== Proof.RefStages.lean ====
/-
  The reference's intermediate arrays are the specification's, wherever no target id is negative and every graph id is
  one of the 50 graphs: its neighbour sum (the id counted from the end when negative is the id itself when it is not
  negative) is the kernel program's; its counts are the kernel program's, operation for operation; its segment sums
  are the weighted sums over all rows and its table look-ups the weighted sums over the graphs.
-/
import proofs.«404709_j72688026518112_2_alg».proof.Proof.Gen.ReferenceIdeal.Read
import proofs.«404709_j72688026518112_2_alg».proof.Proof.Spec
import proofs.«404709_j72688026518112_2_alg».proof.Proof.HostTerms
import proofs.«404709_j72688026518112_2_alg».proof.Proof.HostIdx
import Idealize.ShloMosaic.Lib.ValueIdx
import Idealize.ShloMosaic.Lib.Pipeline.Value
import Idealize.ShloMosaic.Lib.ValueLayout

noncomputable section
set_option maxRecDepth 16384

namespace Cert.ReferenceIdeal.RefStages

open Idealize.ShloMosaic Idealize.ShloMosaic.ValueIdx Cert.ReferenceIdeal Cert.ReferenceIdeal.Gen Cert.ReferenceIdeal.Read

variable (x0 : FVec Ideal S50000x128 .f32) (x1 : IVec S2x640000 32) (x2 : FVec Ideal S640000 .f32)
  (x3 : IVec S50000 32) (x6 : FVec Ideal S128 .f32)

/-- h of the arguments. -/
def hOf : FVec Ideal Cert.KernelIdeal.S50000x128 .f32 := Cert.Spec.hArr x0 (Cert.KernelIdeal.HostTerms.agg x0 x1 x2)
/-- The per-graph mean of the arguments. -/
def meanOf : FVec Ideal Cert.KernelIdeal.S50x128 .f32 :=
  Cert.Spec.perCount (Cert.Spec.segSum (Cert.KernelIdeal.HostTerms.ids x3) (hOf x0 x1 x2)) (Cert.KernelIdeal.HostTerms.cnt x3)
/-- The per-graph variance of the arguments. -/
def varOf : FVec Ideal Cert.KernelIdeal.S50x128 .f32 :=
  Cert.Spec.perCount (Cert.Spec.sqArr (hOf x0 x1 x2) (Cert.KernelIdeal.HostTerms.ids x3) (meanOf x0 x1 x2 x3) x6)
    (Cert.KernelIdeal.HostTerms.cnt x3)

variable (hcol : ∀ e : Cert.KernelIdeal.S640000.Idx, 0 ≤ (Cert.KernelIdeal.HostTerms.colIdx x1 e).toInt)
  (hb : ∀ i : Cert.KernelIdeal.S50000.Idx, 0 ≤ (x3 i).toInt ∧ (x3 i).toInt < 50)

/-! ## Words and indices -/

/-- A select on "the word is negative" takes its second branch at a word that is not negative. -/
theorem select_slt_zero {α : Type} (v : BitVec 32) (a b : α) (h : 0 ≤ v.toInt) :
    Scalar.select (IntOp.cmpi .slt v 0#32) a b = b := by
  unfold Scalar.select
  refine if_neg (fun hc => ?_)
  have h1 := IntOp.cmpi_slt.mp hc
  have h0 : (0#32 : BitVec 32).toInt = 0 := by decide
  omega

/-- The graph-id column at row i is the graph-id vector at i: a reshape keeps the row-major position. -/
theorem ids_at (i : Fin 50000) : Cert.KernelIdeal.HostTerms.ids x3 (ix2 i 0) = x3 (ix1 i) := by
  unfold Cert.KernelIdeal.HostTerms.ids
  exact shapeCast_apply x3 _ (ix2 i 0) (ix1 i)
    (by rewrite [Shape.rowMajor_val_two, Shape.rowMajor_val_one]; show i.val = i.val * 1 + 0; omega)

/-- The count column broadcast along the features reads the column at the graph (the mean's quotient). -/
theorem idx56 (g : Fin 50) (j : Fin 128) : idx_main_v56 (ix2 g j) = ix2 g (0 : Fin 1) := by
  funext a; match a with | ⟨0, _⟩ => rfl | ⟨1, _⟩ => rfl

/-- The count column broadcast along the features reads the column at the graph (the variance's quotient). -/
theorem idx79 (g : Fin 50) (j : Fin 128) : idx_main_v79 (ix2 g j) = ix2 g (0 : Fin 1) := by
  funext a; match a with | ⟨0, _⟩ => rfl | ⟨1, _⟩ => rfl

/-- A per-feature vector broadcast over the rows reads the vector at the feature. -/
theorem idx6566 (r : Fin 50000) (j : Fin 128) : idx_main_v65 (idx_main_v66 (ix2 r j)) = ix1 j := by
  funext a; match a with | ⟨0, _⟩ => rfl

/-! ## The neighbour sum -/

include hcol in
/-- A target id counted from the end when negative is the id itself: none is negative (the target ids are the kernel
    program's, the same slice and reshape of the edge array). -/
theorem v43_eq : val_main_v43 (F := Ideal) x1 = val_main_v3 (F := Ideal) x1 := by
  funext e
  rw [val_main_v43_apply, val_main_v40_apply, val_main_v39_apply, val_main_c_9_apply]
  exact select_slt_zero _ _ _ (hcol e)

include hcol in
/-- The reference's neighbour sum is the kernel program's: the same host operations on the same values. -/
theorem v45_eq : val_main_v45 (F := Ideal) x0 x1 x2 = Cert.KernelIdeal.HostTerms.agg x0 x1 x2 := by
  unfold val_main_v45 val_main_v44
  rw [v43_eq x1 hcol]
  rfl

/-- The reference's segment sum of an array, read at (g, j), is the specification's: the weighted sum over all rows,
    the graph-id column read as the graph-id vector. -/
theorem seg_at (x : FVec Ideal S50000x128 .f32) (g : Fin 50) (j : Fin 128) :
    Host.scatterAdd scatter_S50x128_S50000x1_S50000x128_1_0_0_1
        (broadcastInDim S50x128 ![] bcast_S_S50x128 (constant S_ .f32 0x00000000#32))
        (broadcastInDim S50000x1 ![0] bcast_S50000_S50000x1_0 x3) x (ix2 g j)
      = Cert.Spec.segSum (Cert.KernelIdeal.HostTerms.ids x3) x (ix2 g j) := by
  rw [HostIdx.scatterAdd_seg x3 x g j]
  show (∑ i : Fin 50000, Cert.Spec.oh (x3 (ix1 i)) g * x (ix2 i j))
    = ∑ i : Fin 50000, Cert.Spec.oh (Cert.KernelIdeal.HostTerms.ids x3 (ix2 i 0)) g * x (ix2 i j)
  refine Finset.sum_congr rfl (fun i _ => ?_)
  rw [ids_at]

/-! ## The stages -/

include hcol in
theorem h_eq : val_main_v46 (F := Ideal) x0 x1 x2 = hOf x0 x1 x2 := by
  funext i
  rw [val_main_v46_apply, v45_eq x0 x1 x2 hcol]
  rfl

theorem cnt_eq : val_main_v55 (F := Ideal) x3 = Cert.KernelIdeal.HostTerms.cnt (F := Ideal) x3 := by
  rfl

theorem cnt_eq' : val_main_v78 (F := Ideal) x3 = Cert.KernelIdeal.HostTerms.cnt (F := Ideal) x3 := by
  rfl

include hcol in
theorem mean_eq : val_main_v57 (F := Ideal) x0 x1 x2 x3 = meanOf x0 x1 x2 x3 := by
  funext gj
  obtain ⟨g, j, rfl⟩ : ∃ (g : Fin 50) (j : Fin 128), gj = ix2 g j := ⟨gj 0, gj 1, eq_ix2 gj⟩
  have h49 : val_main_v49 (F := Ideal) x0 x1 x2 x3 (ix2 g j)
      = Cert.Spec.segSum (Cert.KernelIdeal.HostTerms.ids x3) (hOf x0 x1 x2) (ix2 g j) := by
    unfold val_main_v49 val_main_v47 val_main_cst_11 val_main_v48
    rw [h_eq x0 x1 x2 hcol]
    exact seg_at x3 _ g j
  rw [val_main_v57_apply, val_main_v56_apply, idx56 g j, cnt_eq, h49]
  rfl

include hcol hb in
theorem cen_eq : val_main_v68 (F := Ideal) x0 x1 x2 x3 x6
    = Cert.Spec.cenArr (hOf x0 x1 x2) (Cert.KernelIdeal.HostTerms.ids x3) (meanOf x0 x1 x2 x3) x6 := by
  funext i
  obtain ⟨r, j, rfl⟩ : ∃ (r : Fin 50000) (j : Fin 128), i = ix2 r j := ⟨i 0, i 1, eq_ix2 i⟩
  have h64 : val_main_v64 (F := Ideal) x0 x1 x2 x3 (ix2 r j)
      = Cert.Spec.rowOf (x3 (ix1 r)) (meanOf x0 x1 x2 x3) j := by
    unfold val_main_v64 val_main_v63 val_main_v62 val_main_v59 val_main_v61 val_main_v58 val_main_v60
      val_main_c_15 val_main_c_16
    rw [mean_eq x0 x1 x2 x3 hcol]
    exact HostIdx.gather_row _ x3 hb r j
  rw [val_main_v68_apply, val_main_v67_apply, val_main_v66_apply, val_main_v65_apply, idx6566 r j, h64,
    h_eq x0 x1 x2 hcol]
  show _ = hOf x0 x1 x2 (ix2 r j)
    - Cert.Spec.rowOf (Cert.KernelIdeal.HostTerms.ids x3 (ix2 r 0)) (meanOf x0 x1 x2 x3) j * x6 (ix1 j)
  rw [ids_at]
  rfl

include hcol hb in
theorem var_eq : val_main_v80 (F := Ideal) x0 x1 x2 x3 x6 = varOf x0 x1 x2 x3 x6 := by
  funext gj
  obtain ⟨g, j, rfl⟩ : ∃ (g : Fin 50) (j : Fin 128), gj = ix2 g j := ⟨gj 0, gj 1, eq_ix2 gj⟩
  have h69 : val_main_v69 (F := Ideal) x0 x1 x2 x3 x6
      = fun i => Cert.Spec.cenArr (hOf x0 x1 x2) (Cert.KernelIdeal.HostTerms.ids x3) (meanOf x0 x1 x2 x3) x6 i
          * Cert.Spec.cenArr (hOf x0 x1 x2) (Cert.KernelIdeal.HostTerms.ids x3) (meanOf x0 x1 x2 x3) x6 i := by
    funext i
    rw [val_main_v69_apply, cen_eq x0 x1 x2 x3 x6 hcol hb]
    rfl
  have h72 : val_main_v72 (F := Ideal) x0 x1 x2 x3 x6 (ix2 g j)
      = Cert.Spec.sqArr (hOf x0 x1 x2) (Cert.KernelIdeal.HostTerms.ids x3) (meanOf x0 x1 x2 x3) x6 (ix2 g j) := by
    unfold val_main_v72 val_main_v70 val_main_cst_17 val_main_v71
    rw [h69]
    exact seg_at x3 _ g j
  rw [val_main_v80_apply, val_main_v79_apply, idx79 g j, cnt_eq', h72]
  rfl

end Cert.ReferenceIdeal.RefStages

end
-- ==== Proof.LibRsqrtLaw.lean ====
/-
  The one law of this certificate that is not a re-arrangement of sums: dividing by a square root is multiplying by
  the reciprocal square root, on the extended reals, wherever the radicand is positive (a positive real or +∞).
  At a radicand ≤ 0 or -∞ the two sides differ (the quotient by the junk root -∞ is 0, the product with the junk
  reciprocal root -∞ is not), so positivity is stated, and shown where it is used: a variance, a sum of squares over
  a positive count, plus a positive ε.
-/
import Idealize.ShloMosaic.PureOps.Ideal

noncomputable section

namespace Cert.RsqrtLaw

open Idealize.ShloMosaic

/-- A square is not negative on the extended reals, the infinities included (`⊥ * ⊥ = ⊤`). -/
theorem mul_self_nonneg (x : EReal) : 0 ≤ x * x := by
  induction x using EReal.rec with
  | bot => simp
  | top => simp
  | coe r => exact_mod_cast _root_.mul_self_nonneg r

/-- Over a positive radicand `c / √s = c · (1/√s)`. -/
theorem div_sqrt_eq_mul_rsqrt (c s : EReal) (hs : 0 < s) : Ideal.div c (Ideal.sqrt s) = c * Ideal.rsqrt s := by
  induction s using EReal.rec with
  | bot => exact absurd hs (by simp)
  | top =>
    show Ideal.div c ⊤ = c * 0
    rw [Ideal.div, if_neg (by simp), EReal.inv_top]
  | coe r =>
    have hr : 0 < r := by exact_mod_cast hs
    have hsq : 0 < Real.sqrt r := Real.sqrt_pos.mpr hr
    show Ideal.div c (if r < 0 then ⊥ else (Real.sqrt r : EReal)) = c * (if r < 0 then ⊥ else if r = 0 then ⊤ else (((Real.sqrt r)⁻¹ : ℝ) : EReal))
    rw [if_neg (not_lt.mpr hr.le), if_neg (not_lt.mpr hr.le), if_neg hr.ne', Ideal.div,
      if_neg (by exact_mod_cast hsq.ne'), EReal.coe_inv]

end Cert.RsqrtLaw

end
-- ==== Proof.Positivity.lean ====
/-
  Why the reference's quotient by a square root is the kernel's product with the reciprocal root here: the radicand,
  a graph's variance plus ε, is positive on the extended reals. A weight is 0 or 1; a square is not negative (the
  infinities included); a weighted sum of terms that are not negative is not negative; such a sum over a positive real
  count is not negative; and ε is a positive real. So nothing finite is assumed of the inputs.
-/
import proofs.«404709_j72688026518112_2_alg».proof.Proof.Spec
import proofs.«404709_j72688026518112_2_alg».proof.Proof.LibRsqrtLaw
import Idealize.ShloMosaic.Lib.ValueIdx
import Idealize.ShloMosaic.PureOps.Ideal.Laws

noncomputable section

namespace Cert.Spec.Pos

open Idealize.ShloMosaic Idealize.ShloMosaic.ValueIdx Cert.KernelIdeal Cert.Spec

/-- ε is the real 10995116 · 2^(-40): sign bit clear, exponent field 110 (110 - 127 - 23 = -40), fraction field
    2606508 (2^23 + 2606508 = 10995116). -/
theorem eps_eq : eps = (((10995116 : ℝ) * (2 : ℝ) ^ (-40 : Int) : ℝ) : EReal) := by
  simp [eps, Ideal.ofBits, Ideal.ieee, -EReal.coe_mul]

/-- ε as a positive real. -/
theorem eps_real : ∃ r : ℝ, 0 < r ∧ eps = (r : EReal) :=
  ⟨(10995116 : ℝ) * (2 : ℝ) ^ (-40 : Int), by positivity, eps_eq⟩

/-- ε, the f32 nearest 1e-5, is a positive real. -/
theorem eps_pos : 0 < eps := by
  obtain ⟨r, hr, he⟩ := eps_real
  rw [he]; exact_mod_cast hr

theorem oh_nonneg (x : BitVec 32) (g : Fin 50) : 0 ≤ oh x g := by
  unfold oh
  split
  · exact zero_le_one
  · exact le_refl 0

/-- A table read at a row's graph is not negative where the table's column is not. -/
theorem rowOf_nonneg (bx : BitVec 32) (tbl : FVec Ideal S50x128 .f32) (j : Fin 128)
    (h : ∀ g : Fin 50, 0 ≤ tbl (ix2 g j)) : 0 ≤ rowOf bx tbl j := by
  unfold rowOf
  exact Finset.sum_nonneg fun g _ => EReal.mul_nonneg (oh_nonneg bx g) (h g)

/-- A per-graph sum of entries that are not negative is not negative. -/
theorem segSum_nonneg (b : IVec S50000x1 32) (x : FVec Ideal S50000x128 .f32) (hx : ∀ i, 0 ≤ x i)
    (gj : S50x128.Idx) : 0 ≤ segSum b x gj := by
  unfold segSum
  exact Finset.sum_nonneg fun i _ => EReal.mul_nonneg (oh_nonneg _ _) (hx _)

/-- Over a positive real count, a table entry that is not negative stays so. -/
theorem perCount_nonneg (tbl : FVec Ideal S50x128 .f32) (cnt : FVec Ideal S50x1 .f32) (gj : S50x128.Idx)
    (ht : 0 ≤ tbl gj) (hc : ∃ r : ℝ, 0 < r ∧ cnt (ix2 (gj 0) 0) = (r : EReal)) : 0 ≤ perCount tbl cnt gj := by
  obtain ⟨r, hr, hcr⟩ := hc
  unfold perCount
  rw [hcr, Ideal.div_coe hr.ne']
  refine EReal.mul_nonneg ht ?_
  have h1 : (0 : ℝ) ≤ 1 / r := by positivity
  exact_mod_cast h1

/-- The variance table is not negative, whatever h, the ids, the mean and mean_scale, over positive real counts. -/
theorem var_nonneg (h : FVec Ideal S50000x128 .f32) (b : IVec S50000x1 32) (mean : FVec Ideal S50x128 .f32)
    (ms : FVec Ideal S128 .f32) (cnt : FVec Ideal S50x1 .f32)
    (hc : ∀ g : Fin 50, ∃ r : ℝ, 0 < r ∧ cnt (ix2 g 0) = (r : EReal)) (gj : S50x128.Idx) :
    0 ≤ perCount (sqArr h b mean ms) cnt gj := by
  refine perCount_nonneg _ _ _ ?_ (hc (gj 0))
  unfold sqArr
  exact segSum_nonneg _ _ (fun i => Cert.RsqrtLaw.mul_self_nonneg _) gj

/-- The output entry written with the quotient by the root is the output entry. -/
theorem outElt_of_div (hx : EReal) (bx : BitVec 32) (mean var : FVec Ideal S50x128 .f32) (j : Fin 128)
    (msj wj bj : EReal) (hv : ∀ g : Fin 50, 0 ≤ var (ix2 g j)) :
    max (Ideal.div (cenElt hx bx mean j msj) (Ideal.sqrt (rowOf bx var j + eps)) * wj + bj) 0
      = outElt hx bx mean var j msj wj bj := by
  have hpos : 0 < rowOf bx var j + eps :=
    lt_of_lt_of_le eps_pos (le_add_of_nonneg_left (rowOf_nonneg bx var j hv))
  unfold outElt
  rw [Cert.RsqrtLaw.div_sqrt_eq_mul_rsqrt _ _ hpos]

end Cert.Spec.Pos

end
-- ==== Proof.RefValue.lean ====
/-
  The reference's result, stage by stage, is the layer's function of the arguments, wherever no target id is negative
  and every graph id is one of the 50 graphs: its neighbour sum indexes by the id counted from the end when negative,
  which is the id itself when it is not negative; its segment sums and table look-ups are the weighted sums; and its
  quotient by the root of variance + ε is the product with the reciprocal root, the radicand being positive (a sum of
  squares over a positive count, plus a positive ε).
-/
import proofs.«404709_j72688026518112_2_alg».proof.Proof.Gen.ReferenceIdeal.Read
import proofs.«404709_j72688026518112_2_alg».proof.Proof.Spec
import proofs.«404709_j72688026518112_2_alg».proof.Proof.HostTerms
import proofs.«404709_j72688026518112_2_alg».proof.Proof.HostIdx
import proofs.«404709_j72688026518112_2_alg».proof.Proof.RefStages
import proofs.«404709_j72688026518112_2_alg».proof.Proof.Positivity
import proofs.«404709_j72688026518112_2_alg».proof.Proof.LibRsqrtLaw
import Idealize.ShloMosaic.Lib.ValueIdx
import Idealize.ShloMosaic.Lib.Pipeline.Value

noncomputable section
set_option maxRecDepth 16384

namespace Cert.ReferenceIdeal.RefValue

open Idealize.ShloMosaic Idealize.ShloMosaic.ValueIdx Cert.ReferenceIdeal Cert.ReferenceIdeal.Gen Cert.ReferenceIdeal.Read

/-- The graph-id column at row `r` is the graph id of row `r`: a reshape of a vector into a one-column array keeps
    the row-major position, `r · 1 + 0 = r`. -/
private theorem ids_at (x3 : IVec S50000 32) (r : Fin 50000) :
    Cert.KernelIdeal.HostTerms.ids x3 (ix2 r 0) = x3 (ix1 r) := by
  unfold Cert.KernelIdeal.HostTerms.ids
  refine shapeCast_apply x3 _ (ix2 r 0) (ix1 r) ?_
  rewrite [Shape.rowMajor_val_two, Shape.rowMajor_val_one]
  show r.val = r.val * 1 + 0
  omega

/-- The clipping constant, broadcast over the array, is zero everywhere. -/
private theorem zero_at (i : S50000x128.Idx) : val_main_call1_v0 (F := Ideal) i = 0 := by
  rw [val_main_call1_v0_apply, val_main_call1_cst_apply]
  exact Ideal.ofBits_zero_f32

/-- The variance's ε, broadcast over the array, is the specification's ε everywhere: the same word. -/
private theorem eps_at (i : S50000x128.Idx) : val_main_v88 (F := Ideal) i = Cert.Spec.eps := by
  rw [val_main_v88_apply, val_main_cst_23_apply]
  rfl

/-- The weight vector laid along the rows reads, at (r, j), the weight of feature j. -/
private theorem w_at (x4 : FVec Ideal S128 .f32) (r : Fin 50000) (j : Fin 128) :
    val_main_v93 (F := Ideal) x4 (ix2 r j) = x4 (ix1 j) := by
  rw [val_main_v93_apply, val_main_v92_apply]
  exact congrArg x4 (funext fun a => match a with | ⟨0, _⟩ => rfl)

/-- The bias vector laid along the rows reads, at (r, j), the bias of feature j. -/
private theorem bias_at (x5 : FVec Ideal S128 .f32) (r : Fin 50000) (j : Fin 128) :
    val_main_v96 (F := Ideal) x5 (ix2 r j) = x5 (ix1 j) := by
  rw [val_main_v96_apply, val_main_v95_apply]
  exact congrArg x5 (funext fun a => match a with | ⟨0, _⟩ => rfl)

/-- The variance table read at a row's graph (the look-up by the id counted from the end when negative) is, for ids in
    range, the weighted sum over the 50 graphs of the specification's variance table. -/
private theorem var_at (x0 : FVec Ideal S50000x128 .f32) (x1 : IVec S2x640000 32) (x2 : FVec Ideal S640000 .f32)
    (x3 : IVec S50000 32) (x6 : FVec Ideal S128 .f32)
    (hcol : ∀ e : Cert.KernelIdeal.S640000.Idx, 0 ≤ (Cert.KernelIdeal.HostTerms.colIdx x1 e).toInt)
    (hb : ∀ i : Cert.KernelIdeal.S50000.Idx, 0 ≤ (x3 i).toInt ∧ (x3 i).toInt < 50) (r : Fin 50000) (j : Fin 128) :
    val_main_v87 (F := Ideal) x0 x1 x2 x3 x6 (ix2 r j)
      = Cert.Spec.rowOf (x3 (ix1 r)) (RefStages.varOf x0 x1 x2 x3 x6) j := by
  unfold val_main_v87
  rw [RefStages.var_eq x0 x1 x2 x3 x6 hcol hb]
  exact HostIdx.gather_row (RefStages.varOf x0 x1 x2 x3 x6) x3 hb r j

theorem ref_eq (x0 : FVec Ideal S50000x128 .f32) (x1 : IVec S2x640000 32) (x2 : FVec Ideal S640000 .f32)
    (x3 : IVec S50000 32) (x4 x5 x6 : FVec Ideal S128 .f32)
    (hcol : ∀ e : Cert.KernelIdeal.S640000.Idx, 0 ≤ (Cert.KernelIdeal.HostTerms.colIdx x1 e).toInt)
    (hb : ∀ i : Cert.KernelIdeal.S50000.Idx, 0 ≤ (x3 i).toInt ∧ (x3 i).toInt < 50) :
    val_main_v98 (F := Ideal) x0 x1 x2 x3 x4 x5 x6
      = Cert.Spec.layer x0 (Cert.KernelIdeal.HostTerms.agg x0 x1 x2) (Cert.KernelIdeal.HostTerms.ids x3)
          (Cert.KernelIdeal.HostTerms.cnt x3) x6 x4 x5 := by
  -- the variance table is not negative: a sum of squares over a positive real count
  have hv : ∀ (j : Fin 128) (g : Fin 50), 0 ≤ RefStages.varOf x0 x1 x2 x3 x6 (ix2 g j) := fun j g =>
    Cert.Spec.Pos.var_nonneg (RefStages.hOf x0 x1 x2) (Cert.KernelIdeal.HostTerms.ids x3) (RefStages.meanOf x0 x1 x2 x3) x6
      (Cert.KernelIdeal.HostTerms.cnt x3) (fun g => HostIdx.cnt_pos x3 g) (ix2 g j)
  -- the layer is the output array over h, the mean table and the variance table of the arguments
  show _ = Cert.Spec.outArr (RefStages.hOf x0 x1 x2) (Cert.KernelIdeal.HostTerms.ids x3) (RefStages.meanOf x0 x1 x2 x3)
    (RefStages.varOf x0 x1 x2 x3 x6) x6 x4 x5
  funext i
  obtain ⟨r, j, rfl⟩ : ∃ (r : Fin 50000) (j : Fin 128), i = ix2 r j := ⟨i 0, i 1, eq_ix2 i⟩
  -- the last stages at (r, j): clip (quotient · weight + bias), the quotient of the centred entry by the root of
  -- (the variance at the row's graph + ε)
  rw [val_main_v98_apply, val_main_v97_apply, val_main_v94_apply, val_main_v91_apply, val_main_v90_apply,
    val_main_v89_apply, zero_at, bias_at, w_at, eps_at, var_at x0 x1 x2 x3 x6 hcol hb,
    RefStages.cen_eq x0 x1 x2 x3 x6 hcol hb]
  show max (Ideal.div
        (Cert.Spec.cenElt (RefStages.hOf x0 x1 x2 (ix2 r j)) (Cert.KernelIdeal.HostTerms.ids x3 (ix2 r 0))
          (RefStages.meanOf x0 x1 x2 x3) j (x6 (ix1 j)))
        (Ideal.sqrt (Cert.Spec.rowOf (x3 (ix1 r)) (RefStages.varOf x0 x1 x2 x3 x6) j + Cert.Spec.eps))
      * x4 (ix1 j) + x5 (ix1 j)) 0
    = Cert.Spec.outElt (RefStages.hOf x0 x1 x2 (ix2 r j)) (Cert.KernelIdeal.HostTerms.ids x3 (ix2 r 0))
        (RefStages.meanOf x0 x1 x2 x3) (RefStages.varOf x0 x1 x2 x3 x6) j (x6 (ix1 j)) (x4 (ix1 j)) (x5 (ix1 j))
  rw [ids_at]
  exact Cert.Spec.Pos.outElt_of_div _ _ _ _ _ _ _ _ (hv j)

end Cert.ReferenceIdeal.RefValue

end
-- ==== Proof.PreFacts.lean ====
/-
  What the precondition says of the two index inputs: every edge's target id is not negative, and every row's graph
  id is one of the 50 graphs. Read off the printed predicate: a conjunction of all-reductions of elementwise signed
  comparisons.
-/
import proofs.«404709_j72688026518112_2_alg».proof.Pre_finite_inputs
import proofs.«404709_j72688026518112_2_alg».proof.Proof.Gen.Pre_finite_inputs
import proofs.«404709_j72688026518112_2_alg».proof.Proof.HostTerms
import Idealize.ShloMosaic.PureOps.Ideal
import Idealize.ShloMosaic.Lib.ReduceAll
import Idealize.ShloMosaic.Lib.StableHlo.Predicate

noncomputable section

namespace Cert.PreFacts

open Idealize.ShloMosaic

variable {a0 : FVec Ideal Cert.Pre_finite_inputs.S50000x128 .f32} {a1 : IVec Cert.Pre_finite_inputs.S2x640000 32}
  {a2 : FVec Ideal Cert.Pre_finite_inputs.S640000 .f32} {a3 : IVec Cert.Pre_finite_inputs.S50000 32}
  {a4 a5 a6 : FVec Ideal Cert.Pre_finite_inputs.S128 .f32}

/-- The scalar shape has exactly one index. -/
local instance : Subsingleton Cert.Pre_finite_inputs.S_.Idx := ⟨fun a b => funext fun d => d.elim0⟩

/-- The zero word reads 0 signed; the word 50 reads 50. -/
private theorem toInt_zero32 : (0#32 : BitVec 32).toInt = 0 := by decide
private theorem toInt_fifty32 : (50#32 : BitVec 32).toInt = 50 := by decide

/-- The predicate's last two conjuncts, each read at an element: the comparison word of the target-id column against 0
    is 1 at every edge, and both comparison words of the graph-id column (against 0 and against 50) are 1 at every row.
    The predicate is a chain of conjunctions of scalar words; a conjunction is 1 exactly when both sides are, and an
    all-reduction by conjunction that is 1 had a 1 at every element. -/
private theorem decode (h : Cert.Pre_finite_inputs.fn (F := Ideal) a0 a1 a2 a3 a4 a5 a6 = fun _ => 1#1) :
    (∀ e : Cert.Pre_finite_inputs.S640000.Idx,
        IntOp.cmpi .sge (shapeCast Cert.Pre_finite_inputs.S640000
          (extractStridedSlice Cert.Pre_finite_inputs.S1x640000 ![1, 0] a1
            Cert.Pre_finite_inputs.Facts.slices_S2x640000_S1x640000_1_0)
          Cert.Pre_finite_inputs.Facts.shapeCasts_S1x640000_S640000 e) 0#32 = 1#1) ∧
      (∀ i : Cert.Pre_finite_inputs.S50000.Idx,
        IntOp.cmpi .sge (a3 i) 0#32 = 1#1 ∧ IntOp.cmpi .slt (a3 i) 50#32 = 1#1) := by
  have h0 := congrFun h (fun a => a.elim0)
  dsimp only [Cert.Pre_finite_inputs.fn, Cert.Pre_finite_inputs.fn_part1, Cert.Pre_finite_inputs.fn_part2] at h0
  obtain ⟨h1, hb⟩ := IntOp.andi_eq_one.1 h0
  obtain ⟨-, hc⟩ := IntOp.andi_eq_one.1 h1
  refine ⟨fun e => ?_, fun i => ?_⟩
  · exact Host.reduce_andi_all _ _ _ _ _ hc e
  · exact IntOp.andi_eq_one.1 (Host.reduce_andi_all _ _ _ _ _ hb i)

/-- No edge's target id is negative. -/
theorem col_nonneg (h : Cert.Pre_finite_inputs.fn (F := Ideal) a0 a1 a2 a3 a4 a5 a6 = fun _ => 1#1) :
    ∀ e : Cert.KernelIdeal.S640000.Idx, 0 ≤ (Cert.KernelIdeal.HostTerms.colIdx a1 e).toInt := by
  intro e
  have hc := (decode h).1 e
  rw [IntOp.cmpi_sge, toInt_zero32] at hc
  exact hc

/-- Every row's graph id is one of the 50 graphs. -/
theorem batch_range (h : Cert.Pre_finite_inputs.fn (F := Ideal) a0 a1 a2 a3 a4 a5 a6 = fun _ => 1#1) :
    ∀ i : Cert.KernelIdeal.S50000.Idx, 0 ≤ (a3 i).toInt ∧ (a3 i).toInt < 50 := by
  intro i
  obtain ⟨hge, hlt⟩ := (decode h).2 i
  rw [IntOp.cmpi_sge, toInt_zero32] at hge
  rw [IntOp.cmpi_slt, toInt_fifty32] at hlt
  exact ⟨hge, hlt⟩

end Cert.PreFacts

end
-- ==== Proof.lean ====
/-
  The certificate of a graph layer: normalised neighbour aggregation, a residual, a per-graph normalisation and a
  ReLU, over 50000 nodes of 128 features in 50 graphs.

  Both programs compute, on the extended reals, h = node + agg; per graph g the mean of h's rows of g; the centred
  c = h − mean(graph of row) · mean_scale; per graph the mean of c²; and max(c · (var(graph of row) + ε)^(-1/2) ·
  weight + bias, 0). The kernel program does the per-graph sums and the per-row table look-ups with a one-hot matrix
  product, ten blocks of 5000 rows at a time, in three kernels with host quotients between them; the reference does
  them with segment sums and gathers, and divides by the root where the kernel multiplies by the reciprocal root.

  The two agree wherever the index inputs are in the range the reference indexes with: no edge's target id negative
  (the reference's neighbour sum counts a negative id from the end, the kernel program's drops it) and every graph id
  one of the 50 graphs (the reference's look-up clamps an id outside, the one-hot product gives zero). There:
    · the neighbour sum is the same host operations in both programs;
    · a segment sum and a one-hot product are the same weighted sum over all rows, a gather and a one-hot product the
      same weighted sum over the graphs (0 · x = 0 and 1 · x = x at the infinities too; sums regroup freely);
    · the radicand var + ε is positive (a sum of squares over a positive count, plus a positive ε), so the quotient by
      its root is the product with its reciprocal root.
  Nothing is assumed finite beyond what the statement says; the finiteness of the float inputs is never used.

  The three frames: the two kernel programs' are the generated frame certificates; the reference's is its generated
  run with the result dropped. The ideal pass rewrote nothing, so `preserves` is `True`.
-/
import proofs.«404709_j72688026518112_2_alg».proof.Defs
import proofs.«404709_j72688026518112_2_alg».proof.Proof.Gen.Kernel
import proofs.«404709_j72688026518112_2_alg».proof.Proof.Gen.Kernel.Skeleton
import proofs.«404709_j72688026518112_2_alg».proof.Proof.Gen.Kernel.Launch
import proofs.«404709_j72688026518112_2_alg».proof.Proof.Gen.Kernel.Points
import proofs.«404709_j72688026518112_2_alg».proof.Proof.Gen.Kernel.Frame
import proofs.«404709_j72688026518112_2_alg».proof.Proof.Gen.KernelIdeal
import proofs.«404709_j72688026518112_2_alg».proof.Proof.Gen.KernelIdeal.Skeleton
import proofs.«404709_j72688026518112_2_alg».proof.Proof.Gen.KernelIdeal.Launch
import proofs.«404709_j72688026518112_2_alg».proof.Proof.Gen.KernelIdeal.Points
import proofs.«404709_j72688026518112_2_alg».proof.Proof.Gen.KernelIdeal.Frame
import proofs.«404709_j72688026518112_2_alg».proof.Proof.Gen.ReferenceIdeal
import proofs.«404709_j72688026518112_2_alg».proof.Proof.Gen.Pre_finite_inputs
import proofs.«404709_j72688026518112_2_alg».proof.Proof.Gen.ReferenceIdeal.Run
import proofs.«404709_j72688026518112_2_alg».proof.Proof.Gen.ReferenceIdeal.Read
import proofs.«404709_j72688026518112_2_alg».proof.Proof.KRun
import proofs.«404709_j72688026518112_2_alg».proof.Proof.KValue
import proofs.«404709_j72688026518112_2_alg».proof.Proof.RefValue
import proofs.«404709_j72688026518112_2_alg».proof.Proof.PreFacts
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the layer's function of the arguments: the kernel program's by following
    its buffers through @main, the reference's by reading its stages under the precondition's two index facts. -/
theorem algebraic : Cert.algebraic_KernelIdeal_ReferenceIdeal := by
  intro m ρ m' ρ' hpre hagree
  refine ⟨fun c => Cert.Spec.layer (m ((c.tc : Thread Cert.KernelIdeal.nD Cert.KernelIdeal.τ).loc Cert.KernelIdeal.main_arg0))
      (Cert.KernelIdeal.HostTerms.agg (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2)))
      (Cert.KernelIdeal.HostTerms.ids (m ((c.tc : Thread Cert.KernelIdeal.nD Cert.KernelIdeal.τ).loc Cert.KernelIdeal.main_arg3)))
      (Cert.KernelIdeal.HostTerms.cnt (m ((c.tc : Thread Cert.KernelIdeal.nD Cert.KernelIdeal.τ).loc Cert.KernelIdeal.main_arg3)))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KValue.value m ρ c), (h c).2⟩)
      (Cert.KernelIdeal.KRun.run_named (F := Ideal) m ρ)
  · refine (θ_run Cert.ReferenceIdeal.defs _ _).mono (fun _ h c => ⟨?_, (h c).2⟩)
      (Cert.ReferenceIdeal.Value.run (F := Ideal) m' ρ')
    obtain ⟨h0, h1, h2, h3, h4, h5, h6⟩ := hagree c
    refine (h c).1.trans ((Cert.ReferenceIdeal.Read.val_main_v98_eq m' c).trans ?_)
    rw [h0, h1, h2, h3, h4, h5, h6]
    exact Cert.ReferenceIdeal.RefValue.ref_eq _ _ _ _ _ _ _ (Cert.PreFacts.col_nonneg (hpre c))
      (Cert.PreFacts.batch_range (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
